-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S4x4x128 : Shape := ⟨3, ![4, 4, 128]⟩
abbrev S128 : Shape := ⟨1, ![128]⟩
abbrev S4x128x128 : Shape := ⟨3, ![4, 128, 128]⟩
abbrev S128x2 : Shape := ⟨2, ![128, 2]⟩
abbrev S2 : Shape := ⟨1, ![2]⟩
abbrev S2x1600000 : Shape := ⟨2, ![2, 1600000]⟩
abbrev S100000 : Shape := ⟨1, ![100000]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x4x128 : S_.BroadcastsInDim S4x4x128 (![] : Fin 0 → Fin S4x4x128.rank)
  reducesTo_S4x4x128_S_d0_1_2 : S4x4x128.ReducesTo [0, 1, 2] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S128 .f32) (main_arg5 : FVec F S128x2 .f32) (main_arg6 : FVec F S2 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg5
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x4 .f32) (main_arg1 : FVec F S4x4x128 .f32) (main_arg2 : FVec F S128 .f32) (main_arg3 : FVec F S4x128x128 .f32) (main_arg4 : FVec F S128 .f32) (main_arg5 : FVec F S128x2 .f32) (main_arg6 : FVec F S2 .f32) (main_arg7 : IVec S2x1600000 32) (main_arg8 : IVec S100000 32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x4x128 .f32 := Host.absf main_arg1
  let main_cst_0 : FVec F S_ .f32 := constant S_ .f32 0x7F800000#32
  let main_v5 : FVec F S4x4x128 .f32 := broadcastInDim S4x4x128 ![] bcast_S_S4x4x128 main_cst_0
  let main_v6 : IVec S4x4x128 1 := cmpf .olt main_v4 main_v5
  let main_c_1 : IVec S_ 1 := constantI S_ 1 1#1
  let main_v7 : IVec S_ 1 := (fun x v => Host.reduce IntOp.andi x v reducesTo_S4x4x128_S_d0_1_2 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_arg5 main_arg6 main_v13 main_v16
-- ==== Kernel.lean ====
abbrev S100000x4 : Shape := ⟨2, ![100000, 4]⟩
abbrev S4x4x128 : Shape := ⟨3, ![4, 4, 128]⟩
abbrev S128 : Shape := ⟨1, ![128]⟩
abbrev S4x128x128 : Shape := ⟨3, ![4, 128, 128]⟩
abbrev S128x2 : Shape := ⟨2, ![128, 2]⟩
abbrev S2 : Shape := ⟨1, ![2]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x4 : Shape := ⟨2, ![1600000, 4]⟩
abbrev S100000x16 : Shape := ⟨2, ![100000, 16]⟩
abbrev S16x128 : Shape := ⟨2, ![16, 128]⟩
abbrev S1x128 : Shape := ⟨2, ![1, 128]⟩
abbrev S100000x128 : Shape := ⟨2, ![100000, 128]⟩
abbrev S4000x16 : Shape := ⟨2, ![4000, 16]⟩
abbrev S4000x128 : Shape := ⟨2, ![4000, 128]⟩
abbrev S1600000x128 : Shape := ⟨2, ![1600000, 128]⟩
abbrev S100000x1 : Shape := ⟨2, ![100000, 1]⟩
abbrev S25x128x128 : Shape := ⟨3, ![25, 128, 128]⟩
abbrev S4000x1 : Shape := ⟨2, ![4000, 1]⟩
abbrev S1x128x128 : Shape := ⟨3, ![1, 128, 128]⟩
abbrev S128x128 : Shape := ⟨2, ![128, 128]⟩
abbrev S128x1 : Shape := ⟨2, ![128, 1]⟩
abbrev S1x2 : Shape := ⟨2, ![1, 2]⟩

abbrev nBuf : Space → Nat
  | .hbm => 188
  | .vmem => 20
  | .smem => 0
  | _ => 0

abbrev hbmTy0_0 (i : Nat) : BufTy := match i % 128 with
  | 0 => ⟨S100000x4, .f32⟩
  | 1 => ⟨S4x4x128, .f32⟩
  | 2 => ⟨S128, .f32⟩
  | 3 => ⟨S4x128x128, .f32⟩
  | 4 => ⟨S128, .f32⟩
  | 5 => ⟨S128x2, .f32⟩
  | 6 => ⟨S2, .f32⟩
  | 7 => ⟨S2x1600000, .i32⟩
  | 8 => ⟨S100000, .i32⟩
  | 9 => ⟨S1x1600000, .i32⟩
  | 10 => ⟨S1600000, .i32⟩
  | 11 => ⟨S1x1600000, .i32⟩
  | 12 => ⟨S1600000, .i32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x4, .f32⟩
  | 62 => ⟨S1600000x1, .f32⟩
  | 63 => ⟨S1600000x4, .f32⟩
  | 64 => ⟨S1600000x4, .f32⟩
  | 65 => ⟨S_, .f32⟩
  | 66 => ⟨S100000x4, .f32⟩
  | 67 => ⟨S1600000x1, .i32⟩
  | 68 => ⟨S100000x4, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x4, .f32⟩
  | 78 => ⟨S1600000x1, .f32⟩
  | 79 => ⟨S1600000x4, .f32⟩
  | 80 => ⟨S1600000x4, .f32⟩
  | 81 => ⟨S_, .f32⟩
  | 82 => ⟨S100000x4, .f32⟩
  | 83 => ⟨S1600000x1, .i32⟩
  | 84 => ⟨S100000x4, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x4, .f32⟩
  | 94 => ⟨S1600000x1, .f32⟩
  | 95 => ⟨S1600000x4, .f32⟩
  | 96 => ⟨S1600000x4, .f32⟩
  | 97 => ⟨S_, .f32⟩
  | 98 => ⟨S100000x4, .f32⟩
  | 99 => ⟨S1600000x1, .i32⟩
  | 100 => ⟨S100000x4, .f32⟩
  | 101 => ⟨S100000x16, .f32⟩
  | 102 => ⟨S16x128, .f32⟩
  | 103 => ⟨S1x128, .f32⟩
  | 104 => ⟨S100000x128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S1600000x1, .f32⟩
  | 115 => ⟨S1600000x128, .f32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x4, .f32⟩

abbrev hbmTy0_1 (i : Nat) : BufTy := match i % 128 with
  | 0 => ⟨S1600000x1, .i32⟩
  | 1 => ⟨S1600000x128, .f32⟩
  | 2 => ⟨S1600000x1, .f32⟩
  | 3 => ⟨S1600000x128, .f32⟩
  | 4 => ⟨S1600000x128, .f32⟩
  | 5 => ⟨S_, .f32⟩
  | 6 => ⟨S100000x128, .f32⟩
  | 7 => ⟨S1600000x1, .i32⟩
  | 8 => ⟨S100000x128, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x128, .f32⟩
  | 18 => ⟨S1600000x1, .f32⟩
  | 19 => ⟨S1600000x128, .f32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S100000x1, .i32⟩
  | 26 => ⟨S1x128, .f32⟩
  | 27 => ⟨S25x128x128, .f32⟩
  | 28 => ⟨S_, .f32⟩
  | 29 => ⟨S128x128, .f32⟩
  | 30 => ⟨S_, .f32⟩
  | 31 => ⟨S100000, .f32⟩
  | 32 => ⟨S_, .f32⟩
  | 33 => ⟨S128, .f32⟩
  | 34 => ⟨S100000x1, .i32⟩
  | 35 => ⟨S128, .f32⟩
  | 36 => ⟨S_, .f32⟩
  | 37 => ⟨S128, .f32⟩
  | 38 => ⟨S128, .f32⟩
  | 39 => ⟨S128x1, .f32⟩
  | 40 => ⟨S128x128, .f32⟩
  | 41 => ⟨S128x128, .f32⟩
  | 42 => ⟨S128x2, .f32⟩
  | 43 => ⟨S1x2, .f32⟩
  | 44 => ⟨S128x2, .f32⟩
  | 45 => ⟨S128x2, .f32⟩
  | 46 => ⟨S_, .f32⟩
  | 47 => ⟨S128, .f32⟩
  | 48 => ⟨S_, .f32⟩
  | 49 => ⟨S128, .f32⟩
  | 50 => ⟨S128, .f32⟩
  | 51 => ⟨S128x1, .f32⟩
  | 52 => ⟨S128x2, .f32⟩
  | 53 => ⟨S128x2, .f32⟩
  | 54 => ⟨S128x2, .f32⟩
  | 55 => ⟨S_, .f32⟩
  | 56 => ⟨S128, .f32⟩
  | 57 => ⟨S128x1, .f32⟩
  | 58 => ⟨S128x2, .f32⟩
  | 59 => ⟨S128x2, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S4000x16, .f32⟩
  | .local _ .vmem, ⟨1, _⟩ => ⟨S4000x16, .f32⟩
  | .local _ .vmem, ⟨2, _⟩ => ⟨S16x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4x128x128, .f32⟩
  | .local _ .vmem, ⟨15, _⟩ => ⟨S1x128, .f32⟩
  | .local _ .vmem, ⟨16, _⟩ => ⟨S4000x1, .i32⟩
  | .local _ .vmem, ⟨17, _⟩ => ⟨S4000x1, .i32⟩
  | .local _ .vmem, ⟨18, _⟩ => ⟨S1x128x128, .f32⟩
  | .local _ .vmem, ⟨19, _⟩ => ⟨S1x128x128, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_c_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_16 : Ref sig .tc := ⟨.hbm, 105, rfl⟩
abbrev main_v76 : Ref sig .tc := ⟨.hbm, 106, rfl⟩
abbrev main_v77 : Ref sig .tc := ⟨.hbm, 107, rfl⟩
abbrev main_c_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_18 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_19 : Ref sig .tc := ⟨.hbm, 121, rfl⟩
abbrev main_v89 : Ref sig .tc := ⟨.hbm, 122, rfl⟩
abbrev main_v90 : Ref sig .tc := ⟨.hbm, 123, rfl⟩
abbrev main_c_20 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_21 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_22 : Ref sig .tc := ⟨.hbm, 137, rfl⟩
abbrev main_v102 : Ref sig .tc := ⟨.hbm, 138, rfl⟩
abbrev main_v103 : Ref sig .tc := ⟨.hbm, 139, rfl⟩
abbrev main_c_23 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_24 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_25 : Ref sig .tc := ⟨.hbm, 156, rfl⟩
abbrev main_v118 : Ref sig .tc := ⟨.hbm, 157, rfl⟩
abbrev main_cst_26 : Ref sig .tc := ⟨.hbm, 158, rfl⟩
abbrev main_v119 : Ref sig .tc := ⟨.hbm, 159, rfl⟩
abbrev main_cst_27 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_28 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_29 : Ref sig .tc := ⟨.hbm, 174, rfl⟩
abbrev main_v132 : Ref sig .tc := ⟨.hbm, 175, rfl⟩
abbrev main_cst_30 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_31 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x1 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x4_0_1 : S1600000x1.BroadcastsInDim S1600000x4 (![0, 1] : Fin 2 → Fin S1600000x4.rank)
  bcast_S_S100000x4 : S_.BroadcastsInDim S100000x4 (![] : Fin 0 → Fin S100000x4.rank)
  concatenates_S100000x4_S100000x4_S100000x4_S100000x4_S100000x16_d1 : Shape.Concatenates [S100000x4, S100000x4, S100000x4, S100000x4] S100000x16 1
  shapeCasts_S4x4x128_S16x128 : S4x4x128.ShapeCasts S16x128
  shapeCasts_S128_S1x128 : S128.ShapeCasts S1x128
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S4000x128_S4000x128 : S4000x128.ShapeCasts S4000x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x128x128_S1x128x128_1_0_0 : ∀ a, (![1, 0, 0] : Fin 3 → Nat) a + S1x128x128.size a ≤ S4x128x128.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S1x128_d1_w32 : S1x128.Iotas .tc 32 [1]
  broadcasts_S4000x1_S4000x128 : S4000x1.Broadcasts S4000x128
  natLt_1_32 : 1 < 32
  inb_S1x128x128_S1x128x128_0_0_0 : ∀ a, (![0, 0, 0] : Fin 3 → Nat) a + S1x128x128.size a ≤ S1x128x128.size a
  shapeCasts_S128x128_S1x128x128 : S128x128.ShapeCasts S1x128x128
  reducesTo_S25x128x128_S128x128_d0 : S25x128x128.ReducesTo [0] S128x128
  h_S_ : 0 < S_.numel
  bcast_S_S128 : S_.BroadcastsInDim S128 (![] : Fin 0 → Fin S128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  reducesTo_S128x2_S128_d1 : S128x2.ReducesTo [1] S128
  bcast_S128x1_S128x2_0_1 : S128x1.BroadcastsInDim S128x2 (![0, 1] : Fin 2 → Fin S128x2.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  dot_S4000x16_S16x128_S4000x128_1_0_0_1_n_n_wf : DotDims.WF S4000x16 S16x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S4000x128_S128x128_0_0_1_1_n_n_wf : DotDims.WF S4000x128 S4000x128 S128x128 [0] [0] [1] [1] [] []
  scatter_S128_S100000x1_S100000_n_0_0_1_wf : ScatterDims.WF S128 S100000x1 S100000 [] [0] [0] 1
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S100000x16.size a
  hwx0_0 : ∀ i : grid0.Coords, EltTy.bits .f32 = 32 ∨ (Rect.block (s := S100000x16) S4000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x128x128.size a ≤ S4x128x128.size a
  hwx1_4 : ∀ i : grid1.Coords, EltTy.bits .f32 = 32 ∨ (Rect.block (s := S4x128x128) S4x128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x1.size a ≤ S100000x1.size a
  hwx1_6 : ∀ i : grid1.Coords, EltTy.bits .i32 = 32 ∨ (Rect.block (s := S100000x1) S4000x1.size (cc1_transform_6 i) (hinb1_6 i)).WholeWords (EltTy.packing .i32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128x128.size a ≤ S25x128x128.size a
  hwx1_7 : ∀ i : grid1.Coords, EltTy.bits .f32 = 32 ∨ (Rect.block (s := S25x128x128) S1x128x128.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S4000x128_S128x128_0_0_1_1_n_n : DotDims S4000x128 S4000x128 S128x128 where
  lhsContracting := [0]
  rhsContracting := [0]
  lhsNonContracting := [1]
  rhsNonContracting := [1]
  lhsBatch := []
  rhsBatch := []
  wf := dot_S4000x128_S4000x128_S128x128_0_0_1_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_v72) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v73) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v74) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v75) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v75) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v88) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v101) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v114) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S4x128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v116) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v115) S4000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v117) S1x128x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x4 : Shape := ⟨2, ![100000, 4]⟩
abbrev S4x4x128 : Shape := ⟨3, ![4, 4, 128]⟩
abbrev S128 : Shape := ⟨1, ![128]⟩
abbrev S4x128x128 : Shape := ⟨3, ![4, 128, 128]⟩
abbrev S128x2 : Shape := ⟨2, ![128, 2]⟩
abbrev S2 : Shape := ⟨1, ![2]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x4x128 : Shape := ⟨3, ![1, 4, 128]⟩
abbrev S4x128 : Shape := ⟨2, ![4, 128]⟩
abbrev S100000x128 : Shape := ⟨2, ![100000, 128]⟩
abbrev S1600000x4 : Shape := ⟨2, ![1600000, 4]⟩
abbrev S1x128 : Shape := ⟨2, ![1, 128]⟩
abbrev S1x128x128 : Shape := ⟨3, ![1, 128, 128]⟩
abbrev S128x128 : Shape := ⟨2, ![128, 128]⟩
abbrev S1600000x128 : Shape := ⟨2, ![1600000, 128]⟩
abbrev S100000x1 : Shape := ⟨2, ![100000, 1]⟩
abbrev S128x1 : Shape := ⟨2, ![128, 1]⟩
abbrev S1x2 : Shape := ⟨2, ![1, 2]⟩

abbrev nBuf : Space → Nat
  | .hbm => 225
  | .vmem => 0
  | .smem => 0
  | _ => 0

abbrev hbmTy0_0 (i : Nat) : BufTy := match i % 128 with
  | 0 => ⟨S100000x4, .f32⟩
  | 1 => ⟨S4x4x128, .f32⟩
  | 2 => ⟨S128, .f32⟩
  | 3 => ⟨S4x128x128, .f32⟩
  | 4 => ⟨S128, .f32⟩
  | 5 => ⟨S128x2, .f32⟩
  | 6 => ⟨S2, .f32⟩
  | 7 => ⟨S2x1600000, .i32⟩
  | 8 => ⟨S100000, .i32⟩
  | 9 => ⟨S1x1600000, .i32⟩
  | 10 => ⟨S1600000, .i32⟩
  | 11 => ⟨S1x1600000, .i32⟩
  | 12 => ⟨S1600000, .i32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1x4x128, .f32⟩
  | 54 => ⟨S4x128, .f32⟩
  | 55 => ⟨S100000x128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x4, .f32⟩
  | 65 => ⟨S1600000x1, .f32⟩
  | 66 => ⟨S1600000x4, .f32⟩
  | 67 => ⟨S1600000x4, .f32⟩
  | 68 => ⟨S_, .f32⟩
  | 69 => ⟨S100000x4, .f32⟩
  | 70 => ⟨S1600000x1, .i32⟩
  | 71 => ⟨S100000x4, .f32⟩
  | 72 => ⟨S1x4x128, .f32⟩
  | 73 => ⟨S4x128, .f32⟩
  | 74 => ⟨S100000x128, .f32⟩
  | 75 => ⟨S100000x128, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x4, .f32⟩
  | 85 => ⟨S1600000x1, .f32⟩
  | 86 => ⟨S1600000x4, .f32⟩
  | 87 => ⟨S1600000x4, .f32⟩
  | 88 => ⟨S_, .f32⟩
  | 89 => ⟨S100000x4, .f32⟩
  | 90 => ⟨S1600000x1, .i32⟩
  | 91 => ⟨S100000x4, .f32⟩
  | 92 => ⟨S1x4x128, .f32⟩
  | 93 => ⟨S4x128, .f32⟩
  | 94 => ⟨S100000x128, .f32⟩
  | 95 => ⟨S100000x128, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x4, .f32⟩
  | 105 => ⟨S1600000x1, .f32⟩
  | 106 => ⟨S1600000x4, .f32⟩
  | 107 => ⟨S1600000x4, .f32⟩
  | 108 => ⟨S_, .f32⟩
  | 109 => ⟨S100000x4, .f32⟩
  | 110 => ⟨S1600000x1, .i32⟩
  | 111 => ⟨S100000x4, .f32⟩
  | 112 => ⟨S1x4x128, .f32⟩
  | 113 => ⟨S4x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S1x128x128, .f32⟩
  | 123 => ⟨S128x128, .f32⟩
  | 124 => ⟨S100000x128, .f32⟩
  | 125 => ⟨S_, .i32⟩
  | 126 => ⟨S1600000, .i32⟩
  | 127 => ⟨S1600000, .i1⟩
  | _ => ⟨S100000x4, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x128, .f32⟩
  | 6 => ⟨S1600000x1, .f32⟩
  | 7 => ⟨S1600000x128, .f32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S1x128x128, .f32⟩
  | 14 => ⟨S128x128, .f32⟩
  | 15 => ⟨S100000x128, .f32⟩
  | 16 => ⟨S100000x128, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S1600000x1, .f32⟩
  | 27 => ⟨S1600000x128, .f32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S1x128x128, .f32⟩
  | 34 => ⟨S128x128, .f32⟩
  | 35 => ⟨S100000x128, .f32⟩
  | 36 => ⟨S100000x128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S1600000x1, .f32⟩
  | 47 => ⟨S1600000x128, .f32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S1x128x128, .f32⟩
  | 54 => ⟨S128x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S_, .f32⟩
  | 64 => ⟨S128x128, .f32⟩
  | 65 => ⟨S100000x1, .i32⟩
  | 66 => ⟨S128x128, .f32⟩
  | 67 => ⟨S_, .f32⟩
  | 68 => ⟨S100000, .f32⟩
  | 69 => ⟨S_, .f32⟩
  | 70 => ⟨S128, .f32⟩
  | 71 => ⟨S100000x1, .i32⟩
  | 72 => ⟨S128, .f32⟩
  | 73 => ⟨S_, .f32⟩
  | 74 => ⟨S128, .f32⟩
  | 75 => ⟨S128, .f32⟩
  | 76 => ⟨S128x1, .f32⟩
  | 77 => ⟨S128x128, .f32⟩
  | 78 => ⟨S128x128, .f32⟩
  | 79 => ⟨S128x2, .f32⟩
  | 80 => ⟨S1x2, .f32⟩
  | 81 => ⟨S128x2, .f32⟩
  | 82 => ⟨S128x2, .f32⟩
  | 83 => ⟨S_, .f32⟩
  | 84 => ⟨S128, .f32⟩
  | 85 => ⟨S_, .f32⟩
  | 86 => ⟨S128, .f32⟩
  | 87 => ⟨S128, .f32⟩
  | 88 => ⟨S128x1, .f32⟩
  | 89 => ⟨S128x2, .f32⟩
  | 90 => ⟨S128x2, .f32⟩
  | 91 => ⟨S128x2, .f32⟩
  | 92 => ⟨S_, .f32⟩
  | 93 => ⟨S128, .f32⟩
  | 94 => ⟨S128x1, .f32⟩
  | 95 => ⟨S128x2, .f32⟩
  | 96 => ⟨S128x2, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_c_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_call1_cst : Ref sig .tc := ⟨.hbm, 119, rfl⟩
abbrev main_call1_v0 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_16 : Ref sig .tc := ⟨.hbm, 125, rfl⟩
abbrev main_v94 : Ref sig .tc := ⟨.hbm, 126, rfl⟩
abbrev main_v95 : Ref sig .tc := ⟨.hbm, 127, rfl⟩
abbrev main_c_17 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_18 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_c_19 : Ref sig .tc := ⟨.hbm, 145, rfl⟩
abbrev main_v111 : Ref sig .tc := ⟨.hbm, 146, rfl⟩
abbrev main_v112 : Ref sig .tc := ⟨.hbm, 147, rfl⟩
abbrev main_c_20 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_21 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_c_22 : Ref sig .tc := ⟨.hbm, 165, rfl⟩
abbrev main_v128 : Ref sig .tc := ⟨.hbm, 166, rfl⟩
abbrev main_v129 : Ref sig .tc := ⟨.hbm, 167, rfl⟩
abbrev main_c_23 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_24 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_call2_cst : Ref sig .tc := ⟨.hbm, 188, rfl⟩
abbrev main_call2_v0 : Ref sig .tc := ⟨.hbm, 189, rfl⟩
abbrev main_v148 : Ref sig .tc := ⟨.hbm, 190, rfl⟩
abbrev main_cst_25 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_26 : Ref sig .tc := ⟨.hbm, 195, rfl⟩
abbrev main_v152 : Ref sig .tc := ⟨.hbm, 196, rfl⟩
abbrev main_cst_27 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_28 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_29 : Ref sig .tc := ⟨.hbm, 211, rfl⟩
abbrev main_v165 : Ref sig .tc := ⟨.hbm, 212, rfl⟩
abbrev main_cst_30 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_cst_31 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S4x4x128_S1x4x128_0_0_0 : S4x4x128.Slices ![0, 0, 0] S1x4x128
  shapeCasts_S1x4x128_S4x128 : S1x4x128.ShapeCasts S4x128
  bcast_S1600000x1_S1600000x4_0_1 : S1600000x1.BroadcastsInDim S1600000x4 (![0, 1] : Fin 2 → Fin S1600000x4.rank)
  bcast_S_S100000x4 : S_.BroadcastsInDim S100000x4 (![] : Fin 0 → Fin S100000x4.rank)
  slices_S4x4x128_S1x4x128_1_0_0 : S4x4x128.Slices ![1, 0, 0] S1x4x128
  slices_S4x4x128_S1x4x128_2_0_0 : S4x4x128.Slices ![2, 0, 0] S1x4x128
  slices_S4x4x128_S1x4x128_3_0_0 : S4x4x128.Slices ![3, 0, 0] S1x4x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  reducesTo_S128x2_S128_d1 : S128x2.ReducesTo [1] S128
  h_S_ : 0 < S_.numel
  bcast_S128x1_S128x2_0_1 : S128x1.BroadcastsInDim S128x2 (![0, 1] : Fin 2 → Fin S128x2.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x4_S4x128_S100000x128_1_0_0_1_n_n_wf : DotDims.WF S100000x4 S4x128 S100000x128 [1] [0] [0] [1] [] []
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x2_S128x2_1_0_0_1_n_n_wf : DotDims.WF S128x128 S128x2 S128x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.KB.Reg0.lean ====
/-
  The first launch (the dense layer over the sixteen hop features), at any float instance, from the buffer contents V the
  launch is entered with.

  Grid point t stages rows 4000·t … 4000·t + 3999 of the [100000, 16] feature array, the whole [16, 128] weight and the
  [1, 128] bias, and writes back rows 4000·t … of the [100000, 128] result. The body reads the three staged blocks whole
  and stores ONE value over the whole output block: the maximum of zero and (features · weight + bias). So after the body
  the output's staging buffer is that value of the three input blocks (out0_3), the inputs' buffers are unchanged, and
  nothing else is touched: the body obligation of the launch theorem, at every grid point.
-/
import proofs.«429956_j56246891708529_3_alg».proof.Proof.Gen.Kernel.Launch
import proofs.«429956_j56246891708529_3_alg».proof.Proof.Gen.Kernel.Skeleton
import proofs.«429956_j56246891708529_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, whether the point fetches it or not (a block that
    is not fetched again has not moved), for any proof data over the arrays V whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staged block whole -/

abbrev r0_0 : Rect S4000x16 := Rect.unit (s := S4000x16) ![0, 0] S4000x16.size inb_S4000x16_S4000x16_0_0
abbrev r0_1 : Rect S16x128 := Rect.unit (s := S16x128) ![0, 0] S16x128.size inb_S16x128_S16x128_0_0
abbrev r0_2 : Rect S1x128 := Rect.unit (s := S1x128) ![0, 0] S1x128.size inb_S1x128_S1x128_0_0
abbrev r0_3 : Rect S4000x128 := Rect.unit (s := S4000x128) ![0, 0] S4000x128.size inb_S4000x128_S4000x128_0_0

/-- The output block after the body, from the three input blocks: its one store, of the body's value of the loads. -/
def out0_3 (x0 : Vec F S4000x16 .f32) (x1 : Vec F S16x128 .f32) (x2 : Vec F S1x128 .f32) : Vec F S4000x128 .f32 :=
  View.canon [⟨r0_3, k0_pay1 (View.ld x0 r0_0) (View.ld x1 r0_1) (View.ld x2 r0_2)⟩]

/-- The one store is of the whole block, so it covers it. -/
theorem cover0_3 (p0 : Vec F S4000x128 .f32) (y : S4000x128.Idx) :
    ∃ pc ∈ ([⟨r0_3, p0⟩] : List (View.Piece (Elt F) S4000x128 .f32)), y ∈ pc.1.set :=
  View.cover_of_tiled [⟨r0_3, p0⟩] S4000x128.size (by rfl) y

/-! ## The body's triple -/

set_option maxHeartbeats 1000000 in
/-- The body on whole staging memrefs, the inputs' at contents x0 x1 x2 and the output's at anything, runs to the
    continuation with the inputs' as they were and the output's at out0_3 of them. -/
theorem sound_kernel0 (c : Dev nD) (E : Set ℕ) (i : grid0.Coords) (arg1 : Memref sig .tc .vmem S4000x16 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S4000x128 .f32) (harg4 : arg4.IsWhole)
    (x0 : Vec F S4000x16 .f32) (x1 : Vec F S16x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- The proof data of the first launch on core c: the arrays as the launch finds them; after the body at point t each
    input's buffer at its block and the output's at out0_3 of the input blocks; the invariant that of a body touching
    nothing but its staged blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KB.Reg1.lean ====
/-
  The second launch (the second dense layer fused with the per-block graph sums), at any float instance, from the buffer
  contents V the launch is entered with.

  Grid point t stages rows 4000·t … 4000·t + 3999 of the four [100000, 128] hop arrays and of the [100000, 1] column of
  graph numbers, the whole [4, 128, 128] weight and the [1, 128] bias, and writes back slab t of the [25, 128, 128]
  partial sums. The body reads every staged block (the weight as its four [128, 128] slabs) and stores ONE value over the
  whole output block. So after the body the output's staging buffer is that value of the seven input blocks (out1_7), the
  inputs' buffers are unchanged, and nothing else is touched: the body obligation of the launch theorem, at every grid point.
-/
import proofs.«429956_j56246891708529_3_alg».proof.Proof.Gen.Kernel.Launch
import proofs.«429956_j56246891708529_3_alg».proof.Proof.Gen.Kernel.Skeleton
import proofs.«429956_j56246891708529_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, whether the point fetches it or not (a block that
    is not fetched again has not moved), for any proof data over the arrays V whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staged block whole, the weight slab by slab -/

abbrev r1_0 : Rect S4000x128 := Rect.unit (s := S4000x128) ![0, 0] S4000x128.size inb_S4000x128_S4000x128_0_0
abbrev r1_1 : Rect S4x128x128 := Rect.unit (s := S4x128x128) ![0, 0, 0] S1x128x128.size inb_S4x128x128_S1x128x128_0_0_0
abbrev r1_2 : Rect S4x128x128 := Rect.unit (s := S4x128x128) ![1, 0, 0] S1x128x128.size inb_S4x128x128_S1x128x128_1_0_0
abbrev r1_3 : Rect S4x128x128 := Rect.unit (s := S4x128x128) ![2, 0, 0] S1x128x128.size inb_S4x128x128_S1x128x128_2_0_0
abbrev r1_4 : Rect S4x128x128 := Rect.unit (s := S4x128x128) ![3, 0, 0] S1x128x128.size inb_S4x128x128_S1x128x128_3_0_0
abbrev r1_5 : Rect S1x128 := Rect.unit (s := S1x128) ![0, 0] S1x128.size inb_S1x128_S1x128_0_0
abbrev r1_6 : Rect S4000x1 := Rect.unit (s := S4000x1) ![0, 0] S4000x1.size inb_S4000x1_S4000x1_0_0
abbrev r1_7 : Rect S1x128x128 := Rect.unit (s := S1x128x128) ![0, 0, 0] S1x128x128.size inb_S1x128x128_S1x128x128_0_0_0

/-- The output block after the body, from the seven input blocks: its one store, of the body's value of the loads (the
    four products accumulated first, then bias, maximum with zero, and the one-hot product). -/
def out1_7 (x0 : Vec F S4000x128 .f32) (x1 : Vec F S4000x128 .f32) (x2 : Vec F S4000x128 .f32) (x3 : Vec F S4000x128 .f32) (x4 : Vec F S4x128x128 .f32) (x5 : Vec F S1x128 .f32) (x6 : Vec F S4000x1 .i32) : Vec F S1x128x128 .f32 :=
  View.canon [⟨r1_7, k1_pay1 (k1_pay2 (View.ld x0 r1_0) (View.ld x4 r1_1) (View.ld x1 r1_0) (View.ld x4 r1_2) (View.ld x2 r1_0) (View.ld x4 r1_3) (View.ld x3 r1_0) (View.ld x4 r1_4)) (View.ld x5 r1_5) (View.ld x6 r1_6)⟩]

/-- The one store is of the whole block, so it covers it. -/
theorem cover1_7 (p0 : Vec F S1x128x128 .f32) (y : S1x128x128.Idx) :
    ∃ pc ∈ ([⟨r1_7, p0⟩] : List (View.Piece (Elt F) S1x128x128 .f32)), y ∈ pc.1.set :=
  View.cover_of_tiled [⟨r1_7, p0⟩] S1x128x128.size (by rfl) y

/-! ## The body's triple -/

set_option maxHeartbeats 4000000 in
/-- The body on whole staging memrefs, the inputs' at contents x0 … x6 and the output's at anything, runs to the
    continuation with the inputs' as they were and the output's at out1_7 of them. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S4000x128 .f32) (harg4 : arg4.IsWhole) (arg5 : Memref sig .tc .vmem S4x128x128 .f32) (harg5 : arg5.IsWhole) (arg6 : Memref sig .tc .vmem S1x128 .f32) (harg6 : arg6.IsWhole) (arg7 : Memref sig .tc .vmem S4000x1 .i32) (harg7 : arg7.IsWhole) (arg8 : Memref sig .tc .vmem S1x128x128 .f32) (harg8 : arg8.IsWhole)
    (x0 : Vec F S4000x128 .f32) (x1 : Vec F S4000x128 .f32) (x2 : Vec F S4000x128 .f32) (x3 : Vec F S4000x128 .f32) (x4 : Vec F S4x128x128 .f32) (x5 : Vec F S1x128 .f32) (x6 : Vec F S4000x1 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__tagconv2_pool_kernel i arg1 harg1 arg2 harg2 arg3 harg3 arg4 harg4 arg5 harg5 arg6 harg6 arg7 harg7 arg8 harg8) K := by
  simp only [cc1__tagconv2_pool_kernel_eq_skeleton]; unfold cc1__tagconv2_pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The launch's proof data -/

/-- The proof data of the second launch on core c: the arrays as the launch finds them; after the body at point t each
    input's buffer at its block and the output's at out1_7 of the input blocks; the invariant that of a body touching
    nothing but its staged blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KB.Run.lean ====
/-
  The whole program's run, at any float instance: its host stretches and its two launches in order, from the launch
  memory m to the return.

  The buffer contents at each boundary are a fold through the program: a host stretch applies its operations' results
  (W1, W2, W3, W5, W7); a launch leaves each of its arrays at what its write-backs fold to and every other buffer as it
  was (W4, W6). Every weakly fair execution terminates, nothing faulting, with every unscoped buffer at W7 (run_all). No
  stretch and no launch writes an argument array, so each ends as launched (frame).
-/
import proofs.«429956_j56246891708529_3_alg».proof.Proof.KB.Reg0
import proofs.«429956_j56246891708529_3_alg».proof.Proof.KB.Reg1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

abbrev hostOps0_Wr : List (Ref sig .tc) := [main_v0, main_v1, main_v2, main_v3, main_v4, main_v5, main_v6, main_v7, main_cst, main_v8, main_cst_0, main_v9, main_v10, main_v11, main_cst_1, main_v12, main_v13, main_cst_2, main_v14, main_v15, main_v16, main_cst_3]
abbrev hostOps0_1_Wr : List (Ref sig .tc) := [main_call0_v0, main_call0_v1, main_v17]
abbrev hostOps0_2_Wr : List (Ref sig .tc) := [main_c, main_v18, main_v19, main_c_4, main_v20, main_v21, main_v22, main_v23, main_v24, main_c_5, main_v25, main_v26, main_c_6, main_v27, main_v28, main_v29, main_v30, main_v31, main_v32, main_c_7, main_v33, main_v34, main_c_8, main_v35, main_v36, main_v37, main_v38, main_v39, main_v40, main_v41, main_v42, main_cst_9, main_v43, main_v44, main_v45, main_c_10, main_v46, main_v47, main_c_11, main_v48, main_v49, main_v50, main_v51, main_v52, main_v53, main_v54, main_v55, main_cst_12, main_v56, main_v57, main_v58, main_c_13, main_v59, main_v60, main_c_14, main_v61, main_v62, main_v63, main_v64, main_v65, main_v66, main_v67, main_v68, main_cst_15, main_v69, main_v70, main_v71, main_v72, main_v73, main_v74]
abbrev hostOps1_Wr : List (Ref sig .tc) := [main_c_16, main_v76, main_v77, main_c_17, main_v78, main_v79, main_v80, main_v81, main_v82, main_v83, main_v84, main_v85, main_cst_18, main_v86, main_v87, main_v88, main_c_19, main_v89, main_v90, main_c_20, main_v91, main_v92, main_v93, main_v94, main_v95, main_v96, main_v97, main_v98, main_cst_21, main_v99, main_v100, main_v101, main_c_22, main_v102, main_v103, main_c_23, main_v104, main_v105, main_v106, main_v107, main_v108, main_v109, main_v110, main_v111, main_cst_24, main_v112, main_v113, main_v114, main_v115, main_v116]
abbrev hostOps2_Wr : List (Ref sig .tc) := [main_cst_25, main_v118, main_cst_26, main_v119, main_cst_27, main_v120, main_v121, main_v122, main_cst_28, main_v123, main_v124, main_v125, main_v126, main_v127, main_v128, main_v129, main_v130, main_v131, main_cst_29, main_v132, main_cst_30, main_v133, main_v134, main_v135, main_v136, main_v137, main_v138, main_cst_31, main_v139, main_v140, main_v141, main_v142]

theorem hostOps0_writes : (hostOps0 : List (HloOp τ sig (Elt F))).Forall fun op => op.writes ⊆ (hostOps0_Wr.map (Proc.devRef (τ := τ) .tc)).toFinset := by
  simp only [List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps0_1_writes : (hostOps0_1 : List (HloOp τ sig (Elt F))).Forall fun op => op.writes ⊆ (hostOps0_1_Wr.map (Proc.devRef (τ := τ) .tc)).toFinset := by
  simp only [List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps0_2_writes : (hostOps0_2 : List (HloOp τ sig (Elt F))).Forall fun op => op.writes ⊆ (hostOps0_2_Wr.map (Proc.devRef (τ := τ) .tc)).toFinset := by
  simp only [List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_writes : (hostOps1 : List (HloOp τ sig (Elt F))).Forall fun op => op.writes ⊆ (hostOps1_Wr.map (Proc.devRef (τ := τ) .tc)).toFinset := by
  simp only [List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps2_writes : (hostOps2 : List (HloOp τ sig (Elt F))).Forall fun op => op.writes ⊆ (hostOps2_Wr.map (Proc.devRef (τ := τ) .tc)).toFinset := by
  simp only [List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-! ## The buffer contents at each boundary -/

/-- Core c's buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
/-- At the first launch's entry. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- At the first launch's exit: its arrays at what the launch leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- At the second launch's entry. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- At the second launch's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- At the return. -/
abbrev W7 : Dev nD → Valuation τ sig (Elt F) := fun c => StableHlo.after hostOps2 (W6 m c)

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := W4_of_ne m c main_arg0 (by decide)
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps2 _ hostOps2_writes (by decide)
    _ = W5 m c (Proc.devRef .tc main_arg3) := (W6_arr m c 4).trans (((dat1 (V5 m) c).arrAt_in 4 rfl _).trans (A_eq1 (V5 m) c 4))
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps2 _ hostOps2_writes (by decide)
    _ = W5 m c (Proc.devRef .tc main_arg5) := W6_of_ne m c main_arg5 (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps2 _ hostOps2_writes (by decide)
    _ = W5 m c (Proc.devRef .tc main_arg6) := W6_of_ne m c main_arg6 (by decide)
    _ = W4 m c (Proc.devRef .tc main_arg6) := StableHlo.after_of_writes_sub hostOps1 _ hostOps1_writes (by decide)
    _ = W3 m c (Proc.devRef .tc main_arg6) := W4_of_ne m c main_arg6 (by decide)
    _ = W2 m c (Proc.devRef .tc main_arg6) := StableHlo.after_of_writes_sub hostOps0_2 _ hostOps0_2_writes (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl
theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps2 _ hostOps2_writes (by decide)
    _ = W5 m c (Proc.devRef .tc main_arg7) := W6_of_ne m c main_arg7 (by decide)
    _ = W4 m c (Proc.devRef .tc main_arg7) := StableHlo.after_of_writes_sub hostOps1 _ hostOps1_writes (by decide)
    _ = W3 m c (Proc.devRef .tc main_arg7) := W4_of_ne m c main_arg7 (by decide)
    _ = W2 m c (Proc.devRef .tc main_arg7) := StableHlo.after_of_writes_sub hostOps0_2 _ hostOps0_2_writes (by decide)
    _ = W1 m c (Proc.devRef .tc main_arg7) := StableHlo.after_of_writes_sub hostOps0_1 _ hostOps0_1_writes (by decide)
    _ = W0 m c (Proc.devRef .tc main_arg7) := StableHlo.after_of_writes_sub hostOps0 _ hostOps0_writes (by decide)
    _ = m ((c : Thread nD τ).loc main_arg7) := rfl
theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps2 _ hostOps2_writes (by decide)
    _ = W5 m c (Proc.devRef .tc main_arg8) := W6_of_ne m c main_arg8 (by decide)
    _ = W4 m c (Proc.devRef .tc main_arg8) := StableHlo.after_of_writes_sub hostOps1 _ hostOps1_writes (by decide)
    _ = W3 m c (Proc.devRef .tc main_arg8) := W4_of_ne m c main_arg8 (by decide)
    _ = W2 m c (Proc.devRef .tc main_arg8) := StableHlo.after_of_writes_sub hostOps0_2 _ hostOps0_2_writes (by decide)
    _ = W1 m c (Proc.devRef .tc main_arg8) := StableHlo.after_of_writes_sub hostOps0_1 _ hostOps0_1_writes (by decide)
    _ = W0 m c (Proc.devRef .tc main_arg8) := StableHlo.after_of_writes_sub hostOps0 _ hostOps0_writes (by decide)
    _ = m ((c : Thread nD τ).loc main_arg8) := rfl

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The launches as segments -/

set_option backward.isDefEq.respectTransparency.types false in
/-- Launch 0 as a segment over the thread state "every unscoped buffer at the boundary's contents, the generator register
    at some state, nothing owed": entered from the contents W3, left at W4. Its arrays are split out of the unscoped
    buffers at entry and put back at what the launch leaves in them at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment over the thread state "every unscoped buffer at the boundary's contents, the generator register
    at some state, nothing owed": entered from the contents W5, left at W6. Its arrays are split out of the unscoped
    buffers at entry and put back at what the launch leaves in them at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)) ]
theorem main_run (c : Dev nD) : main (F := F) c = Pipeline.Seg.run (segs m) := (main_chain c).trans (by chain_rfl)

set_option backward.isDefEq.respectTransparency.types false in
/-- Every weakly fair execution of the program from memory m with zero counters terminates, nothing faulting, and every
    final state has every unscoped buffer at the last boundary's contents W7. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c)⟩) (run_all m ρ)

end Cert.Kernel.Frm

end
-- ==== Proof.KI.Reg0.lean ====
/-
  The first launch (the dense layer over the sixteen hop features), at any float instance, from the buffer contents V the
  launch is entered with.

  Grid point t stages rows 4000·t … 4000·t + 3999 of the [100000, 16] feature array, the whole [16, 128] weight and the
  [1, 128] bias, and writes back rows 4000·t … of the [100000, 128] result. The body reads the three staged blocks whole
  and stores ONE value over the whole output block: the maximum of zero and (features · weight + bias). So after the body
  the output's staging buffer is that value of the three input blocks (out0_3), the inputs' buffers are unchanged, and
  nothing else is touched: the body obligation of the launch theorem, at every grid point.
-/
import proofs.«429956_j56246891708529_3_alg».proof.Proof.Gen.KernelIdeal.Launch
import proofs.«429956_j56246891708529_3_alg».proof.Proof.Gen.KernelIdeal.Skeleton
import proofs.«429956_j56246891708529_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, whether the point fetches it or not (a block that
    is not fetched again has not moved), for any proof data over the arrays V whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staged block whole -/

abbrev r0_0 : Rect S4000x16 := Rect.unit (s := S4000x16) ![0, 0] S4000x16.size inb_S4000x16_S4000x16_0_0
abbrev r0_1 : Rect S16x128 := Rect.unit (s := S16x128) ![0, 0] S16x128.size inb_S16x128_S16x128_0_0
abbrev r0_2 : Rect S1x128 := Rect.unit (s := S1x128) ![0, 0] S1x128.size inb_S1x128_S1x128_0_0
abbrev r0_3 : Rect S4000x128 := Rect.unit (s := S4000x128) ![0, 0] S4000x128.size inb_S4000x128_S4000x128_0_0

/-- The output block after the body, from the three input blocks: its one store, of the body's value of the loads. -/
def out0_3 (x0 : Vec F S4000x16 .f32) (x1 : Vec F S16x128 .f32) (x2 : Vec F S1x128 .f32) : Vec F S4000x128 .f32 :=
  View.canon [⟨r0_3, k0_pay1 (View.ld x0 r0_0) (View.ld x1 r0_1) (View.ld x2 r0_2)⟩]

/-- The one store is of the whole block, so it covers it. -/
theorem cover0_3 (p0 : Vec F S4000x128 .f32) (y : S4000x128.Idx) :
    ∃ pc ∈ ([⟨r0_3, p0⟩] : List (View.Piece (Elt F) S4000x128 .f32)), y ∈ pc.1.set :=
  View.cover_of_tiled [⟨r0_3, p0⟩] S4000x128.size (by rfl) y

/-! ## The body's triple -/

set_option maxHeartbeats 1000000 in
/-- The body on whole staging memrefs, the inputs' at contents x0 x1 x2 and the output's at anything, runs to the
    continuation with the inputs' as they were and the output's at out0_3 of them. -/
theorem sound_kernel0 (c : Dev nD) (E : Set ℕ) (i : grid0.Coords) (arg1 : Memref sig .tc .vmem S4000x16 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S4000x128 .f32) (harg4 : arg4.IsWhole)
    (x0 : Vec F S4000x16 .f32) (x1 : Vec F S16x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- The proof data of the first launch on core c: the arrays as the launch finds them; after the body at point t each
    input's buffer at its block and the output's at out0_3 of the input blocks; the invariant that of a body touching
    nothing but its staged blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Reg1.lean ====
/-
  The second launch (the second dense layer fused with the per-block graph sums), at any float instance, from the buffer
  contents V the launch is entered with.

  Grid point t stages rows 4000·t … 4000·t + 3999 of the four [100000, 128] hop arrays and of the [100000, 1] column of
  graph numbers, the whole [4, 128, 128] weight and the [1, 128] bias, and writes back slab t of the [25, 128, 128]
  partial sums. The body reads every staged block (the weight as its four [128, 128] slabs) and stores ONE value over the
  whole output block. So after the body the output's staging buffer is that value of the seven input blocks (out1_7), the
  inputs' buffers are unchanged, and nothing else is touched: the body obligation of the launch theorem, at every grid point.
-/
import proofs.«429956_j56246891708529_3_alg».proof.Proof.Gen.KernelIdeal.Launch
import proofs.«429956_j56246891708529_3_alg».proof.Proof.Gen.KernelIdeal.Skeleton
import proofs.«429956_j56246891708529_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, whether the point fetches it or not (a block that
    is not fetched again has not moved), for any proof data over the arrays V whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staged block whole, the weight slab by slab -/

abbrev r1_0 : Rect S4000x128 := Rect.unit (s := S4000x128) ![0, 0] S4000x128.size inb_S4000x128_S4000x128_0_0
abbrev r1_1 : Rect S4x128x128 := Rect.unit (s := S4x128x128) ![0, 0, 0] S1x128x128.size inb_S4x128x128_S1x128x128_0_0_0
abbrev r1_2 : Rect S4x128x128 := Rect.unit (s := S4x128x128) ![1, 0, 0] S1x128x128.size inb_S4x128x128_S1x128x128_1_0_0
abbrev r1_3 : Rect S4x128x128 := Rect.unit (s := S4x128x128) ![2, 0, 0] S1x128x128.size inb_S4x128x128_S1x128x128_2_0_0
abbrev r1_4 : Rect S4x128x128 := Rect.unit (s := S4x128x128) ![3, 0, 0] S1x128x128.size inb_S4x128x128_S1x128x128_3_0_0
abbrev r1_5 : Rect S1x128 := Rect.unit (s := S1x128) ![0, 0] S1x128.size inb_S1x128_S1x128_0_0
abbrev r1_6 : Rect S4000x1 := Rect.unit (s := S4000x1) ![0, 0] S4000x1.size inb_S4000x1_S4000x1_0_0
abbrev r1_7 : Rect S1x128x128 := Rect.unit (s := S1x128x128) ![0, 0, 0] S1x128x128.size inb_S1x128x128_S1x128x128_0_0_0

/-- The output block after the body, from the seven input blocks: its one store, of the body's value of the loads (the
    four products accumulated first, then bias, maximum with zero, and the one-hot product). -/
def out1_7 (x0 : Vec F S4000x128 .f32) (x1 : Vec F S4000x128 .f32) (x2 : Vec F S4000x128 .f32) (x3 : Vec F S4000x128 .f32) (x4 : Vec F S4x128x128 .f32) (x5 : Vec F S1x128 .f32) (x6 : Vec F S4000x1 .i32) : Vec F S1x128x128 .f32 :=
  View.canon [⟨r1_7, k1_pay1 (k1_pay2 (View.ld x0 r1_0) (View.ld x4 r1_1) (View.ld x1 r1_0) (View.ld x4 r1_2) (View.ld x2 r1_0) (View.ld x4 r1_3) (View.ld x3 r1_0) (View.ld x4 r1_4)) (View.ld x5 r1_5) (View.ld x6 r1_6)⟩]

/-- The one store is of the whole block, so it covers it. -/
theorem cover1_7 (p0 : Vec F S1x128x128 .f32) (y : S1x128x128.Idx) :
    ∃ pc ∈ ([⟨r1_7, p0⟩] : List (View.Piece (Elt F) S1x128x128 .f32)), y ∈ pc.1.set :=
  View.cover_of_tiled [⟨r1_7, p0⟩] S1x128x128.size (by rfl) y

/-! ## The body's triple -/

set_option maxHeartbeats 4000000 in
/-- The body on whole staging memrefs, the inputs' at contents x0 … x6 and the output's at anything, runs to the
    continuation with the inputs' as they were and the output's at out1_7 of them. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S4000x128 .f32) (harg4 : arg4.IsWhole) (arg5 : Memref sig .tc .vmem S4x128x128 .f32) (harg5 : arg5.IsWhole) (arg6 : Memref sig .tc .vmem S1x128 .f32) (harg6 : arg6.IsWhole) (arg7 : Memref sig .tc .vmem S4000x1 .i32) (harg7 : arg7.IsWhole) (arg8 : Memref sig .tc .vmem S1x128x128 .f32) (harg8 : arg8.IsWhole)
    (x0 : Vec F S4000x128 .f32) (x1 : Vec F S4000x128 .f32) (x2 : Vec F S4000x128 .f32) (x3 : Vec F S4000x128 .f32) (x4 : Vec F S4x128x128 .f32) (x5 : Vec F S1x128 .f32) (x6 : Vec F S4000x1 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__tagconv2_pool_kernel i arg1 harg1 arg2 harg2 arg3 harg3 arg4 harg4 arg5 harg5 arg6 harg6 arg7 harg7 arg8 harg8) K := by
  simp only [cc1__tagconv2_pool_kernel_eq_skeleton]; unfold cc1__tagconv2_pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The launch's proof data -/

/-- The proof data of the second launch on core c: the arrays as the launch finds them; after the body at point t each
    input's buffer at its block and the output's at out1_7 of the input blocks; the invariant that of a body touching
    nothing but its staged blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.Run.lean ====
/-
  The whole program's run, at any float instance: its host stretches and its two launches in order, from the launch
  memory m to the return.

  The buffer contents at each boundary are a fold through the program: a host stretch applies its operations' results
  (W1, W2, W3, W5, W7); a launch leaves each of its arrays at what its write-backs fold to and every other buffer as it
  was (W4, W6). Every weakly fair execution terminates, nothing faulting, with every unscoped buffer at W7 (run_all). No
  stretch and no launch writes an argument array, so each ends as launched (frame).
-/
import proofs.«429956_j56246891708529_3_alg».proof.Proof.KI.Reg0
import proofs.«429956_j56246891708529_3_alg».proof.Proof.KI.Reg1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

abbrev hostOps0_Wr : List (Ref sig .tc) := [main_v0, main_v1, main_v2, main_v3, main_v4, main_v5, main_v6, main_v7, main_cst, main_v8, main_cst_0, main_v9, main_v10, main_v11, main_cst_1, main_v12, main_v13, main_cst_2, main_v14, main_v15, main_v16, main_cst_3]
abbrev hostOps0_1_Wr : List (Ref sig .tc) := [main_call0_v0, main_call0_v1, main_v17]
abbrev hostOps0_2_Wr : List (Ref sig .tc) := [main_c, main_v18, main_v19, main_c_4, main_v20, main_v21, main_v22, main_v23, main_v24, main_c_5, main_v25, main_v26, main_c_6, main_v27, main_v28, main_v29, main_v30, main_v31, main_v32, main_c_7, main_v33, main_v34, main_c_8, main_v35, main_v36, main_v37, main_v38, main_v39, main_v40, main_v41, main_v42, main_cst_9, main_v43, main_v44, main_v45, main_c_10, main_v46, main_v47, main_c_11, main_v48, main_v49, main_v50, main_v51, main_v52, main_v53, main_v54, main_v55, main_cst_12, main_v56, main_v57, main_v58, main_c_13, main_v59, main_v60, main_c_14, main_v61, main_v62, main_v63, main_v64, main_v65, main_v66, main_v67, main_v68, main_cst_15, main_v69, main_v70, main_v71, main_v72, main_v73, main_v74]
abbrev hostOps1_Wr : List (Ref sig .tc) := [main_c_16, main_v76, main_v77, main_c_17, main_v78, main_v79, main_v80, main_v81, main_v82, main_v83, main_v84, main_v85, main_cst_18, main_v86, main_v87, main_v88, main_c_19, main_v89, main_v90, main_c_20, main_v91, main_v92, main_v93, main_v94, main_v95, main_v96, main_v97, main_v98, main_cst_21, main_v99, main_v100, main_v101, main_c_22, main_v102, main_v103, main_c_23, main_v104, main_v105, main_v106, main_v107, main_v108, main_v109, main_v110, main_v111, main_cst_24, main_v112, main_v113, main_v114, main_v115, main_v116]
abbrev hostOps2_Wr : List (Ref sig .tc) := [main_cst_25, main_v118, main_cst_26, main_v119, main_cst_27, main_v120, main_v121, main_v122, main_cst_28, main_v123, main_v124, main_v125, main_v126, main_v127, main_v128, main_v129, main_v130, main_v131, main_cst_29, main_v132, main_cst_30, main_v133, main_v134, main_v135, main_v136, main_v137, main_v138, main_cst_31, main_v139, main_v140, main_v141, main_v142]

theorem hostOps0_writes : (hostOps0 : List (HloOp τ sig (Elt F))).Forall fun op => op.writes ⊆ (hostOps0_Wr.map (Proc.devRef (τ := τ) .tc)).toFinset := by
  simp only [List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps0_1_writes : (hostOps0_1 : List (HloOp τ sig (Elt F))).Forall fun op => op.writes ⊆ (hostOps0_1_Wr.map (Proc.devRef (τ := τ) .tc)).toFinset := by
  simp only [List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps0_2_writes : (hostOps0_2 : List (HloOp τ sig (Elt F))).Forall fun op => op.writes ⊆ (hostOps0_2_Wr.map (Proc.devRef (τ := τ) .tc)).toFinset := by
  simp only [List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_writes : (hostOps1 : List (HloOp τ sig (Elt F))).Forall fun op => op.writes ⊆ (hostOps1_Wr.map (Proc.devRef (τ := τ) .tc)).toFinset := by
  simp only [List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps2_writes : (hostOps2 : List (HloOp τ sig (Elt F))).Forall fun op => op.writes ⊆ (hostOps2_Wr.map (Proc.devRef (τ := τ) .tc)).toFinset := by
  simp only [List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-! ## The buffer contents at each boundary -/

/-- Core c's buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
/-- At the first launch's entry. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- At the first launch's exit: its arrays at what the launch leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- At the second launch's entry. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- At the second launch's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- At the return. -/
abbrev W7 : Dev nD → Valuation τ sig (Elt F) := fun c => StableHlo.after hostOps2 (W6 m c)

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := W4_of_ne m c main_arg0 (by decide)
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps2 _ hostOps2_writes (by decide)
    _ = W5 m c (Proc.devRef .tc main_arg3) := (W6_arr m c 4).trans (((dat1 (V5 m) c).arrAt_in 4 rfl _).trans (A_eq1 (V5 m) c 4))
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps2 _ hostOps2_writes (by decide)
    _ = W5 m c (Proc.devRef .tc main_arg5) := W6_of_ne m c main_arg5 (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps2 _ hostOps2_writes (by decide)
    _ = W5 m c (Proc.devRef .tc main_arg6) := W6_of_ne m c main_arg6 (by decide)
    _ = W4 m c (Proc.devRef .tc main_arg6) := StableHlo.after_of_writes_sub hostOps1 _ hostOps1_writes (by decide)
    _ = W3 m c (Proc.devRef .tc main_arg6) := W4_of_ne m c main_arg6 (by decide)
    _ = W2 m c (Proc.devRef .tc main_arg6) := StableHlo.after_of_writes_sub hostOps0_2 _ hostOps0_2_writes (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl
theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps2 _ hostOps2_writes (by decide)
    _ = W5 m c (Proc.devRef .tc main_arg7) := W6_of_ne m c main_arg7 (by decide)
    _ = W4 m c (Proc.devRef .tc main_arg7) := StableHlo.after_of_writes_sub hostOps1 _ hostOps1_writes (by decide)
    _ = W3 m c (Proc.devRef .tc main_arg7) := W4_of_ne m c main_arg7 (by decide)
    _ = W2 m c (Proc.devRef .tc main_arg7) := StableHlo.after_of_writes_sub hostOps0_2 _ hostOps0_2_writes (by decide)
    _ = W1 m c (Proc.devRef .tc main_arg7) := StableHlo.after_of_writes_sub hostOps0_1 _ hostOps0_1_writes (by decide)
    _ = W0 m c (Proc.devRef .tc main_arg7) := StableHlo.after_of_writes_sub hostOps0 _ hostOps0_writes (by decide)
    _ = m ((c : Thread nD τ).loc main_arg7) := rfl
theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps2 _ hostOps2_writes (by decide)
    _ = W5 m c (Proc.devRef .tc main_arg8) := W6_of_ne m c main_arg8 (by decide)
    _ = W4 m c (Proc.devRef .tc main_arg8) := StableHlo.after_of_writes_sub hostOps1 _ hostOps1_writes (by decide)
    _ = W3 m c (Proc.devRef .tc main_arg8) := W4_of_ne m c main_arg8 (by decide)
    _ = W2 m c (Proc.devRef .tc main_arg8) := StableHlo.after_of_writes_sub hostOps0_2 _ hostOps0_2_writes (by decide)
    _ = W1 m c (Proc.devRef .tc main_arg8) := StableHlo.after_of_writes_sub hostOps0_1 _ hostOps0_1_writes (by decide)
    _ = W0 m c (Proc.devRef .tc main_arg8) := StableHlo.after_of_writes_sub hostOps0 _ hostOps0_writes (by decide)
    _ = m ((c : Thread nD τ).loc main_arg8) := rfl

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The launches as segments -/

set_option backward.isDefEq.respectTransparency.types false in
/-- Launch 0 as a segment over the thread state "every unscoped buffer at the boundary's contents, the generator register
    at some state, nothing owed": entered from the contents W3, left at W4. Its arrays are split out of the unscoped
    buffers at entry and put back at what the launch leaves in them at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment over the thread state "every unscoped buffer at the boundary's contents, the generator register
    at some state, nothing owed": entered from the contents W5, left at W6. Its arrays are split out of the unscoped
    buffers at entry and put back at what the launch leaves in them at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)) ]
theorem main_run (c : Dev nD) : main (F := F) c = Pipeline.Seg.run (segs m) := (main_chain c).trans (by chain_rfl)

set_option backward.isDefEq.respectTransparency.types false in
/-- Every weakly fair execution of the program from memory m with zero counters terminates, nothing faulting, and every
    final state has every unscoped buffer at the last boundary's contents W7. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c)⟩) (run_all m ρ)

end Cert.KernelIdeal.Frm

end
-- ==== Proof.KSpec.lean ====
/-
  The kernel program's host stretches as functions of the arrays they read, at any float instance: each definition is
  the composition of the printed host operations of one stretch, in program order, so that the contents a stretch
  leaves in a buffer are one of these functions of the contents it found.
-/
import proofs.«429956_j56246891708529_3_alg».proof.Proof.Gen.KernelIdeal
import Idealize.ShloMosaic.PureOps

noncomputable section

namespace Cert.KSpec

open Cert.KernelIdeal Cert.KernelIdeal.Gen Idealize.ShloMosaic

variable {F : FTy → Type} [FloatOps F]

/-- The contents of a buffer of shape S and element type e. -/
abbrev Cn (F : FTy → Type) (S : Shape) (e : EltTy) : Type := (⟨S, e⟩ : BufTy).Contents (Elt F)

/-! ## The edge list -/

/-- The edges' source nodes: row 0 of the [2, E] edge list. -/
def row (ei : Cn F S2x1600000 .i32) : Cn F S1600000 .i32 :=
  shapeCast S1600000 (extractStridedSlice S1x1600000 ![0, 0] ei slices_S2x1600000_S1x1600000_0_0) shapeCasts_S1x1600000_S1600000
/-- The edges' target nodes: row 1 of the edge list. -/
def col (ei : Cn F S2x1600000 .i32) : Cn F S1600000 .i32 :=
  shapeCast S1600000 (extractStridedSlice S1x1600000 ![1, 0] ei slices_S2x1600000_S1x1600000_1_0) shapeCasts_S1x1600000_S1600000

/-- Node numbers as a column of gather positions, a negative number counted from the end (n + 100000). -/
def wrapIdx (v : Cn F S1600000 .i32) : Cn F S1600000x1 .i32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The in-degree of every node: ones added up by target node. -/
def deg (ei : Cn F S2x1600000 .i32) : Cn F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (col ei))
    (broadcastInDim S1600000 ![] bcast_S_S1600000 (constant S_ .f32 0x3F800000#32))

/-- deg^(-1/2) where the degree is positive, zero elsewhere. -/
def dinv (ei : Cn F S2x1600000 .i32) : Cn F S100000 .f32 :=
  select (cmpf .ogt (deg ei) (broadcastInDim S100000 ![] bcast_S_S100000 (constant S_ .f32 0x00000000#32)))
    (Host.rsqrt (maximumf (deg ei) (broadcastInDim S100000 ![] bcast_S_S100000 (constant S_ .f32 0x3F800000#32))))
    (broadcastInDim S100000 ![] bcast_S_S100000 (id (constant S_ .f32 0x00000000#32)))

/-- The symmetric normalisation of every edge: dinv at its source times dinv at its target. -/
def norm (ei : Cn F S2x1600000 .i32) : Cn F S1600000 .f32 :=
  mulf (Host.gather gather_S100000_S1600000x1_S1600000_n_0_n_n_0_1_1 (dinv ei) (wrapIdx (row ei)))
    (Host.gather gather_S100000_S1600000x1_S1600000_n_0_n_n_0_1_1 (dinv ei) (wrapIdx (col ei)))

/-! ## One hop of normalised neighbour sums -/

/-- One hop on [N, 4] features: every edge carries its source's row times the edge's normalisation to its target. -/
def hop4 (ei : Cn F S2x1600000 .i32) (h : Cn F S100000x4 .f32) : Cn F S100000x4 .f32 :=
  Host.scatterAdd scatter_S100000x4_S1600000x1_S1600000x4_1_0_0_1
    (broadcastInDim S100000x4 ![] bcast_S_S100000x4 (constant S_ .f32 0x00000000#32))
    (broadcastInDim S1600000x1 ![0] bcast_S1600000_S1600000x1_0 (col ei))
    (mulf (Host.gather gather_S100000x4_S1600000x1_S1600000x4_1_0_n_n_0_1_14 h (wrapIdx (row ei)))
      (broadcastInDim S1600000x4 ![0, 1] bcast_S1600000x1_S1600000x4_0_1
        (broadcastInDim S1600000x1 ![0] bcast_S1600000_S1600000x1_0 (norm ei))))

/-- One hop on [N, 128] features. -/
def hop128 (ei : Cn F S2x1600000 .i32) (h : Cn F S100000x128 .f32) : Cn F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (col ei))
    (mulf (Host.gather gather_S100000x128_S1600000x1_S1600000x128_1_0_n_n_0_1_1128 h (wrapIdx (row ei)))
      (broadcastInDim S1600000x128 ![0, 1] bcast_S1600000x1_S1600000x128_0_1
        (broadcastInDim S1600000x1 ![0] bcast_S1600000_S1600000x1_0 (norm ei))))

/-! ## From the per-graph sums to the class probabilities -/

/-- Mean over each graph's nodes (sums over counts, a count below one read as one), the linear layer, and the softmax
    over the two classes. -/
def tail (sums : Cn F S128x128 .f32) (batch : Cn F S100000 .i32) (wlin : Cn F S128x2 .f32) (blin : Cn F S2 .f32) : Cn F S128x2 .f32 :=
  let cnts : Cn F S128 .f32 := Host.scatterAdd scatter_S128_S100000x1_S100000_n_0_0_1
    (broadcastInDim S128 ![] bcast_S_S128 (constant S_ .f32 0x00000000#32))
    (broadcastInDim S100000x1 ![0] bcast_S100000_S100000x1_0 batch)
    (broadcastInDim S100000 ![] bcast_S_S100000 (constant S_ .f32 0x3F800000#32))
  let pooled : Cn F S128x128 .f32 := Host.divf sums
    (broadcastInDim S128x128 ![0, 1] bcast_S128x1_S128x128_0_1 (broadcastInDim S128x1 ![0] bcast_S128_S128x1_0
      (maximumf cnts (broadcastInDim S128 ![] bcast_S_S128 (constant S_ .f32 0x3F800000#32)))))
  let logits : Cn F S128x2 .f32 := addf (Host.dotGeneral dot_S128x128_S128x2_S128x2_1_0_0_1_n_n none pooled wlin)
    (broadcastInDim S128x2 ![0, 1] bcast_S1x2_S128x2_0_1 (broadcastInDim S1x2 ![1] bcast_S2_S1x2_1 blin))
  let mx : Cn F S128 .f32 := maximumf (broadcastInDim S128 ![] bcast_S_S128 (constant S_ .f32 0xFF800000#32))
    (Host.reduce FloatOps.maximumf logits (constant S_ .f32 0xFF800000#32) reducesTo_S128x2_S128_d1 h_S_)
  let e : Cn F S128x2 .f32 := Host.exp (subf logits
    (broadcastInDim S128x2 ![0, 1] bcast_S128x1_S128x2_0_1 (broadcastInDim S128x1 ![0] bcast_S128_S128x1_0 mx)))
  Host.divf e (broadcastInDim S128x2 ![0, 1] bcast_S128x1_S128x2_0_1 (broadcastInDim S128x1 ![0] bcast_S128_S128x1_0
    (Host.reduceAdd e (constant S_ .f32 0x00000000#32) reducesTo_S128x2_S128_d1 h_S_)))

/-! ## What the launches are fed, and what is done with the second launch's result -/

/-- The four [N, 4] hop features side by side: the [N, 16] input of the first launch. -/
def cat (x a b c : Cn F S100000x4 .f32) : Cn F S100000x16 .f32 :=
  concatenate S100000x16 1 [⟨S100000x4, x⟩, ⟨S100000x4, a⟩, ⟨S100000x4, b⟩, ⟨S100000x4, c⟩] concatenates_S100000x4_S100000x4_S100000x4_S100000x4_S100000x16_d1
/-- The [4, 4, 128] weight as a [16, 128] matrix. -/
def w1f (W1 : Cn F S4x4x128 .f32) : Cn F S16x128 .f32 := shapeCast S16x128 W1 shapeCasts_S4x4x128_S16x128
/-- A [128] bias as a [1, 128] row. -/
def brow (b : Cn F S128 .f32) : Cn F S1x128 .f32 := shapeCast S1x128 b shapeCasts_S128_S1x128
/-- The graph numbers as a [N, 1] column. -/
def bcol (batch : Cn F S100000 .i32) : Cn F S100000x1 .i32 := shapeCast S100000x1 batch shapeCasts_S100000_S100000x1
/-- The 25 per-block [128, 128] partial sums added up. -/
def sumBlocks (p : Cn F S25x128x128 .f32) : Cn F S128x128 .f32 :=
  Host.reduceAdd p (constant S_ .f32 0x00000000#32) reducesTo_S25x128x128_S128x128_d0 h_S_

end Cert.KSpec

end
-- ==== Proof.KI.Chain.lean ====
/-
  What the kernel program's host stretches leave in the buffers the launches read, and in the returned buffer, at any
  float instance.

  Each stretch is a line of operations; the contents it leaves in a buffer are the composition of the operations that
  feed that buffer, applied to the contents the stretch found. Read stretch by stretch from the launch memory: the
  edge list's two rows, the degrees and their inverse square roots, the edge normalisation, three hops on the [N, 4]
  features laid side by side with the features themselves (the first launch's input); after the first launch, three hops
  on its [N, 128] result (the second launch's inputs); after the second launch, the sum of its 25 partial sums, the mean
  per graph, the linear layer and the softmax (the returned array). A launch changes its own arrays only, a stretch
  the buffers it writes only, so the edge rows and the normalisation computed before the first launch are still there
  when the later stretches read them.
-/
import proofs.«429956_j56246891708529_3_alg».proof.Proof.KI.Run
import proofs.«429956_j56246891708529_3_alg».proof.Proof.KSpec

set_option maxRecDepth 16384

noncomputable section

namespace Cert.KernelIdeal.Frm

open Cert.KernelIdeal Cert.KernelIdeal.Gen
open Idealize.ShloMosaic Idealize.ShloMosaic.TcCoe Idealize.ShloMosaic.Tactic

variable {F : FTy → Type} [FloatOps F]

/-- A line of operations cut after its first n: the rest run from what the first n leave. -/
theorem after_take_drop {τ : Topo} {sig : RefSig} {Val : EltTy → Type} (n : Nat) (ops : List (HloOp τ sig Val))
    (V : Valuation τ sig Val) :
    StableHlo.after ops V = StableHlo.after (ops.drop n) (StableHlo.after (ops.take n) V) := by
  have h : ∀ (l₁ l₂ : List (HloOp τ sig Val)) (V : Valuation τ sig Val),
      StableHlo.after (l₁ ++ l₂) V = StableHlo.after l₂ (StableHlo.after l₁ V) := by
    intro l₁
    induction l₁ with
    | nil => intro l₂ V; rfl
    | cons op l ih => intro l₂ V; simp only [List.cons_append, StableHlo.after_cons, ih]
  rw [← h, List.take_append_drop]

/-! ## Each stretch from any contents

The contents V a stretch starts from are a variable, and what the stretch reads of V is named by hypotheses, so that each
statement says: if the buffers read hold these values, the buffer written holds that function of them. -/

section Stretches

variable (V : Valuation τ sig (Elt F)) (ei : KSpec.Cn F S2x1600000 .i32)

/-! ### The first stretch: the edge rows, the degrees, the inverse square roots before the guard -/

section S0
variable (h : V (Proc.devRef .tc main_arg7) = ei)
include h

theorem s0_v1 : StableHlo.after hostOps0 V (Proc.devRef .tc main_v1) = KSpec.row ei := by
  after_results_simp; rw [h]; rfl
theorem s0_v3 : StableHlo.after hostOps0 V (Proc.devRef .tc main_v3) = KSpec.col ei := by
  after_results_simp; rw [h]; rfl
theorem s0_v5 : StableHlo.after hostOps0 V (Proc.devRef .tc main_v5) = KSpec.row ei := by
  after_results_simp; rw [h]; rfl
theorem s0_v7 : StableHlo.after hostOps0 V (Proc.devRef .tc main_v7) = KSpec.col ei := by
  after_results_simp; rw [h]; rfl
/-- Where the degree is positive. -/
theorem s0_v13 : StableHlo.after hostOps0 V (Proc.devRef .tc main_v13)
    = cmpf .ogt (KSpec.deg ei) (broadcastInDim S100000 ![] bcast_S_S100000 (constant S_ .f32 0x00000000#32)) := by
  after_results_simp; rw [h]; rfl
/-- The inverse square root of the degree, a degree below one read as one. -/
theorem s0_v16 : StableHlo.after hostOps0 V (Proc.devRef .tc main_v16)
    = Host.rsqrt (maximumf (KSpec.deg ei) (broadcastInDim S100000 ![] bcast_S_S100000 (constant S_ .f32 0x3F800000#32))) := by
  after_results_simp; rw [h]; rfl
end S0

/-- The zero the guard puts where the degree is not positive. -/
theorem s0_cst3 : StableHlo.after hostOps0 V (Proc.devRef .tc main_cst_3) = (constant S_ .f32 0x00000000#32 : KSpec.Cn F S_ .f32) := by
  after_results_simp

/-! ### The called function: the guard -/

theorem s1_v17
    (h13 : V (Proc.devRef .tc main_v13)
      = cmpf .ogt (KSpec.deg ei) (broadcastInDim S100000 ![] bcast_S_S100000 (constant S_ .f32 0x00000000#32)))
    (h16 : V (Proc.devRef .tc main_v16)
      = Host.rsqrt (maximumf (KSpec.deg ei) (broadcastInDim S100000 ![] bcast_S_S100000 (constant S_ .f32 0x3F800000#32))))
    (hz : V (Proc.devRef .tc main_cst_3) = (constant S_ .f32 0x00000000#32 : KSpec.Cn F S_ .f32)) :
    StableHlo.after hostOps0_1 V (Proc.devRef .tc main_v17) = KSpec.dinv ei := by
  after_results
  rw [h13, h16, hz]
  rfl

/-! ### The stretch before the first launch: the normalisation, three hops, the launch's three inputs -/

theorem s2_v32 (h5 : V (Proc.devRef .tc main_v5) = KSpec.row ei) (h7 : V (Proc.devRef .tc main_v7) = KSpec.col ei)
    (h17 : V (Proc.devRef .tc main_v17) = KSpec.dinv ei) :
    StableHlo.after hostOps0_2 V (Proc.devRef .tc main_v32) = KSpec.norm ei := by
  after_results_simp
  rw [h5, h7, h17]
  rfl

section Hops4
variable (x : KSpec.Cn F S100000x4 .f32)

/-- The features are not written before the concatenation. -/
theorem s2a_arg0 : StableHlo.after (List.take 67 (hostOps0_2 (F := F))) V (Proc.devRef .tc main_arg0) = V (Proc.devRef .tc main_arg0) := by
  simp only [hostOps0_2, List.take_succ_cons, List.take_zero]
  after_results_simp

theorem s2a_v45 (h1 : V (Proc.devRef .tc main_v1) = KSpec.row ei) (h3 : V (Proc.devRef .tc main_v3) = KSpec.col ei)
    (h5 : V (Proc.devRef .tc main_v5) = KSpec.row ei) (h7 : V (Proc.devRef .tc main_v7) = KSpec.col ei)
    (h17 : V (Proc.devRef .tc main_v17) = KSpec.dinv ei) (h0 : V (Proc.devRef .tc main_arg0) = x) :
    StableHlo.after (List.take 67 (hostOps0_2 (F := F))) V (Proc.devRef .tc main_v45) = KSpec.hop4 ei x := by
  simp only [hostOps0_2, List.take_succ_cons, List.take_zero]
  after_results_simp
  rw [h1, h3, h5, h7, h17, h0]
  rfl

theorem s2a_v58 (h1 : V (Proc.devRef .tc main_v1) = KSpec.row ei) (h3 : V (Proc.devRef .tc main_v3) = KSpec.col ei)
    (h5 : V (Proc.devRef .tc main_v5) = KSpec.row ei) (h7 : V (Proc.devRef .tc main_v7) = KSpec.col ei)
    (h17 : V (Proc.devRef .tc main_v17) = KSpec.dinv ei) (h0 : V (Proc.devRef .tc main_arg0) = x) :
    StableHlo.after (List.take 67 (hostOps0_2 (F := F))) V (Proc.devRef .tc main_v58) = KSpec.hop4 ei (KSpec.hop4 ei x) := by
  simp only [hostOps0_2, List.take_succ_cons, List.take_zero]
  after_results_simp
  rw [h1, h3, h5, h7, h17, h0]
  rfl

theorem s2a_v71 (h1 : V (Proc.devRef .tc main_v1) = KSpec.row ei) (h3 : V (Proc.devRef .tc main_v3) = KSpec.col ei)
    (h5 : V (Proc.devRef .tc main_v5) = KSpec.row ei) (h7 : V (Proc.devRef .tc main_v7) = KSpec.col ei)
    (h17 : V (Proc.devRef .tc main_v17) = KSpec.dinv ei) (h0 : V (Proc.devRef .tc main_arg0) = x) :
    StableHlo.after (List.take 67 (hostOps0_2 (F := F))) V (Proc.devRef .tc main_v71)
      = KSpec.hop4 ei (KSpec.hop4 ei (KSpec.hop4 ei x)) := by
  simp only [hostOps0_2, List.take_succ_cons, List.take_zero]
  after_results_simp
  rw [h1, h3, h5, h7, h17, h0]
  rfl

/-- The last three operations: the four [N, 4] arrays side by side. -/
theorem s2_last3 : StableHlo.after (List.drop 67 (hostOps0_2 (F := F))) V (Proc.devRef .tc main_v72)
    = KSpec.cat (V (Proc.devRef .tc main_arg0)) (V (Proc.devRef .tc main_v45)) (V (Proc.devRef .tc main_v58))
        (V (Proc.devRef .tc main_v71)) := by
  simp only [hostOps0_2, List.drop_succ_cons, List.drop_zero]
  after_results
  rfl

theorem s2_v72 (h1 : V (Proc.devRef .tc main_v1) = KSpec.row ei) (h3 : V (Proc.devRef .tc main_v3) = KSpec.col ei)
    (h5 : V (Proc.devRef .tc main_v5) = KSpec.row ei) (h7 : V (Proc.devRef .tc main_v7) = KSpec.col ei)
    (h17 : V (Proc.devRef .tc main_v17) = KSpec.dinv ei) (h0 : V (Proc.devRef .tc main_arg0) = x) :
    StableHlo.after hostOps0_2 V (Proc.devRef .tc main_v72)
      = KSpec.cat x (KSpec.hop4 ei x) (KSpec.hop4 ei (KSpec.hop4 ei x)) (KSpec.hop4 ei (KSpec.hop4 ei (KSpec.hop4 ei x))) := by
  rw [after_take_drop 67 hostOps0_2 V, s2_last3, s2a_arg0 V, s2a_v45 V ei x h1 h3 h5 h7 h17 h0,
    s2a_v58 V ei x h1 h3 h5 h7 h17 h0, s2a_v71 V ei x h1 h3 h5 h7 h17 h0, h0]

end Hops4

theorem s2_v73 (w : KSpec.Cn F S4x4x128 .f32) (h : V (Proc.devRef .tc main_arg1) = w) :
    StableHlo.after hostOps0_2 V (Proc.devRef .tc main_v73) = KSpec.w1f w := by
  after_results_simp; rw [h]; rfl
theorem s2_v74 (b : KSpec.Cn F S128 .f32) (h : V (Proc.devRef .tc main_arg2) = b) :
    StableHlo.after hostOps0_2 V (Proc.devRef .tc main_v74) = KSpec.brow b := by
  after_results_simp; rw [h]; rfl

/-! ### The stretch between the launches: three hops on the first launch's result -/

section Hops128
variable (a : KSpec.Cn F S100000x128 .f32)

theorem s3_v88 (h1 : V (Proc.devRef .tc main_v1) = KSpec.row ei) (h3 : V (Proc.devRef .tc main_v3) = KSpec.col ei)
    (h32 : V (Proc.devRef .tc main_v32) = KSpec.norm ei) (h75 : V (Proc.devRef .tc main_v75) = a) :
    StableHlo.after hostOps1 V (Proc.devRef .tc main_v88) = KSpec.hop128 ei a := by
  after_results_simp
  rw [h1, h3, h32, h75]
  rfl
theorem s3_v101 (h1 : V (Proc.devRef .tc main_v1) = KSpec.row ei) (h3 : V (Proc.devRef .tc main_v3) = KSpec.col ei)
    (h32 : V (Proc.devRef .tc main_v32) = KSpec.norm ei) (h75 : V (Proc.devRef .tc main_v75) = a) :
    StableHlo.after hostOps1 V (Proc.devRef .tc main_v101) = KSpec.hop128 ei (KSpec.hop128 ei a) := by
  after_results_simp
  rw [h1, h3, h32, h75]
  rfl
theorem s3_v114 (h1 : V (Proc.devRef .tc main_v1) = KSpec.row ei) (h3 : V (Proc.devRef .tc main_v3) = KSpec.col ei)
    (h32 : V (Proc.devRef .tc main_v32) = KSpec.norm ei) (h75 : V (Proc.devRef .tc main_v75) = a) :
    StableHlo.after hostOps1 V (Proc.devRef .tc main_v114) = KSpec.hop128 ei (KSpec.hop128 ei (KSpec.hop128 ei a)) := by
  after_results_simp
  rw [h1, h3, h32, h75]
  rfl
end Hops128

theorem s3_v115 (b : KSpec.Cn F S100000 .i32) (h : V (Proc.devRef .tc main_arg8) = b) :
    StableHlo.after hostOps1 V (Proc.devRef .tc main_v115) = KSpec.bcol b := by
  after_results_simp; rw [h]; rfl
theorem s3_v116 (b : KSpec.Cn F S128 .f32) (h : V (Proc.devRef .tc main_arg4) = b) :
    StableHlo.after hostOps1 V (Proc.devRef .tc main_v116) = KSpec.brow b := by
  after_results_simp; rw [h]; rfl

/-! ### The stretch after the second launch: from the partial sums to the class probabilities -/

theorem s4_v142 (p : KSpec.Cn F S25x128x128 .f32) (b : KSpec.Cn F S100000 .i32) (wl : KSpec.Cn F S128x2 .f32)
    (bl : KSpec.Cn F S2 .f32) (h117 : V (Proc.devRef .tc main_v117) = p) (h8 : V (Proc.devRef .tc main_arg8) = b)
    (h5 : V (Proc.devRef .tc main_arg5) = wl) (h6 : V (Proc.devRef .tc main_arg6) = bl) :
    StableHlo.after hostOps2 V (Proc.devRef .tc main_v142) = KSpec.tail (KSpec.sumBlocks p) b wl bl := by
  after_results_simp
  rw [h117, h8, h5, h6]
  rfl

end Stretches

/-! ## The program's stretches from the launch memory -/

section Run

variable (m : (ℓ : Loc nD τ sig) → Buf (Elt F) ℓ) (c : Dev nD)

/-- The node features. -/
abbrev argX : KSpec.Cn F S100000x4 .f32 := m ((c : Thread nD τ).loc main_arg0)
/-- The first layer's weight and bias. -/
abbrev argW1 : KSpec.Cn F S4x4x128 .f32 := m ((c : Thread nD τ).loc main_arg1)
abbrev argB1 : KSpec.Cn F S128 .f32 := m ((c : Thread nD τ).loc main_arg2)
/-- The second layer's weight and bias. -/
abbrev argW2 : KSpec.Cn F S4x128x128 .f32 := m ((c : Thread nD τ).loc main_arg3)
abbrev argB2 : KSpec.Cn F S128 .f32 := m ((c : Thread nD τ).loc main_arg4)
/-- The linear layer's weight and bias. -/
abbrev argWLIN : KSpec.Cn F S128x2 .f32 := m ((c : Thread nD τ).loc main_arg5)
abbrev argBLIN : KSpec.Cn F S2 .f32 := m ((c : Thread nD τ).loc main_arg6)
/-- The edge list. -/
abbrev argEI : KSpec.Cn F S2x1600000 .i32 := m ((c : Thread nD τ).loc main_arg7)
/-- The graph number of every node. -/
abbrev argBATCH : KSpec.Cn F S100000 .i32 := m ((c : Thread nD τ).loc main_arg8)
/-- What the first launch leaves in its result array. -/
abbrev A0 : KSpec.Cn F S100000x128 .f32 := (dat0 (V3 m) c).arrAt 3 cfg0.N
/-- What the second launch leaves in its result array. -/
abbrev A1 : KSpec.Cn F S25x128x128 .f32 := (dat1 (V5 m) c).arrAt 7 cfg1.N

/-! ### A buffer nothing has written yet holds what the launch memory holds -/

theorem W2_keep (r : Ref sig .tc) (h0 : r ∉ hostOps0_Wr) (h1 : r ∉ hostOps0_1_Wr) :
    W2 m c (Proc.devRef .tc r) = m ((c : Thread nD τ).loc r) :=
  (StableHlo.after_of_writes_sub hostOps0_1 _ hostOps0_1_writes h1).trans
    (StableHlo.after_of_writes_sub hostOps0 _ hostOps0_writes h0)
theorem W4_keep (r : Ref sig .tc) (h0 : r ∉ hostOps0_Wr) (h1 : r ∉ hostOps0_1_Wr) (h2 : r ∉ hostOps0_2_Wr)
    (hn : ∀ w, Pipeline.arrRef spec0 w ≠ r) : W4 m c (Proc.devRef .tc r) = m ((c : Thread nD τ).loc r) :=
  (W4_of_ne m c r hn).trans ((StableHlo.after_of_writes_sub hostOps0_2 _ hostOps0_2_writes h2).trans (W2_keep m c r h0 h1))
theorem W5_keep (r : Ref sig .tc) (h0 : r ∉ hostOps0_Wr) (h1 : r ∉ hostOps0_1_Wr) (h2 : r ∉ hostOps0_2_Wr)
    (hn : ∀ w, Pipeline.arrRef spec0 w ≠ r) (h3 : r ∉ hostOps1_Wr) : W5 m c (Proc.devRef .tc r) = m ((c : Thread nD τ).loc r) :=
  (StableHlo.after_of_writes_sub hostOps1 _ hostOps1_writes h3).trans (W4_keep m c r h0 h1 h2 hn)
theorem W6_keep (r : Ref sig .tc) (h0 : r ∉ hostOps0_Wr) (h1 : r ∉ hostOps0_1_Wr) (h2 : r ∉ hostOps0_2_Wr)
    (hn : ∀ w, Pipeline.arrRef spec0 w ≠ r) (h3 : r ∉ hostOps1_Wr) (hn1 : ∀ w, Pipeline.arrRef spec1 w ≠ r) :
    W6 m c (Proc.devRef .tc r) = m ((c : Thread nD τ).loc r) :=
  (W6_of_ne m c r hn1).trans (W5_keep m c r h0 h1 h2 hn h3)

/-! ### Before the first launch -/

theorem W2_v1 : W2 m c (Proc.devRef .tc main_v1) = KSpec.row (argEI m c) :=
  (StableHlo.after_of_writes_sub hostOps0_1 _ hostOps0_1_writes (by decide)).trans (s0_v1 (W0 m c) _ rfl)
theorem W2_v3 : W2 m c (Proc.devRef .tc main_v3) = KSpec.col (argEI m c) :=
  (StableHlo.after_of_writes_sub hostOps0_1 _ hostOps0_1_writes (by decide)).trans (s0_v3 (W0 m c) _ rfl)
theorem W2_v5 : W2 m c (Proc.devRef .tc main_v5) = KSpec.row (argEI m c) :=
  (StableHlo.after_of_writes_sub hostOps0_1 _ hostOps0_1_writes (by decide)).trans (s0_v5 (W0 m c) _ rfl)
theorem W2_v7 : W2 m c (Proc.devRef .tc main_v7) = KSpec.col (argEI m c) :=
  (StableHlo.after_of_writes_sub hostOps0_1 _ hostOps0_1_writes (by decide)).trans (s0_v7 (W0 m c) _ rfl)
theorem W2_v17 : W2 m c (Proc.devRef .tc main_v17) = KSpec.dinv (argEI m c) :=
  s1_v17 (W1 m c) (argEI m c) (s0_v13 (W0 m c) _ rfl) (s0_v16 (W0 m c) _ rfl) (s0_cst3 (W0 m c))

theorem entry0_v72 : V3 m c main_v72 = KSpec.cat (argX m c) (KSpec.hop4 (argEI m c) (argX m c))
    (KSpec.hop4 (argEI m c) (KSpec.hop4 (argEI m c) (argX m c)))
    (KSpec.hop4 (argEI m c) (KSpec.hop4 (argEI m c) (KSpec.hop4 (argEI m c) (argX m c)))) :=
  s2_v72 (W2 m c) (argEI m c) (argX m c) (W2_v1 m c) (W2_v3 m c) (W2_v5 m c) (W2_v7 m c) (W2_v17 m c)
    (W2_keep m c main_arg0 (by decide) (by decide))
theorem entry0_v73 : V3 m c main_v73 = KSpec.w1f (argW1 m c) :=
  s2_v73 (W2 m c) (argW1 m c) (W2_keep m c main_arg1 (by decide) (by decide))
theorem entry0_v74 : V3 m c main_v74 = KSpec.brow (argB1 m c) :=
  s2_v74 (W2 m c) (argB1 m c) (W2_keep m c main_arg2 (by decide) (by decide))

/-! ### Between the launches -/

theorem W4_v1 : W4 m c (Proc.devRef .tc main_v1) = KSpec.row (argEI m c) :=
  (W4_of_ne m c main_v1 (by decide)).trans
    ((StableHlo.after_of_writes_sub hostOps0_2 _ hostOps0_2_writes (by decide)).trans (W2_v1 m c))
theorem W4_v3 : W4 m c (Proc.devRef .tc main_v3) = KSpec.col (argEI m c) :=
  (W4_of_ne m c main_v3 (by decide)).trans
    ((StableHlo.after_of_writes_sub hostOps0_2 _ hostOps0_2_writes (by decide)).trans (W2_v3 m c))
theorem W4_v32 : W4 m c (Proc.devRef .tc main_v32) = KSpec.norm (argEI m c) :=
  (W4_of_ne m c main_v32 (by decide)).trans (s2_v32 (W2 m c) (argEI m c) (W2_v5 m c) (W2_v7 m c) (W2_v17 m c))
theorem W4_v75 : W4 m c (Proc.devRef .tc main_v75) = A0 m c := W4_arr m c 3

theorem entry1_v75 : V5 m c main_v75 = A0 m c :=
  (StableHlo.after_of_writes_sub hostOps1 _ hostOps1_writes (by decide)).trans (W4_v75 m c)
theorem entry1_v88 : V5 m c main_v88 = KSpec.hop128 (argEI m c) (A0 m c) :=
  s3_v88 (W4 m c) (argEI m c) (A0 m c) (W4_v1 m c) (W4_v3 m c) (W4_v32 m c) (W4_v75 m c)
theorem entry1_v101 : V5 m c main_v101 = KSpec.hop128 (argEI m c) (KSpec.hop128 (argEI m c) (A0 m c)) :=
  s3_v101 (W4 m c) (argEI m c) (A0 m c) (W4_v1 m c) (W4_v3 m c) (W4_v32 m c) (W4_v75 m c)
theorem entry1_v114 : V5 m c main_v114
    = KSpec.hop128 (argEI m c) (KSpec.hop128 (argEI m c) (KSpec.hop128 (argEI m c) (A0 m c))) :=
  s3_v114 (W4 m c) (argEI m c) (A0 m c) (W4_v1 m c) (W4_v3 m c) (W4_v32 m c) (W4_v75 m c)
theorem entry1_arg3 : V5 m c main_arg3 = argW2 m c :=
  W5_keep m c main_arg3 (by decide) (by decide) (by decide) (by decide) (by decide)
theorem entry1_v116 : V5 m c main_v116 = KSpec.brow (argB2 m c) :=
  s3_v116 (W4 m c) (argB2 m c) (W4_keep m c main_arg4 (by decide) (by decide) (by decide) (by decide))
theorem entry1_v115 : V5 m c main_v115 = KSpec.bcol (argBATCH m c) :=
  s3_v115 (W4 m c) (argBATCH m c) (W4_keep m c main_arg8 (by decide) (by decide) (by decide) (by decide))

/-! ### After the second launch -/

theorem result_v142 : W7 m c (Proc.devRef .tc main_v142)
    = KSpec.tail (KSpec.sumBlocks (A1 m c)) (argBATCH m c) (argWLIN m c) (argBLIN m c) :=
  s4_v142 (W6 m c) (A1 m c) (argBATCH m c) (argWLIN m c) (argBLIN m c) (W6_arr m c 7)
    (W6_keep m c main_arg8 (by decide) (by decide) (by decide) (by decide) (by decide) (by decide))
    (W6_keep m c main_arg5 (by decide) (by decide) (by decide) (by decide) (by decide) (by decide))
    (W6_keep m c main_arg6 (by decide) (by decide) (by decide) (by decide) (by decide) (by decide))

end Run

end Cert.KernelIdeal.Frm

end
-- ==== Proof.Whole.lean ====
/-
  What each launch leaves in its result array, as ONE function of the launch's input arrays, at any float instance.

  Both launches walk the node axis in 25 blocks of 4000 rows. In the first, row n of the result is the body's value of the
  block of 4000 feature rows that holds n (with the whole weight and bias), read at row n mod 4000: G0. In the second, slab
  t of the [25, 128, 128] result is the body's value of rows 4000·t … 4000·t + 3999 of the four hop arrays and of the
  graph numbers (with the whole weight, slab by slab, and the bias): G1.
-/
import proofs.«429956_j56246891708529_3_alg».proof.Proof.Gen.KernelIdeal.Skeleton
import Idealize.ShloMosaic.Lib.ValueIdx

noncomputable section

namespace Cert.KernelIdeal.Frm

open Cert.KernelIdeal Cert.KernelIdeal.Gen Idealize.ShloMosaic Idealize.ShloMosaic.ValueIdx

variable {F : FTy → Type} [FloatOps F]

/-- Rows 4000·t … 4000·t + 3999 of an array of 100000 rows. -/
def rows {C : Nat} {e : EltTy} (X : (⟨2, ![100000, C]⟩ : Shape).Idx → Elt F e) (t : Fin 25) :
    (⟨2, ![4000, C]⟩ : Shape).Idx → Elt F e :=
  fun y => X (ix2 (n0 := 100000) (n1 := C) ⟨4000 * t.val + (y 0).val, by
    have h0 : (y 0).val < 4000 := (y 0).isLt
    have ht : t.val < 25 := t.isLt
    omega⟩ ⟨(y 1).val, (y 1).isLt⟩)

/-- Slab k of a [4, 128, 128] array, as a [1, 128, 128] array. -/
def slab {e : EltTy} (W : (⟨3, ![4, 128, 128]⟩ : Shape).Idx → Elt F e) (k : Fin 4) :
    (⟨3, ![1, 128, 128]⟩ : Shape).Idx → Elt F e :=
  fun y => W (ix3 (n0 := 4) (n1 := 128) (n2 := 128) k ⟨(y 1).val, (y 1).isLt⟩ ⟨(y 2).val, (y 2).isLt⟩)

/-- The first launch's result array from its three input arrays. -/
def G0 (X : Vec F S100000x16 .f32) (Wt : Vec F S16x128 .f32) (B : Vec F S1x128 .f32) : Vec F S100000x128 .f32 :=
  fun i => k0_pay1 (rows X ⟨(i 0).val / 4000, by have h : (i 0).val < 100000 := (i 0).isLt; omega⟩) Wt B
    (ix2 (n0 := 4000) (n1 := 128) ⟨(i 0).val % 4000, Nat.mod_lt _ (by decide)⟩ ⟨(i 1).val, (i 1).isLt⟩)

/-- The second launch's result array from its seven input arrays. -/
def G1 (h0 h1 h2 h3 : Vec F S100000x128 .f32) (W2 : Vec F S4x128x128 .f32) (Bq : Vec F S1x128 .f32) (Bt : Vec F S100000x1 .i32) :
    Vec F S25x128x128 .f32 :=
  fun i =>
    let t : Fin 25 := ⟨(i 0).val, (i 0).isLt⟩
    k1_pay1 (k1_pay2 (rows h0 t) (slab W2 0) (rows h1 t) (slab W2 1) (rows h2 t) (slab W2 2) (rows h3 t) (slab W2 3)) Bq (rows Bt t)
      (ix3 (n0 := 1) (n1 := 128) (n2 := 128) 0 ⟨(i 1).val, (i 1).isLt⟩ ⟨(i 2).val, (i 2).isLt⟩)

end Cert.KernelIdeal.Frm

end
-- ==== Proof.KI.Arr0.lean ====
/-
  The first launch's result array, whole: after the launch it is G0 of the three input arrays as the launch finds them.

  Grid point t stages rows 4000·t … 4000·t + 3999 of the feature array, the whole weight and the whole bias, and writes
  back rows 4000·t … 4000·t + 3999 of the result: the block index of the features and of the result at point t is (t, 0),
  that of the weight and of the bias is (0, 0). An element of a block sits in its array, on each axis, at the block index
  times the block's size plus its own coordinate. So what point t writes back, the body's value of its three staged
  blocks, is block t of G0 of the arrays: at block coordinate (r, d) it lands on row n = 4000·t + r, where n / 4000 = t
  and n mod 4000 = r, and G0 at (n, d) is the body's value of rows-block n / 4000 of the features with the whole weight
  and bias, read at (n mod 4000, d). Every point writes back, and row n of the result lies in the block of point n / 4000:
  the blocks cover the array, which therefore ends holding G0.
-/
import proofs.«429956_j56246891708529_3_alg».proof.Proof.KI.Reg0
import proofs.«429956_j56246891708529_3_alg».proof.Proof.Whole
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The index maps, over the grid -/

theorem arr0_hz : (![0, 0] : Fin 2 → Nat) = fun _ => 0 := funext fun a => by fin_cases a <;> rfl

/-- The block indices at point t: (t, 0) for the features and for the result, (0, 0) for the weight and the bias. -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks, as parts of their arrays -/

/-- The body's value at equal blocks and equal coordinates. -/
theorem pay0_congr {x0 x0' : Vec F S4000x16 .f32} {x1 x1' : Vec F S16x128 .f32} {x2 x2' : Vec F S1x128 .f32}
    {j j' : S4000x128.Idx} (h0 : x0 = x0') (h1 : x1 = x1') (h2 : x2 = x2') (hj : j = j') :
    k0_pay1 x0 x1 x2 j = k0_pay1 x0' x1' x2' j' := by
  subst h0 h1 h2 hj; rfl

/-- The features' block at point t, at (r, d), is the feature array at (4000·t + r, d). -/
theorem iblk0_0_apply (c : Dev nD) (t : Fin cfg0.N) (y : S4000x16.Idx) (k : S100000x16.Idx)
    (hk0 : (k 0).val = 4000 * t.val + (y 0).val) (hk1 : (k 1).val = (y 1).val) :
    (iblk0 V c 0 t : Vec F S4000x16 .f32) y = (V c main_v72 : Vec F S100000x16 .f32) k := by
  obtain ⟨e0, e1, -⟩ := idx0_facts t
  unfold iblk0
  rw [View.read_apply]
  show V c main_v72 _ = V c main_v72 k
  congr 1
  funext a
  apply Fin.ext
  match a with
  | ⟨0, _⟩ => show win0_0.index t (0 : Fin 2) * 4000 + 1 * (y 0).val = (k 0).val; rw [e0, hk0]; omega
  | ⟨1, _⟩ => show win0_0.index t (1 : Fin 2) * 16 + 1 * (y 1).val = (k 1).val; rw [e1, hk1]; omega

/-- The weight's block at every point is the whole weight. -/
theorem iblk0_1_eq (c : Dev nD) (t : Fin cfg0.N) :
    (iblk0 V c 1 t : Vec F S16x128 .f32) = (V c main_v73 : Vec F S16x128 .f32) := by
  obtain ⟨-, -, e0, e1, -⟩ := idx0_facts t
  funext y
  unfold iblk0
  rw [View.read_apply]
  show V c main_v73 _ = V c main_v73 y
  congr 1
  funext a
  apply Fin.ext
  match a with
  | ⟨0, _⟩ => show win0_1.index t (0 : Fin 2) * 16 + 1 * (y 0).val = (y 0).val; rw [e0]; omega
  | ⟨1, _⟩ => show win0_1.index t (1 : Fin 2) * 128 + 1 * (y 1).val = (y 1).val; rw [e1]; omega

/-- The bias's block at every point is the whole bias. -/
theorem iblk0_2_eq (c : Dev nD) (t : Fin cfg0.N) :
    (iblk0 V c 2 t : Vec F S1x128 .f32) = (V c main_v74 : Vec F S1x128 .f32) := by
  obtain ⟨-, -, -, -, e0, e1, -⟩ := idx0_facts t
  funext y
  unfold iblk0
  rw [View.read_apply]
  show V c main_v74 _ = V c main_v74 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-! ## What each point writes back -/

/-- What point t writes back is block t of G0 of the input arrays as the launch finds them: block coordinate (r, d)
    lands on row n = 4000·t + r, and there n / 4000 = t and n mod 4000 = r. -/
theorem flushed0_eq (c : Dev nD) (t : Fin cfg0.N) :
    (dat0 V c).flushed 3 t = ((cfg0.win 3).blk t).view.read (Elt F) (G0 (V c main_v72) (V c main_v73) (V c main_v74)) := by
  show (cfg0.win 3).cut (grid0.coords t) ((dat0 V c).after 3 t) = _
  rw [after0_3]
  unfold out0_3
  rw [View.canon_unit_zero arr0_hz]
  simp only [View.ld_unit_zero (S := S4000x16) arr0_hz, View.ld_unit_zero (S := S16x128) arr0_hz, View.ld_unit_zero (S := S1x128) arr0_hz]
  funext j
  show k0_pay1 (iblk0 V c 0 t) (iblk0 V c 1 t) (iblk0 V c 2 t) j
    = G0 (V c main_v72) (V c main_v73) (V c main_v74) (((cfg0.win 3).blk t).view.emb j)
  obtain ⟨-, -, -, -, -, -, e0, e1⟩ := idx0_facts t
  have hj0 : (j 0).val < 4000 := (j 0).isLt
  have hj1 : (j 1).val < 128 := (j 1).isLt
  have he0 : ((((cfg0.win 3).blk t).view.emb j) 0).val = t.val * 4000 + (j 0).val := by
    show win0_3.index t (0 : Fin 2) * 4000 + 1 * (j 0).val = _
    rw [e0]; omega
  have he1 : ((((cfg0.win 3).blk t).view.emb j) 1).val = (j 1).val := by
    show win0_3.index t (1 : Fin 2) * 128 + 1 * (j 1).val = _
    rw [e1]; omega
  unfold G0
  refine pay0_congr ?_ (iblk0_1_eq V c t) (iblk0_2_eq V c t) ?_
  · funext y
    refine iblk0_0_apply V c t y _ ?_ ?_
    · show 4000 * (((((cfg0.win 3).blk t).view.emb j) 0).val / 4000) + (y 0).val = 4000 * t.val + (y 0).val
      rw [he0]; omega
    · rfl
  · refine Shape.idx_ext₂ ?_ ?_
    · show (j 0).val = ((((cfg0.win 3).blk t).view.emb j) 0).val % 4000
      rw [he0]; omega
    · show (j 1).val = ((((cfg0.win 3).blk t).view.emb j) 1).val
      rw [he1]

/-! ## The blocks cover the result array -/

/-- An index of the result array is in point t's block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v75).slice (win0_3.rect t)).set ↔ _
  rw [View.set_slice_whole, Rect.mem_set_unit]
  exact Iff.rfl

/-- Row n of the result lies in the block of point n / 4000, and every point writes back. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, e0, e1⟩ := idx0_facts t
  refine ⟨t, flush0_3 t, ?_⟩
  rw [mem_blk0]
  intro a
  match a with
  | ⟨0, _⟩ =>
    show win0_3.index t (0 : Fin 2) * 4000 ≤ (i 0).val ∧ (i 0).val < win0_3.index t (0 : Fin 2) * 4000 + 4000
    rw [e0, ht]; omega
  | ⟨1, _⟩ =>
    show win0_3.index t (1 : Fin 2) * 128 ≤ (i 1).val ∧ (i 1).val < win0_3.index t (1 : Fin 2) * 128 + 128
    rw [e1]; omega

/-! ## The array after the launch -/

/-- The result array after the first launch is G0 of the three input arrays as the launch finds them. -/
theorem arr0_eq (c : Dev nD) :
    (dat0 V c).arrAt 3 cfg0.N = G0 (V c main_v72) (V c main_v73) (V c main_v74) :=
  (dat0 V c).arrAt_eq_of_cover 3 (G0 (V c main_v72) (V c main_v73) (V c main_v74))
    (fun t _ => flushed0_eq V c t) cover0

end Cert.KernelIdeal.Frm

end
-- ==== Proof.KI.Arr1.lean ====
/-
  The second launch's result array as ONE function of its seven input arrays.

  Grid point t stages rows 4000·t … 4000·t + 3999 of the four hop arrays and of the graph numbers, the whole weight and
  the whole bias, and writes back slab t of the [25, 128, 128] result. A block's element sits in its array, on each
  axis, at block index × block size + its coordinate inside the block; the index maps are decided once over the 25
  points. So what point t writes back is slab t of G1 of the arrays as the launch finds them, the 25 slabs cover the
  result, and the result array ends holding G1.
-/
import proofs.«429956_j56246891708529_3_alg».proof.Proof.KI.Reg1
import proofs.«429956_j56246891708529_3_alg».proof.Proof.Whole
import Idealize.ShloMosaic.Lib.Pipeline.Value

noncomputable section

namespace Cert.KernelIdeal.Frm

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-! ## Zero offsets, grid points, index maps -/

theorem hz1_2 : (![0, 0] : Fin 2 → Nat) = fun _ => 0 := funext fun a => by fin_cases a <;> rfl
theorem hz1_3 : (![0, 0, 0] : Fin 3 → Nat) = fun _ => 0 := funext fun a => by fin_cases a <;> rfl

/-- A grid point of the second launch as a number below 25. -/
def pt1 (t : Fin cfg1.N) : Fin 25 := ⟨t.val, Nat.lt_of_lt_of_eq t.isLt N_1⟩

/-- The printed index maps, decided over the 25 points: the four hop arrays and the graph numbers move one block of
    rows per point, the weight and the bias stay, the result moves one slab per point. -/
theorem idx1_0 : ∀ t : Fin cfg1.N, win1_0.index t = ![t.val, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![t.val, 0] := (by decide +kernel : ∀ t : Fin grid1.N, _)
theorem idx1_3 : ∀ t : Fin cfg1.N, win1_3.index t = ![t.val, 0] := (by decide +kernel : ∀ t : Fin grid1.N, _)
theorem idx1_4 : ∀ t : Fin cfg1.N, win1_4.index t = ![0, 0, 0] := (by decide +kernel : ∀ t : Fin grid1.N, _)
theorem idx1_5 : ∀ t : Fin cfg1.N, win1_5.index t = ![0, 0] := (by decide +kernel : ∀ t : Fin grid1.N, _)
theorem idx1_6 : ∀ t : Fin cfg1.N, win1_6.index t = ![t.val, 0] := (by decide +kernel : ∀ t : Fin grid1.N, _)
theorem idx1_7 : ∀ t : Fin cfg1.N, win1_7.index t = ![t.val, 0, 0] := (by decide +kernel : ∀ t : Fin grid1.N, _)

/-! ## The input blocks as rows of their arrays, or the whole array -/

/-- Block t of the first hop array is rows 4000·t … 4000·t + 3999 of it. -/
theorem iblk1_0_rows (c : Dev nD) (t : Fin cfg1.N) : iblk1 V c 0 t = rows (V c main_v75) (pt1 t) := by
  funext y
  unfold iblk1
  rw [View.read_apply]
  show V c main_v75 (((cfg1.win 0).blk t).view.emb y) = V c main_v75 _
  congr 1
  funext a
  apply Fin.ext
  match a with
  | ⟨0, _⟩ =>
    show win1_0.index t (0 : Fin 2) * 4000 + 1 * (y 0).val = 4000 * t.val + (y 0).val
    rw [idx1_0 t]
    show t.val * 4000 + 1 * (y 0).val = 4000 * t.val + (y 0).val
    omega
  | ⟨1, _⟩ =>
    show win1_0.index t (1 : Fin 2) * 128 + 1 * (y 1).val = (y 1).val
    rw [idx1_0 t]
    show 0 * 128 + 1 * (y 1).val = (y 1).val
    omega

/-- Block t of the second hop array is rows 4000·t … 4000·t + 3999 of it. -/
theorem iblk1_1_rows (c : Dev nD) (t : Fin cfg1.N) : iblk1 V c 1 t = rows (V c main_v88) (pt1 t) := by
  funext y
  unfold iblk1
  rw [View.read_apply]
  show V c main_v88 (((cfg1.win 1).blk t).view.emb y) = V c main_v88 _
  congr 1
  funext a
  apply Fin.ext
  match a with
  | ⟨0, _⟩ =>
    show win1_1.index t (0 : Fin 2) * 4000 + 1 * (y 0).val = 4000 * t.val + (y 0).val
    rw [idx1_1 t]
    show t.val * 4000 + 1 * (y 0).val = 4000 * t.val + (y 0).val
    omega
  | ⟨1, _⟩ =>
    show win1_1.index t (1 : Fin 2) * 128 + 1 * (y 1).val = (y 1).val
    rw [idx1_1 t]
    show 0 * 128 + 1 * (y 1).val = (y 1).val
    omega

/-- Block t of the third hop array is rows 4000·t … 4000·t + 3999 of it. -/
theorem iblk1_2_rows (c : Dev nD) (t : Fin cfg1.N) : iblk1 V c 2 t = rows (V c main_v101) (pt1 t) := by
  funext y
  unfold iblk1
  rw [View.read_apply]
  show V c main_v101 (((cfg1.win 2).blk t).view.emb y) = V c main_v101 _
  congr 1
  funext a
  apply Fin.ext
  match a with
  | ⟨0, _⟩ =>
    show win1_2.index t (0 : Fin 2) * 4000 + 1 * (y 0).val = 4000 * t.val + (y 0).val
    rw [idx1_2 t]
    show t.val * 4000 + 1 * (y 0).val = 4000 * t.val + (y 0).val
    omega
  | ⟨1, _⟩ =>
    show win1_2.index t (1 : Fin 2) * 128 + 1 * (y 1).val = (y 1).val
    rw [idx1_2 t]
    show 0 * 128 + 1 * (y 1).val = (y 1).val
    omega

/-- Block t of the fourth hop array is rows 4000·t … 4000·t + 3999 of it. -/
theorem iblk1_3_rows (c : Dev nD) (t : Fin cfg1.N) : iblk1 V c 3 t = rows (V c main_v114) (pt1 t) := by
  funext y
  unfold iblk1
  rw [View.read_apply]
  show V c main_v114 (((cfg1.win 3).blk t).view.emb y) = V c main_v114 _
  congr 1
  funext a
  apply Fin.ext
  match a with
  | ⟨0, _⟩ =>
    show win1_3.index t (0 : Fin 2) * 4000 + 1 * (y 0).val = 4000 * t.val + (y 0).val
    rw [idx1_3 t]
    show t.val * 4000 + 1 * (y 0).val = 4000 * t.val + (y 0).val
    omega
  | ⟨1, _⟩ =>
    show win1_3.index t (1 : Fin 2) * 128 + 1 * (y 1).val = (y 1).val
    rw [idx1_3 t]
    show 0 * 128 + 1 * (y 1).val = (y 1).val
    omega

/-- Block t of the column of graph numbers is rows 4000·t … 4000·t + 3999 of it. -/
theorem iblk1_6_rows (c : Dev nD) (t : Fin cfg1.N) : iblk1 V c 6 t = rows (V c main_v115) (pt1 t) := by
  funext y
  unfold iblk1
  rw [View.read_apply]
  show V c main_v115 (((cfg1.win 6).blk t).view.emb y) = V c main_v115 _
  congr 1
  funext a
  apply Fin.ext
  match a with
  | ⟨0, _⟩ =>
    show win1_6.index t (0 : Fin 2) * 4000 + 1 * (y 0).val = 4000 * t.val + (y 0).val
    rw [idx1_6 t]
    show t.val * 4000 + 1 * (y 0).val = 4000 * t.val + (y 0).val
    omega
  | ⟨1, _⟩ =>
    show win1_6.index t (1 : Fin 2) * 1 + 1 * (y 1).val = (y 1).val
    rw [idx1_6 t]
    show 0 * 1 + 1 * (y 1).val = (y 1).val
    omega

/-- The weight's block is the whole weight at every point. -/
theorem iblk1_4_whole (c : Dev nD) (t : Fin cfg1.N) : iblk1 V c 4 t = V c main_arg3 := by
  funext y
  unfold iblk1
  rw [View.read_apply]
  show V c main_arg3 (((cfg1.win 4).blk t).view.emb y) = V c main_arg3 y
  congr 1
  funext a
  apply Fin.ext
  match a with
  | ⟨0, _⟩ =>
    show win1_4.index t (0 : Fin 3) * 4 + 1 * (y 0).val = (y 0).val
    rw [idx1_4 t]
    show 0 * 4 + 1 * (y 0).val = (y 0).val
    omega
  | ⟨1, _⟩ =>
    show win1_4.index t (1 : Fin 3) * 128 + 1 * (y 1).val = (y 1).val
    rw [idx1_4 t]
    show 0 * 128 + 1 * (y 1).val = (y 1).val
    omega
  | ⟨2, _⟩ =>
    show win1_4.index t (2 : Fin 3) * 128 + 1 * (y 2).val = (y 2).val
    rw [idx1_4 t]
    show 0 * 128 + 1 * (y 2).val = (y 2).val
    omega

/-- The bias row's block is the whole row at every point. -/
theorem iblk1_5_whole (c : Dev nD) (t : Fin cfg1.N) : iblk1 V c 5 t = V c main_v116 := by
  funext y
  unfold iblk1
  rw [View.read_apply]
  show V c main_v116 (((cfg1.win 5).blk t).view.emb y) = V c main_v116 y
  congr 1
  funext a
  apply Fin.ext
  match a with
  | ⟨0, _⟩ =>
    show win1_5.index t (0 : Fin 2) * 1 + 1 * (y 0).val = (y 0).val
    rw [idx1_5 t]
    show 0 * 1 + 1 * (y 0).val = (y 0).val
    omega
  | ⟨1, _⟩ =>
    show win1_5.index t (1 : Fin 2) * 128 + 1 * (y 1).val = (y 1).val
    rw [idx1_5 t]
    show 0 * 128 + 1 * (y 1).val = (y 1).val
    omega

/-! ## The body's four loads of the staged weight are its four slabs

Each load is through the [1, 128, 128] rectangle at offset (k, 0, 0) of the staged [4, 128, 128] block, so it reads
the block at (k, y₁, y₂). -/

theorem ld_slab_0 (W : Vec F S4x128x128 .f32) : View.ld W r1_1 = slab W 0 := by
  funext y
  show W (r1_1.idx y) = W _
  congr 1
  funext a
  apply Fin.ext
  match a with
  | ⟨0, _⟩ =>
    show 0 + 1 * (y 0).val = 0
    have h : (y 0).val < 1 := (y 0).isLt
    omega
  | ⟨1, _⟩ =>
    show 0 + 1 * (y 1).val = (y 1).val
    omega
  | ⟨2, _⟩ =>
    show 0 + 1 * (y 2).val = (y 2).val
    omega

theorem ld_slab_1 (W : Vec F S4x128x128 .f32) : View.ld W r1_2 = slab W 1 := by
  funext y
  show W (r1_2.idx y) = W _
  congr 1
  funext a
  apply Fin.ext
  match a with
  | ⟨0, _⟩ =>
    show 1 + 1 * (y 0).val = 1
    have h : (y 0).val < 1 := (y 0).isLt
    omega
  | ⟨1, _⟩ =>
    show 0 + 1 * (y 1).val = (y 1).val
    omega
  | ⟨2, _⟩ =>
    show 0 + 1 * (y 2).val = (y 2).val
    omega

theorem ld_slab_2 (W : Vec F S4x128x128 .f32) : View.ld W r1_3 = slab W 2 := by
  funext y
  show W (r1_3.idx y) = W _
  congr 1
  funext a
  apply Fin.ext
  match a with
  | ⟨0, _⟩ =>
    show 2 + 1 * (y 0).val = 2
    have h : (y 0).val < 1 := (y 0).isLt
    omega
  | ⟨1, _⟩ =>
    show 0 + 1 * (y 1).val = (y 1).val
    omega
  | ⟨2, _⟩ =>
    show 0 + 1 * (y 2).val = (y 2).val
    omega

theorem ld_slab_3 (W : Vec F S4x128x128 .f32) : View.ld W r1_4 = slab W 3 := by
  funext y
  show W (r1_4.idx y) = W _
  congr 1
  funext a
  apply Fin.ext
  match a with
  | ⟨0, _⟩ =>
    show 3 + 1 * (y 0).val = 3
    have h : (y 0).val < 1 := (y 0).isLt
    omega
  | ⟨1, _⟩ =>
    show 0 + 1 * (y 1).val = (y 1).val
    omega
  | ⟨2, _⟩ =>
    show 0 + 1 * (y 2).val = (y 2).val
    omega

/-! ## What a point writes back -/

/-- G1 at an index of slab t, the index's other two coordinates those of a block index j, is the body's value of the
    rows-blocks t and of the weight's slabs, at j. -/
theorem G1_apply (h0 h1 h2 h3 : Vec F S100000x128 .f32) (W2 : Vec F S4x128x128 .f32) (Bq : Vec F S1x128 .f32)
    (Bt : Vec F S100000x1 .i32) (i : S25x128x128.Idx) (t : Fin 25) (j : S1x128x128.Idx)
    (e0 : (i 0).val = t.val) (e1 : (i 1).val = (j 1).val) (e2 : (i 2).val = (j 2).val) :
    G1 h0 h1 h2 h3 W2 Bq Bt i
      = k1_pay1 (k1_pay2 (rows h0 t) (slab W2 0) (rows h1 t) (slab W2 1) (rows h2 t) (slab W2 2) (rows h3 t) (slab W2 3)) Bq (rows Bt t) j := by
  have et : (⟨(i 0).val, (i 0).isLt⟩ : Fin 25) = t := Fin.ext e0
  have ej : ix3 (n0 := 1) (n1 := 128) (n2 := 128) 0 ⟨(i 1).val, (i 1).isLt⟩ ⟨(i 2).val, (i 2).isLt⟩ = j := by
    funext a
    apply Fin.ext
    match a with
    | ⟨0, _⟩ =>
      show 0 = (j 0).val
      have h : (j 0).val < 1 := (j 0).isLt
      omega
    | ⟨1, _⟩ => exact e1
    | ⟨2, _⟩ => exact e2
  unfold G1
  dsimp only
  rw [et, ej]

/-- What point t writes back is slab t of G1 of the seven arrays as the launch finds them. -/
theorem flushed1_7_eq (c : Dev nD) (t : Fin cfg1.N) :
    (dat1 V c).flushed 7 t = ((cfg1.win 7).blk t).view.read (Elt F)
      (G1 (V c main_v75) (V c main_v88) (V c main_v101) (V c main_v114) (V c main_arg3) (V c main_v116) (V c main_v115)) := by
  show (cfg1.win 7).cut (grid1.coords t) ((dat1 V c).after 7 t) = _
  rw [after1_7]
  unfold out1_7
  rw [View.canon_unit_zero hz1_3]
  simp only [View.ld_unit_zero (S := S4000x128) hz1_2, View.ld_unit_zero (S := S1x128) hz1_2, View.ld_unit_zero (S := S4000x1) hz1_2]
  rw [iblk1_0_rows, iblk1_1_rows, iblk1_2_rows, iblk1_3_rows, iblk1_4_whole, iblk1_5_whole, iblk1_6_rows,
    ld_slab_0, ld_slab_1, ld_slab_2, ld_slab_3]
  funext j
  rw [View.read_apply]
  refine Eq.trans ?_ (G1_apply _ _ _ _ _ _ _ (((cfg1.win 7).blk t).view.emb j) (pt1 t) j ?_ ?_ ?_).symm
  · rfl
  · show win1_7.index t (0 : Fin 3) * 1 + 1 * (j 0).val = t.val
    rw [idx1_7 t]
    show t.val * 1 + 1 * (j 0).val = t.val
    have h : (j 0).val < 1 := (j 0).isLt
    omega
  · show win1_7.index t (1 : Fin 3) * 128 + 1 * (j 1).val = (j 1).val
    rw [idx1_7 t]
    show 0 * 128 + 1 * (j 1).val = (j 1).val
    omega
  · show win1_7.index t (2 : Fin 3) * 128 + 1 * (j 2).val = (j 2).val
    rw [idx1_7 t]
    show 0 * 128 + 1 * (j 2).val = (j 2).val
    omega

/-! ## The slabs cover the result array -/

/-- An index of the result array is in point t's block iff each coordinate is in the block's range on its axis. -/
theorem mem_blk1_7 (t : Fin cfg1.N) (i : S25x128x128.Idx) :
    i ∈ ((cfg1.win 7).blk t).view.set ↔ ∀ a : Fin 3, win1_7.index t a * S1x128x128.size a ≤ (i a).val
      ∧ (i a).val < win1_7.index t a * S1x128x128.size a + S1x128x128.size a := by
  show i ∈ ((View.whole main_v117).slice (win1_7.rect t)).set ↔ _
  rw [View.set_slice_whole, Rect.mem_set_unit]
  exact Iff.rfl

/-- Every index of the result array is in the block of the point its first coordinate names, and every point writes
    its block back. -/
theorem cover1_7_arr (i : S25x128x128.Idx) :
    ∃ t : Fin cfg1.N, (cfg1.win 7).flush t = true ∧ i ∈ ((cfg1.win 7).blk t).view.set := by
  have h0 : (i 0).val < 25 := (i 0).isLt
  have h1 : (i 1).val < 128 := (i 1).isLt
  have h2 : (i 2).val < 128 := (i 2).isLt
  refine ⟨⟨(i 0).val, Nat.lt_of_lt_of_eq h0 N_1.symm⟩, flush1_7 _, ?_⟩
  rw [mem_blk1_7]
  intro a
  match a with
  | ⟨0, _⟩ =>
    show win1_7.index _ (0 : Fin 3) * 1 ≤ (i 0).val ∧ (i 0).val < win1_7.index _ (0 : Fin 3) * 1 + 1
    rw [idx1_7]
    show (i 0).val * 1 ≤ (i 0).val ∧ (i 0).val < (i 0).val * 1 + 1
    omega
  | ⟨1, _⟩ =>
    show win1_7.index _ (1 : Fin 3) * 128 ≤ (i 1).val ∧ (i 1).val < win1_7.index _ (1 : Fin 3) * 128 + 128
    rw [idx1_7]
    show 0 * 128 ≤ (i 1).val ∧ (i 1).val < 0 * 128 + 128
    omega
  | ⟨2, _⟩ =>
    show win1_7.index _ (2 : Fin 3) * 128 ≤ (i 2).val ∧ (i 2).val < win1_7.index _ (2 : Fin 3) * 128 + 128
    rw [idx1_7]
    show 0 * 128 ≤ (i 2).val ∧ (i 2).val < 0 * 128 + 128
    omega

/-! ## The result array after the launch -/

/-- After the second launch the [25, 128, 128] result array is G1 of the seven input arrays as the launch finds them. -/
theorem arr1_eq (c : Dev nD) :
    (dat1 V c).arrAt 7 cfg1.N
      = G1 (V c main_v75) (V c main_v88) (V c main_v101) (V c main_v114) (V c main_arg3) (V c main_v116) (V c main_v115) :=
  (dat1 V c).arrAt_eq_of_cover 7 _ (fun t _ => flushed1_7_eq V c t) cover1_7_arr

end Cert.KernelIdeal.Frm

end
-- ==== Proof.RSpec.lean ====
/-
  The reference program as functions of the arrays it reads, at any float instance: each definition is the composition of
  the printed operations of one stretch of the program, in program order.
-/
import proofs.«429956_j56246891708529_3_alg».proof.Proof.Gen.ReferenceIdeal
import Idealize.ShloMosaic.PureOps

noncomputable section

namespace Cert.RSpec

open Cert.ReferenceIdeal Cert.ReferenceIdeal.Gen Idealize.ShloMosaic

variable {F : FTy → Type} [FloatOps F]

/-- The contents of a buffer of shape S and element type e. -/
abbrev Cn (F : FTy → Type) (S : Shape) (e : EltTy) : Type := (⟨S, e⟩ : BufTy).Contents (Elt F)

/-! ## The edge list -/

/-- The edges' source nodes: row 0 of the [2, E] edge list. -/
def row (ei : Cn F S2x1600000 .i32) : Cn F S1600000 .i32 :=
  shapeCast S1600000 (extractStridedSlice S1x1600000 ![0, 0] ei slices_S2x1600000_S1x1600000_0_0) shapeCasts_S1x1600000_S1600000
/-- The edges' target nodes: row 1 of the edge list. -/
def col (ei : Cn F S2x1600000 .i32) : Cn F S1600000 .i32 :=
  shapeCast S1600000 (extractStridedSlice S1x1600000 ![1, 0] ei slices_S2x1600000_S1x1600000_1_0) shapeCasts_S1x1600000_S1600000

/-- Node numbers as a column of gather positions, a negative number counted from the end (n + 100000). -/
def wrapIdx (v : Cn F S1600000 .i32) : Cn F S1600000x1 .i32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The in-degree of every node: ones added up by target node. -/
def deg (ei : Cn F S2x1600000 .i32) : Cn F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (col ei))
    (broadcastInDim S1600000 ![] bcast_S_S1600000 (constant S_ .f32 0x3F800000#32))

/-- deg^(-1/2) where the degree is positive, zero elsewhere. -/
def dinv (ei : Cn F S2x1600000 .i32) : Cn F S100000 .f32 :=
  select (cmpf .ogt (deg ei) (broadcastInDim S100000 ![] bcast_S_S100000 (constant S_ .f32 0x00000000#32)))
    (Host.rsqrt (maximumf (deg ei) (broadcastInDim S100000 ![] bcast_S_S100000 (constant S_ .f32 0x3F800000#32))))
    (broadcastInDim S100000 ![] bcast_S_S100000 (id (constant S_ .f32 0x00000000#32)))

/-- The symmetric normalisation of every edge: dinv at its source times dinv at its target. -/
def norm (ei : Cn F S2x1600000 .i32) : Cn F S1600000 .f32 :=
  mulf (Host.gather gather_S100000_S1600000x1_S1600000_n_0_n_n_0_1_1 (dinv ei) (wrapIdx (row ei)))
    (Host.gather gather_S100000_S1600000x1_S1600000_n_0_n_n_0_1_1 (dinv ei) (wrapIdx (col ei)))

/-! ## One hop of normalised neighbour sums -/

/-- One hop on [N, 4] features: every edge carries its source's row times the edge's normalisation to its target. -/
def hop4 (ei : Cn F S2x1600000 .i32) (h : Cn F S100000x4 .f32) : Cn F S100000x4 .f32 :=
  Host.scatterAdd scatter_S100000x4_S1600000x1_S1600000x4_1_0_0_1
    (broadcastInDim S100000x4 ![] bcast_S_S100000x4 (constant S_ .f32 0x00000000#32))
    (broadcastInDim S1600000x1 ![0] bcast_S1600000_S1600000x1_0 (col ei))
    (mulf (Host.gather gather_S100000x4_S1600000x1_S1600000x4_1_0_n_n_0_1_14 h (wrapIdx (row ei)))
      (broadcastInDim S1600000x4 ![0, 1] bcast_S1600000x1_S1600000x4_0_1
        (broadcastInDim S1600000x1 ![0] bcast_S1600000_S1600000x1_0 (norm ei))))

/-- One hop on [N, 128] features. -/
def hop128 (ei : Cn F S2x1600000 .i32) (h : Cn F S100000x128 .f32) : Cn F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (col ei))
    (mulf (Host.gather gather_S100000x128_S1600000x1_S1600000x128_1_0_n_n_0_1_1128 h (wrapIdx (row ei)))
      (broadcastInDim S1600000x128 ![0, 1] bcast_S1600000x1_S1600000x128_0_1
        (broadcastInDim S1600000x1 ![0] bcast_S1600000_S1600000x1_0 (norm ei))))

/-! ## From the per-graph sums to the class probabilities -/

/-- Mean over each graph's nodes (sums over counts, a count below one read as one), the linear layer, and the softmax
    over the two classes. -/
def tail (sums : Cn F S128x128 .f32) (batch : Cn F S100000 .i32) (wlin : Cn F S128x2 .f32) (blin : Cn F S2 .f32) : Cn F S128x2 .f32 :=
  let cnts : Cn F S128 .f32 := Host.scatterAdd scatter_S128_S100000x1_S100000_n_0_0_1
    (broadcastInDim S128 ![] bcast_S_S128 (constant S_ .f32 0x00000000#32))
    (broadcastInDim S100000x1 ![0] bcast_S100000_S100000x1_0 batch)
    (broadcastInDim S100000 ![] bcast_S_S100000 (constant S_ .f32 0x3F800000#32))
  let pooled : Cn F S128x128 .f32 := Host.divf sums
    (broadcastInDim S128x128 ![0, 1] bcast_S128x1_S128x128_0_1 (broadcastInDim S128x1 ![0] bcast_S128_S128x1_0
      (maximumf cnts (broadcastInDim S128 ![] bcast_S_S128 (constant S_ .f32 0x3F800000#32)))))
  let logits : Cn F S128x2 .f32 := addf (Host.dotGeneral dot_S128x128_S128x2_S128x2_1_0_0_1_n_n none pooled wlin)
    (broadcastInDim S128x2 ![0, 1] bcast_S1x2_S128x2_0_1 (broadcastInDim S1x2 ![1] bcast_S2_S1x2_1 blin))
  let mx : Cn F S128 .f32 := maximumf (broadcastInDim S128 ![] bcast_S_S128 (constant S_ .f32 0xFF800000#32))
    (Host.reduce FloatOps.maximumf logits (constant S_ .f32 0xFF800000#32) reducesTo_S128x2_S128_d1 h_S_)
  let e : Cn F S128x2 .f32 := Host.exp (subf logits
    (broadcastInDim S128x2 ![0, 1] bcast_S128x1_S128x2_0_1 (broadcastInDim S128x1 ![0] bcast_S128_S128x1_0 mx)))
  Host.divf e (broadcastInDim S128x2 ![0, 1] bcast_S128x1_S128x2_0_1 (broadcastInDim S128x1 ![0] bcast_S128_S128x1_0
    (Host.reduceAdd e (constant S_ .f32 0x00000000#32) reducesTo_S128x2_S128_d1 h_S_)))

/-! ## The two dense layers and the sum by graph -/

/-- The first layer on the four hop features: x·W[0] + a·W[1] + b·W[2] + c·W[3] + bias, then the maximum with zero. -/
def lin1 (x a b c : Cn F S100000x4 .f32) (W1 : Cn F S4x4x128 .f32) (b1 : Cn F S128 .f32) : Cn F S100000x128 .f32 :=
  maximumf
    (addf
      (addf
        (addf
          (addf
            (Host.dotGeneral dot_S100000x4_S4x128_S100000x128_1_0_0_1_n_n none x
              (shapeCast S4x128 (extractStridedSlice S1x4x128 ![0, 0, 0] W1 slices_S4x4x128_S1x4x128_0_0_0) shapeCasts_S1x4x128_S4x128))
            (Host.dotGeneral dot_S100000x4_S4x128_S100000x128_1_0_0_1_n_n none a
              (shapeCast S4x128 (extractStridedSlice S1x4x128 ![1, 0, 0] W1 slices_S4x4x128_S1x4x128_1_0_0) shapeCasts_S1x4x128_S4x128)))
          (Host.dotGeneral dot_S100000x4_S4x128_S100000x128_1_0_0_1_n_n none b
            (shapeCast S4x128 (extractStridedSlice S1x4x128 ![2, 0, 0] W1 slices_S4x4x128_S1x4x128_2_0_0) shapeCasts_S1x4x128_S4x128)))
        (Host.dotGeneral dot_S100000x4_S4x128_S100000x128_1_0_0_1_n_n none c
          (shapeCast S4x128 (extractStridedSlice S1x4x128 ![3, 0, 0] W1 slices_S4x4x128_S1x4x128_3_0_0) shapeCasts_S1x4x128_S4x128)))
      (broadcastInDim S100000x128 ![0, 1] bcast_S1x128_S100000x128_0_1 (broadcastInDim S1x128 ![1] bcast_S128_S1x128_1 b1)))
    (broadcastInDim S100000x128 ![] bcast_S_S100000x128 (constant S_ .f32 0x00000000#32))

/-- The second layer on the four [N, 128] hop features. -/
def lin2 (h0 h1 h2 h3 : Cn F S100000x128 .f32) (W2 : Cn F S4x128x128 .f32) (b2 : Cn F S128 .f32) : Cn F S100000x128 .f32 :=
  maximumf
    (addf
      (addf
        (addf
          (addf
            (Host.dotGeneral dot_S100000x128_S128x128_S100000x128_1_0_0_1_n_n none h0
              (shapeCast S128x128 (extractStridedSlice S1x128x128 ![0, 0, 0] W2 slices_S4x128x128_S1x128x128_0_0_0) shapeCasts_S1x128x128_S128x128))
            (Host.dotGeneral dot_S100000x128_S128x128_S100000x128_1_0_0_1_n_n none h1
              (shapeCast S128x128 (extractStridedSlice S1x128x128 ![1, 0, 0] W2 slices_S4x128x128_S1x128x128_1_0_0) shapeCasts_S1x128x128_S128x128)))
          (Host.dotGeneral dot_S100000x128_S128x128_S100000x128_1_0_0_1_n_n none h2
            (shapeCast S128x128 (extractStridedSlice S1x128x128 ![2, 0, 0] W2 slices_S4x128x128_S1x128x128_2_0_0) shapeCasts_S1x128x128_S128x128)))
        (Host.dotGeneral dot_S100000x128_S128x128_S100000x128_1_0_0_1_n_n none h3
          (shapeCast S128x128 (extractStridedSlice S1x128x128 ![3, 0, 0] W2 slices_S4x128x128_S1x128x128_3_0_0) shapeCasts_S1x128x128_S128x128)))
      (broadcastInDim S100000x128 ![0, 1] bcast_S1x128_S100000x128_0_1 (broadcastInDim S1x128 ![1] bcast_S128_S1x128_1 b2)))
    (broadcastInDim S100000x128 ![] bcast_S_S100000x128 (constant S_ .f32 0x00000000#32))

/-- The node features added up by graph number. -/
def pool (h : Cn F S100000x128 .f32) (batch : Cn F S100000 .i32) : Cn F S128x128 .f32 :=
  Host.scatterAdd scatter_S128x128_S100000x1_S100000x128_1_0_0_1
    (broadcastInDim S128x128 ![] bcast_S_S128x128 (constant S_ .f32 0x00000000#32))
    (broadcastInDim S100000x1 ![0] bcast_S100000_S100000x1_0 batch) h

/-- The whole reference: three hops on the inputs, the first layer, three hops on its result, the second layer, the sum
    by graph, and the tail. -/
def result (x : Cn F S100000x4 .f32) (W1 : Cn F S4x4x128 .f32) (b1 : Cn F S128 .f32) (W2 : Cn F S4x128x128 .f32) (b2 : Cn F S128 .f32)
    (wlin : Cn F S128x2 .f32) (blin : Cn F S2 .f32) (ei : Cn F S2x1600000 .i32) (batch : Cn F S100000 .i32) : Cn F S128x2 .f32 :=
  let h := lin1 x (hop4 ei x) (hop4 ei (hop4 ei x)) (hop4 ei (hop4 ei (hop4 ei x))) W1 b1
  tail (pool (lin2 h (hop128 ei h) (hop128 ei (hop128 ei h)) (hop128 ei (hop128 ei (hop128 ei h))) W2 b2) batch) batch wlin blin

end Cert.RSpec

end
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.LibDotAt.lean ====
/-
  The host's `dot_general` of an [M, K] array with a [K, N] array, read at an output index at the ideal instance: the
  plain sum of products over the contracted axis,
      out (p, q) = ∑ k, l (p, k) · r (k, q),
  and, when the right operand is the transpose of an [N, K] array W (jnp's `x @ W.T`),
      out (p, q) = ∑ k, l (p, k) · W (q, k):
  the same sum a kernel's matmul contracting the last axes of both operands computes.
-/
import proofs.«429956_j56246891708529_3_alg».proof.Proof.LibMatmulAt
import Idealize.ShloMosaic.Lib.ValueLayout

noncomputable section

open scoped BigOperators

namespace Idealize.ShloMosaic.DotAt

open Idealize.ShloMosaic Idealize.ShloMosaic.ValueIdx Idealize.ShloMosaic.MatmulAt

variable {M K N : Nat}

/-- `out (p, q) = ∑ k, l (p, k) · r (k, q)`, whatever the precision and the schedule key. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

/-- Against a transposed [N, K] array: `out (p, q) = ∑ k, l (p, k) · W (q, k)`. -/
theorem dotGeneral_transpose_apply {φ₁ φ₂ : FTy} (prec : Option ContractPrecision) (sched : HostSchedule)
    (l : FVec Ideal ⟨2, ![M, K]⟩ φ₁) (W : FVec Ideal ⟨2, ![N, K]⟩ φ₂)
    (h : (⟨2, ![N, K]⟩ : Shape).Transposes [1, 0] ⟨2, ![K, N]⟩) (p : Fin M) (q : Fin N) :
    FloatOps.dotGeneral (DotDims.plain M K N) prec sched l (transpose ⟨2, ![K, N]⟩ [1, 0] W h) (ix2 p q)
      = ∑ k : Fin K, l (ix2 p k) * W (ix2 q k) := by
  rw [dotGeneral_plain_apply]
  exact Finset.sum_congr rfl fun k _ => by rw [transpose_ix2_apply]

end Idealize.ShloMosaic.DotAt

end
-- ==== Proof.LibRowOps.lean ====
/-
  Rank-2 ROW OPERATIONS read at an index, for any extents.

  A LayerNorm over the last axis of an [a, b] array is built from: the sum of each row, that sum kept as an [a, 1]
  column, the column spread back over the b columns, and a [1, b] row of per-column scales spread over the a rows.
  A kernel writes these with `vector.multi_reduction`, `vector.shape_cast` and `vector.broadcast`; jnp on the host with
  `stablehlo.reduce` and `stablehlo.broadcast_in_dim`. Each lemma says which element of the operand an element of the
  result is; the two sums are read as `∑ k : Fin b` over the row.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

variable {α : Type} {a b : Nat}

/-! ## The kernel's forms -/

/-- A vector [a] kept as a column [a, 1]: element (p, 0) is element p. -/
theorem shapeCast_col_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column [a, 1] spread over b columns: element (p, c) is the column's element (p, 0). -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row p with column k inserted is (p, k). -/
theorem lift_row (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- A kernel's sum over the last axis, at row p: the sum of the row. -/
theorem multiReduction_row_apply {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ x acc h hφ hacc (ix1 p) = ∑ k : Fin b, x (ix2 p k) := by
  rw [Ideal.multiReduction_add_single]
  exact Finset.sum_congr rfl fun k _ => congrArg x (lift_row h p k)

/-! ## The host's forms -/

/-- A vector [b] as a row [1, b] (`broadcast_in_dim`, dims = [1]): element (0, q) is element q. -/
theorem bcastInDim_row_apply (h : (⟨1, ![b]⟩ : Shape).BroadcastsInDim ⟨2, ![1, b]⟩ ![1]) (x : (⟨1, ![b]⟩ : Shape).Idx → α)
    (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows (dims = [0, 1]): element (r, q) is the row's element (0, q). -/
theorem bcastInDim_rows_apply (h : (⟨2, ![1, b]⟩ : Shape).BroadcastsInDim ⟨2, ![a, b]⟩ ![0, 1]) (x : (⟨2, ![1, b]⟩ : Shape).Idx → α)
    (r : Fin a) (q : Fin b) : broadcastInDim ⟨2, ![a, b]⟩ ![0, 1] h x (ix2 r q) = x (ix2 (0 : Fin 1) q) := by
  refine broadcastInDim_apply _ h x (ix2 r q) (ix2 (0 : Fin 1) q) fun ax => ?_
  match ax with
  | ⟨0, _⟩ => rfl
  | ⟨1, _⟩ =>
    show q.val = if b = 1 then 0 else q.val
    split
    · have := q.isLt; omega
    · rfl

/-- A vector [a] kept as a column [a, 1] (dims = [0]): element (r, 0) is element r. -/
theorem bcastInDim_col_apply (h : (⟨1, ![a]⟩ : Shape).BroadcastsInDim ⟨2, ![a, 1]⟩ ![0]) (x : (⟨1, ![a]⟩ : Shape).Idx → α)
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b columns (dims = [0, 1]): element (r, q) is the column's element (r, 0). -/
theorem bcastInDim_cols_apply (h : (⟨2, ![a, 1]⟩ : Shape).BroadcastsInDim ⟨2, ![a, b]⟩ ![0, 1]) (x : (⟨2, ![a, 1]⟩ : Shape).Idx → α)
    (r : Fin a) (q : Fin b) : broadcastInDim ⟨2, ![a, b]⟩ ![0, 1] h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ => rfl

/-- A scalar spread over any shape (dims = []): every element is the scalar. -/
theorem bcastInDim_scalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 fun ax => ax.elim0

/-- The host's sum over the last axis, at row r: the initial value plus the sum of the row. -/
theorem hostReduceAdd_row_apply {φ : FTy} (x : FVec Ideal ⟨2, ![a, b]⟩ φ) (init : FVec Ideal ⟨0, ![]⟩ φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (r : Fin a) :
    Host.reduceAdd x init h' hu (ix1 r) = init ix0 + ∑ k : Fin b, x (ix2 r k) := by
  unfold Host.reduceAdd
  rw [Ideal.hostReduceAdd_def, Ideal.hostReduceAdd_single h' h, eq_ix0 (Shape.Idx.first hu)]
  exact congrArg (init ix0 + ·) (Finset.sum_congr rfl fun k _ => congrArg x (lift_row h r k))

end Idealize.ShloMosaic.RowOps

end
-- ==== Proof.Alg1.lean ====
/-
  The first layer's algebra at the ideal values: the first launch's result array, fed the four hop features side by side,
  the [4, 4, 128] weight flattened to [16, 128] and the bias as a row, is the reference's
  x·W[0] + a·W[1] + b·W[2] + c·W[3] + bias followed by the maximum with zero.

  Both sides are read at one element (n, d). The kernel's side is the maximum with zero of
  (∑ j < 16, cat[n, j] · Wf[j, d]) + bias[d], with cat[n, 4k + f] = hop_k[n, f] and Wf[4k + f, d] = W[k, f, d]; the
  reference's side is the maximum with zero of the four 4-term sums added from the left, plus bias[d]. The extended reals
  are a commutative additive monoid, so the 16-term sum is the sum over k < 4 of the sums over f < 4, and the sum over
  k < 4 is the four terms added from the left.
-/
import proofs.«429956_j56246891708529_3_alg».proof.Proof.Whole
import proofs.«429956_j56246891708529_3_alg».proof.Proof.KSpec
import proofs.«429956_j56246891708529_3_alg».proof.Proof.RSpec
import proofs.«429956_j56246891708529_3_alg».proof.Proof.LibMatmulAt
import proofs.«429956_j56246891708529_3_alg».proof.Proof.LibDotAt
import proofs.«429956_j56246891708529_3_alg».proof.Proof.LibRowOps
import Idealize.ShloMosaic.Lib.Pipeline.Value
import Idealize.ShloMosaic.Lib.ValueLayout
import Mathlib.Algebra.BigOperators.Fin
import Mathlib.Logic.Equiv.Fin.Basic

noncomputable section

open scoped BigOperators

namespace Cert.Alg1

open Idealize.ShloMosaic Idealize.ShloMosaic.ValueIdx

/-! ## The regrouping law -/

/-- A sum of 16 terms in a commutative additive monoid is the sum over k < 4 of the sums over f < 4 of term 4k + f. -/
theorem sum16_eq {M : Type*} [AddCommMonoid M] (g : Fin 16 → M) :
    ∑ j : Fin 16, g j = ∑ k : Fin 4, ∑ f : Fin 4, g ⟨4 * k.val + f.val, by omega⟩ := by
  rw [← Equiv.sum_comp (finProdFinEquiv (m := 4) (n := 4)) g, Fintype.sum_prod_type]
  refine Finset.sum_congr rfl fun k _ => Finset.sum_congr rfl fun f _ => congrArg g (Fin.ext ?_)
  show f.val + 4 * k.val = 4 * k.val + f.val
  omega

/-! ## The kernel's side -/

/-- The first launch's payload at one element: the maximum with zero of the row of the features times the column of the
    weight, plus the bias row's element. -/
theorem k0_pay1_apply (v0 : FVec Ideal ⟨2, ![4000, 16]⟩ .f32) (v3 : FVec Ideal ⟨2, ![16, 128]⟩ .f32)
    (v7 : FVec Ideal ⟨2, ![1, 128]⟩ .f32) (r : Fin 4000) (d : Fin 128) :
    Cert.KernelIdeal.Gen.k0_pay1 (F := Ideal) v0 v3 v7 (ix2 r d)
      = max ((∑ j : Fin 16, v0 (ix2 r j) * v3 (ix2 j d)) + v7 (ix2 (0 : Fin 1) d)) 0 := by
  unfold Cert.KernelIdeal.Gen.k0_pay1
  simp only [shapeCast_self]
  show max (FloatOps.matmul (DotDims.plain 4000 16 128) none (truncf .bf16 v0 Cert.KernelIdeal.Gen.bitsLt_bf16_f32)
      (truncf .bf16 v3 Cert.KernelIdeal.Gen.bitsLt_bf16_f32) (constant ⟨2, ![4000, 128]⟩ .f32 0x00000000#32) (ix2 r d)
      + broadcastTo ⟨2, ![4000, 128]⟩ v7 Cert.KernelIdeal.Gen.broadcasts_S1x128_S4000x128 (ix2 r d)) (Ideal.ofBits .f32 0x00000000#32) = _
  rw [MatmulAt.matmul_plain_apply, broadcastTo_1b_ab_apply, Ideal.ofBits_zero_f32]
  rfl

/-- Hop feature k of the four. -/
def hop (x a b c : FVec Ideal ⟨2, ![100000, 4]⟩ .f32) (k : Fin 4) : FVec Ideal ⟨2, ![100000, 4]⟩ .f32 :=
  match k with
  | ⟨0, _⟩ => x
  | ⟨1, _⟩ => a
  | ⟨2, _⟩ => b
  | ⟨3, _⟩ => c

/-- The four hop features side by side, at column 4k + f of row n: hop feature k at (n, f). -/
theorem cat_apply (x a b c : FVec Ideal ⟨2, ![100000, 4]⟩ .f32) (n : Fin 100000) (k f : Fin 4) :
    KSpec.cat (F := Ideal) x a b c (ix2 n (⟨4 * k.val + f.val, by omega⟩ : Fin 16)) = hop x a b c k (ix2 n f) := by
  unfold KSpec.cat
  match k with
  | ⟨0, _⟩ =>
    refine concatenate_apply_piece (t := ⟨2, ![100000, 16]⟩) (1 : Fin 2) [⟨⟨2, ![100000, 4]⟩, x⟩, ⟨⟨2, ![100000, 4]⟩, a⟩, ⟨⟨2, ![100000, 4]⟩, b⟩, ⟨⟨2, ![100000, 4]⟩, c⟩] _ _ 0 (by show 0 < 4; omega) ⟨2, ![100000, 4]⟩ x rfl rfl 0 rfl (ix2 n f) (fun b hb => ?_) ?_
    · match b with
      | ⟨0, _⟩ => rfl
      | ⟨1, _⟩ => exact absurd rfl hb
    · show 0 + f.val = 4 * 0 + f.val
      omega
  | ⟨1, _⟩ =>
    refine concatenate_apply_piece (t := ⟨2, ![100000, 16]⟩) (1 : Fin 2) [⟨⟨2, ![100000, 4]⟩, x⟩, ⟨⟨2, ![100000, 4]⟩, a⟩, ⟨⟨2, ![100000, 4]⟩, b⟩, ⟨⟨2, ![100000, 4]⟩, c⟩] _ _ 1 (by show 1 < 4; omega) ⟨2, ![100000, 4]⟩ a rfl rfl 4 rfl (ix2 n f) (fun b hb => ?_) ?_
    · match b with
      | ⟨0, _⟩ => rfl
      | ⟨1, _⟩ => exact absurd rfl hb
    · show 4 + f.val = 4 * 1 + f.val
      omega
  | ⟨2, _⟩ =>
    refine concatenate_apply_piece (t := ⟨2, ![100000, 16]⟩) (1 : Fin 2) [⟨⟨2, ![100000, 4]⟩, x⟩, ⟨⟨2, ![100000, 4]⟩, a⟩, ⟨⟨2, ![100000, 4]⟩, b⟩, ⟨⟨2, ![100000, 4]⟩, c⟩] _ _ 2 (by show 2 < 4; omega) ⟨2, ![100000, 4]⟩ b rfl rfl 8 rfl (ix2 n f) (fun b hb => ?_) ?_
    · match b with
      | ⟨0, _⟩ => rfl
      | ⟨1, _⟩ => exact absurd rfl hb
    · show 8 + f.val = 4 * 2 + f.val
      omega
  | ⟨3, _⟩ =>
    refine concatenate_apply_piece (t := ⟨2, ![100000, 16]⟩) (1 : Fin 2) [⟨⟨2, ![100000, 4]⟩, x⟩, ⟨⟨2, ![100000, 4]⟩, a⟩, ⟨⟨2, ![100000, 4]⟩, b⟩, ⟨⟨2, ![100000, 4]⟩, c⟩] _ _ 3 (by show 3 < 4; omega) ⟨2, ![100000, 4]⟩ c rfl rfl 12 rfl (ix2 n f) (fun b hb => ?_) ?_
    · match b with
      | ⟨0, _⟩ => rfl
      | ⟨1, _⟩ => exact absurd rfl hb
    · show 12 + f.val = 4 * 3 + f.val
      omega

/-- The flattened weight at row 4k + f: the weight at (k, f). -/
theorem w1f_apply (W1 : FVec Ideal ⟨3, ![4, 4, 128]⟩ .f32) (k f : Fin 4) (d : Fin 128) :
    KSpec.w1f (F := Ideal) W1 (ix2 (⟨4 * k.val + f.val, by omega⟩ : Fin 16) d) = W1 (ix3 k f d) := by
  unfold KSpec.w1f
  refine shapeCast_apply W1 _ _ _ ?_
  rw [Shape.rowMajor_val_three, Shape.rowMajor_val_two]
  show (k.val * 4 + f.val) * 128 + d.val = (4 * k.val + f.val) * 128 + d.val
  omega

/-- The bias as a row, at column d: the bias at d. -/
theorem brow_apply (b1 : FVec Ideal ⟨1, ![128]⟩ .f32) (u : Fin 1) (d : Fin 128) :
    KSpec.brow (F := Ideal) b1 (ix2 u d) = b1 (ix1 d) := by
  unfold KSpec.brow
  exact shapeCast_a_1a_apply b1 _ u d

/-- The first launch's result array at (n, d): the payload of the block of rows that holds n, at row n mod 4000, reads
    row n of the features (4000 · (n / 4000) + n mod 4000 = n). -/
theorem G0_apply (X : FVec Ideal ⟨2, ![100000, 16]⟩ .f32) (Wt : FVec Ideal ⟨2, ![16, 128]⟩ .f32)
    (B : FVec Ideal ⟨2, ![1, 128]⟩ .f32) (n : Fin 100000) (d : Fin 128) :
    Cert.KernelIdeal.Frm.G0 (F := Ideal) X Wt B (ix2 n d)
      = max ((∑ j : Fin 16, X (ix2 n j) * Wt (ix2 j d)) + B (ix2 (0 : Fin 1) d)) 0 := by
  unfold Cert.KernelIdeal.Frm.G0
  refine (k0_pay1_apply _ Wt B _ _).trans ?_
  refine congrArg (fun s => max (s + B (ix2 (0 : Fin 1) d)) 0) (Finset.sum_congr rfl fun j _ => ?_)
  refine congrArg (· * Wt (ix2 j d)) ?_
  unfold Cert.KernelIdeal.Frm.rows
  refine congrArg X (funext fun ax => ?_)
  match ax with
  | ⟨0, _⟩ => exact Fin.ext (Nat.div_add_mod n.val 4000)
  | ⟨1, _⟩ => rfl

/-- The kernel's side at (n, d). -/
theorem kernel_side (x a b c : FVec Ideal ⟨2, ![100000, 4]⟩ .f32) (W1 : FVec Ideal ⟨3, ![4, 4, 128]⟩ .f32)
    (b1 : FVec Ideal ⟨1, ![128]⟩ .f32) (n : Fin 100000) (d : Fin 128) :
    Cert.KernelIdeal.Frm.G0 (F := Ideal) (KSpec.cat x a b c) (KSpec.w1f W1) (KSpec.brow b1) (ix2 n d)
      = max ((∑ k : Fin 4, ∑ f : Fin 4, hop x a b c k (ix2 n f) * W1 (ix3 k f d)) + b1 (ix1 d)) 0 := by
  rw [G0_apply, sum16_eq, brow_apply]
  refine congrArg (fun s => max (s + b1 (ix1 d)) 0) (Finset.sum_congr rfl fun k _ => Finset.sum_congr rfl fun f _ => ?_)
  rw [cat_apply, w1f_apply]

/-! ## The reference's side -/

/-- Slab k of the weight, cut out and cast to a [4, 128] matrix, at (f, d): the weight at (k, f, d). -/
theorem wslab_apply (W1 : FVec Ideal ⟨3, ![4, 4, 128]⟩ .f32) (o : Nat)
    (hs : (⟨3, ![4, 4, 128]⟩ : Shape).Slices ![o, 0, 0] ⟨3, ![1, 4, 128]⟩)
    (hc : (⟨3, ![1, 4, 128]⟩ : Shape).ShapeCasts ⟨2, ![4, 128]⟩) (k : Fin 4) (hk : k.val = o) (f : Fin 4) (d : Fin 128) :
    shapeCast ⟨2, ![4, 128]⟩ (extractStridedSlice ⟨3, ![1, 4, 128]⟩ ![o, 0, 0] W1 hs) hc (ix2 f d) = W1 (ix3 k f d) := by
  rw [shapeCast_1ab_ab_apply]
  refine extractStridedSlice_apply _ _ _ _ _ fun ax => ?_
  match ax with
  | ⟨0, _⟩ => show k.val = o + 0; omega
  | ⟨1, _⟩ => show f.val = 0 + f.val; omega
  | ⟨2, _⟩ => show d.val = 0 + d.val; omega

/-- The host's product of the [100000, 4] features with a [4, 128] matrix at (n, d). -/
theorem dot_apply (h : FVec Ideal ⟨2, ![100000, 4]⟩ .f32) (w : FVec Ideal ⟨2, ![4, 128]⟩ .f32) (n : Fin 100000) (d : Fin 128) :
    Host.dotGeneral (F := Ideal) Cert.ReferenceIdeal.dot_S100000x4_S4x128_S100000x128_1_0_0_1_n_n none h w (ix2 n d)
      = ∑ f : Fin 4, h (ix2 n f) * w (ix2 f d) :=
  DotAt.dotGeneral_plain_apply none .single h w n d

/-- The reference's side at (n, d). -/
theorem ref_side (x a b c : FVec Ideal ⟨2, ![100000, 4]⟩ .f32) (W1 : FVec Ideal ⟨3, ![4, 4, 128]⟩ .f32)
    (b1 : FVec Ideal ⟨1, ![128]⟩ .f32) (n : Fin 100000) (d : Fin 128) :
    RSpec.lin1 (F := Ideal) x a b c W1 b1 (ix2 n d)
      = max (((((∑ f : Fin 4, x (ix2 n f) * W1 (ix3 (0 : Fin 4) f d)) + ∑ f : Fin 4, a (ix2 n f) * W1 (ix3 (1 : Fin 4) f d))
          + ∑ f : Fin 4, b (ix2 n f) * W1 (ix3 (2 : Fin 4) f d)) + ∑ f : Fin 4, c (ix2 n f) * W1 (ix3 (3 : Fin 4) f d))
          + b1 (ix1 d)) 0 := by
  unfold RSpec.lin1
  rw [maximumf_apply, addf_apply, addf_apply, addf_apply, addf_apply, dot_apply, dot_apply, dot_apply, dot_apply,
    RowOps.bcastInDim_rows_apply, RowOps.bcastInDim_row_apply, RowOps.bcastInDim_scalar_apply, constant_apply,
    Ideal.ofBits_zero_f32]
  simp only [wslab_apply W1 0 _ _ (0 : Fin 4) rfl, wslab_apply W1 1 _ _ (1 : Fin 4) rfl, wslab_apply W1 2 _ _ (2 : Fin 4) rfl,
    wslab_apply W1 3 _ _ (3 : Fin 4) rfl]

/-! ## The two sides are one function -/

/-- The first launch on the four hop features side by side, the flattened weight and the bias row is the reference's first
    layer. -/
theorem layer1_eq (x a b c : KSpec.Cn Ideal Cert.KernelIdeal.S100000x4 .f32) (W1 : KSpec.Cn Ideal Cert.KernelIdeal.S4x4x128 .f32)
    (b1 : KSpec.Cn Ideal Cert.KernelIdeal.S128 .f32) :
    Cert.KernelIdeal.Frm.G0 (F := Ideal) (KSpec.cat x a b c) (KSpec.w1f W1) (KSpec.brow b1)
      = RSpec.lin1 (F := Ideal) x a b c W1 b1 := by
  funext i
  obtain ⟨n, d, rfl⟩ : ∃ (n : Fin 100000) (d : Fin 128), i = ix2 n d := ⟨i 0, i 1, eq_ix2 i⟩
  rw [kernel_side, ref_side, Fin.sum_univ_four]
  rfl

end Cert.Alg1

end
-- ==== Proof.LibScatterAddAt.lean ====
/-
  The host's accumulating float scatter (`stablehlo.scatter` with an `add` body over several scatter indices) READ AT ONE
  ELEMENT of its result, at the ideal instance: the operand's element plus the sum, over ALL updates, of those whose
  index lands on the element — an if-sum over the updates' coordinate ranges, the index words read signed. An index
  word that is negative or past the operand's extent equals no element's coordinate, so its update is in no element's
  sum: the operation drops it. General in the sizes; the dimension numbers enter as equations on the record's fields,
  which a printed record meets by `rfl`.

  Three shapes of dimension numbers: updates added into a vector, one index word each (a count or a sum by segment);
  update rows added into the rows of a matrix, one index word per row (a sum of rows by segment); updates added into a
  matrix at (row, column) pairs of index words (an adjacency matrix from an edge list).
-/
import Idealize.ShloMosaic.Lib.ValueIdxRank1
import Mathlib.Algebra.BigOperators.Group.Finset.Basic
import Mathlib.Algebra.BigOperators.Group.Finset.Piecewise

noncomputable section

open scoped BigOperators

namespace Cert.LibScatterAddAt

open Idealize.ShloMosaic Idealize.ShloMosaic.ValueIdx

/-! ## Where an update lands -/

/-- An update index `j` lands on the operand element `i` iff on every operand axis the window's start (the index word
    read signed, or 0) plus the window coordinate IS `i`'s coordinate — in particular it is then inside the operand,
    and an update one of whose sums is negative or past the extent lands nowhere. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro he a
      have hf := congrFun (Option.some.inj he) a
      have hv : (d.start j idx a + (d.window j a : ℤ)).toNat = (i a).val := congrArg Fin.val hf
      have h0 := (h a).1
      omega
    · intro hall
      refine congrArg some (funext fun a => Fin.ext ?_)
      show (d.start j idx a + (d.window j a : ℤ)).toNat = (i a).val
      rw [hall a]; exact Int.toNat_natCast _
  · rename_i h
    constructor
    · intro he; exact absurd he (by simp)
    · intro hall
      exact absurd (fun a => by rw [hall a]; exact ⟨Int.natCast_nonneg _, by exact_mod_cast (i a).isLt⟩) h

/-! ## Updates added into a vector, one index word each -/

section Vec

variable {N n w : Nat}

/-- With the operand's one axis inserted and mapped from the index word (index_vector_dim = 1 over indices [n, 1], no
    window axis), update `e`'s window starts at the word `idx[e, 0]` and has no extent. -/
theorem vec_start (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1) (idx : IVec ⟨2, ![n, 1]⟩ w) (e : Fin n) :
    d.start (ix1 e) idx 0 = (idx (ix2 e 0)).toInt ∧ d.window (ix1 e) 0 = 0 := by
  obtain ⟨uw, iw, sd, iv, wf⟩ := d
  dsimp only at huw hiw hsd hiv
  subst huw hiw hsd hiv
  refine ⟨?_, ?_⟩
  · unfold ScatterDims.start
    rw [dif_pos (show (0 : Fin 1) ∈ [(0 : Fin 1)] by decide)]
    refine congrArg (fun k => (idx k).toInt) (funext fun b => Fin.ext ?_)
    match b with
    | ⟨0, _⟩ => rfl
    | ⟨1, _⟩ => rfl
  · unfold ScatterDims.window; rw [dif_neg (by simp [ScatterDims.sKept, Shape.kept])]

/-- THE VECTOR SCATTER READ AT i: the operand's element plus every update whose index word is `i` (read signed; a
    negative or too large word matches no coordinate). With updates all 1 this counts the words equal to `i`. -/
theorem ideal_scatterAdd_vec_apply (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal) (i : Fin N) :
    Ideal.hostScatterAdd d x idx upd (ix1 i)
      = x (ix1 i) + ∑ e : Fin n, if (idx (ix2 e 0)).toInt = (i.val : ℤ) then upd (ix1 e) else 0 := by
  unfold Ideal.hostScatterAdd
  congr 1
  rw [Finset.sum_filter, ← Equiv.sum_comp (idxEquiv1 (n := n)).symm]
  refine Finset.sum_congr rfl fun e _ => ?_
  show (if d.resultIdx? (ix1 e) idx = some (ix1 i) then upd (ix1 e) else 0) = _
  obtain ⟨h0, w0⟩ := vec_start d huw hiw hsd hiv idx e
  have key : d.resultIdx? (ix1 e) idx = some (ix1 i) ↔ (idx (ix2 e 0)).toInt = (i.val : ℤ) := by
    rw [resultIdx?_eq_some_iff]
    constructor
    · intro h
      have a0 := h 0
      rw [h0, w0] at a0
      simp only [Nat.cast_zero, add_zero] at a0
      exact a0
    · intro e0 a
      match a with
      | ⟨0, _⟩ => show d.start (ix1 e) idx 0 + (d.window (ix1 e) 0 : ℤ) = _; rw [h0, w0, e0]; simp
  simp only [key]

/-- The same of the program's operation `Host.scatterAdd` at the ideal instance. -/
theorem host_scatterAdd_vec_apply {φ : FTy} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![n, 1]⟩ w) (upd : FVec Ideal ⟨1, ![n]⟩ φ) (i : Fin N) :
    Host.scatterAdd (F := Ideal) d x idx upd (ix1 i)
      = x (ix1 i) + ∑ e : Fin n, if (idx (ix2 e 0)).toInt = (i.val : ℤ) then upd (ix1 e) else 0 :=
  ideal_scatterAdd_vec_apply d huw hiw hsd hiv x idx upd i

end Vec

/-! ## Update rows added into the rows of a matrix, one index word per row -/

section Rows

variable {N D n w : Nat}

/-- With the operand's row axis inserted and mapped from the index word and its column axis the updates' window axis
    (index_vector_dim = 1 over indices [n, 1]), update `(e, j')`'s window starts at row word `idx[e, 0]`, column 0, and
    `j'` is its coordinate along the row. -/
theorem rows_start (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1) (idx : IVec ⟨2, ![n, 1]⟩ w) (e : Fin n) (j' : Fin D) :
    d.start (ix2 e j') idx 0 = (idx (ix2 e 0)).toInt ∧ d.start (ix2 e j') idx 1 = 0
      ∧ d.window (ix2 e j') 0 = 0 ∧ d.window (ix2 e j') 1 = j'.val := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2)] by decide)]
    refine congrArg (fun k => (idx k).toInt) (funext fun b => Fin.ext ?_)
    match b with
    | ⟨0, _⟩ => rfl
    | ⟨1, _⟩ => rfl
  · unfold ScatterDims.start; rw [dif_neg (by simp)]
  · unfold ScatterDims.window; rw [dif_neg (by simp [ScatterDims.sKept, Shape.kept])]
  · unfold ScatterDims.window; rw [dif_pos (by simp [ScatterDims.sKept, Shape.kept])]; rfl

/-- THE ROW SCATTER READ AT (i, j): the operand's element plus, of every update row whose index word is `i` (read
    signed; a negative or too large word matches no row), the element in column `j`. -/
theorem ideal_scatterAdd_rows_apply (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![n, 1]⟩ w) (upd : (⟨2, ![n, D]⟩ : Shape).Idx → EReal)
    (i : Fin N) (j : Fin D) :
    Ideal.hostScatterAdd d x idx upd (ix2 i j)
      = x (ix2 i j) + ∑ e : Fin n, if (idx (ix2 e 0)).toInt = (i.val : ℤ) then upd (ix2 e j) else 0 := by
  unfold Ideal.hostScatterAdd
  congr 1
  rw [Finset.sum_filter, sum_idx2]
  refine Finset.sum_congr rfl fun e _ => ?_
  have key : ∀ j' : Fin D, d.resultIdx? (ix2 e j') idx = some (ix2 i j)
      ↔ ((idx (ix2 e 0)).toInt = (i.val : ℤ) ∧ j' = j) := by
    intro j'
    obtain ⟨h0, h1, w0, w1⟩ := rows_start d huw hiw hsd hiv idx e j'
    rw [resultIdx?_eq_some_iff]
    constructor
    · intro h
      have a0 := h 0; have a1 := h 1
      rw [h0, w0] at a0; rw [h1, w1] at a1
      simp only [Nat.cast_zero, add_zero, zero_add] at a0 a1
      exact ⟨a0, Fin.ext (by exact_mod_cast a1)⟩
    · rintro ⟨e0, rfl⟩ a
      match a with
      | ⟨0, _⟩ => show d.start (ix2 e j') idx 0 + (d.window (ix2 e j') 0 : ℤ) = _; rw [h0, w0, e0]; simp
      | ⟨1, _⟩ => show d.start (ix2 e j') idx 1 + (d.window (ix2 e j') 1 : ℤ) = _; rw [h1, w1]; simp
  simp only [key]
  by_cases hA : (idx (ix2 e 0)).toInt = (i.val : ℤ)
  · simp only [hA, true_and]
    rw [Finset.sum_ite_eq']; simp
  · simp only [hA, false_and, if_false]
    exact Finset.sum_const_zero

/-- The same of the program's operation `Host.scatterAdd` at the ideal instance. -/
theorem host_scatterAdd_rows_apply {φ : FTy} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : FVec Ideal ⟨2, ![N, D]⟩ φ) (idx : IVec ⟨2, ![n, 1]⟩ w) (upd : FVec Ideal ⟨2, ![n, D]⟩ φ) (i : Fin N) (j : Fin D) :
    Host.scatterAdd (F := Ideal) d x idx upd (ix2 i j)
      = x (ix2 i j) + ∑ e : Fin n, if (idx (ix2 e 0)).toInt = (i.val : ℤ) then upd (ix2 e j) else 0 :=
  ideal_scatterAdd_rows_apply d huw hiw hsd hiv x idx upd i j

end Rows

/-! ## Updates added into a matrix at (row, column) pairs of index words -/

section Points

variable {N M n w : Nat}

/-- With both operand axes inserted and mapped from the index pair (index_vector_dim = 1 over indices [n, 2], no window
    axis), update `e`'s window starts at row word `idx[e, 0]` and column word `idx[e, 1]`, and has no extent. -/
theorem points_start (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1) (idx : IVec ⟨2, ![n, 2]⟩ w) (e : Fin n) :
    d.start (ix1 e) idx 0 = (idx (ix2 e 0)).toInt ∧ d.start (ix1 e) idx 1 = (idx (ix2 e 1)).toInt
      ∧ d.window (ix1 e) 0 = 0 ∧ d.window (ix1 e) 1 = 0 := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2), 1] by decide)]
    refine congrArg (fun k => (idx k).toInt) (funext fun b => Fin.ext ?_)
    match b with
    | ⟨0, _⟩ => rfl
    | ⟨1, _⟩ => rfl
  · unfold ScatterDims.start
    rw [dif_pos (show (1 : Fin 2) ∈ [(0 : Fin 2), 1] by decide)]
    refine congrArg (fun k => (idx k).toInt) (funext fun b => Fin.ext ?_)
    match b with
    | ⟨0, _⟩ => rfl
    | ⟨1, _⟩ => rfl
  · unfold ScatterDims.window; rw [dif_neg (by simp [ScatterDims.sKept, Shape.kept])]
  · unfold ScatterDims.window; rw [dif_neg (by simp [ScatterDims.sKept, Shape.kept])]

/-- THE POINT SCATTER READ AT (i, c): the operand's element plus every update whose row word is `i` and whose column
    word is `c` (read signed; a negative or too large word matches no coordinate). -/
theorem ideal_scatterAdd_points_apply (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1)
    (x : (⟨2, ![N, M]⟩ : Shape).Idx → EReal) (idx : IVec ⟨2, ![n, 2]⟩ w) (upd : (⟨1, ![n]⟩ : Shape).Idx → EReal)
    (i : Fin N) (c : Fin M) :
    Ideal.hostScatterAdd d x idx upd (ix2 i c)
      = x (ix2 i c) + ∑ e : Fin n,
          if (idx (ix2 e 0)).toInt = (i.val : ℤ) ∧ (idx (ix2 e 1)).toInt = (c.val : ℤ) then upd (ix1 e) else 0 := by
  unfold Ideal.hostScatterAdd
  congr 1
  rw [Finset.sum_filter, ← Equiv.sum_comp (idxEquiv1 (n := n)).symm]
  refine Finset.sum_congr rfl fun e _ => ?_
  show (if d.resultIdx? (ix1 e) idx = some (ix2 i c) then upd (ix1 e) else 0) = _
  obtain ⟨h0, h1, w0, w1⟩ := points_start d huw hiw hsd hiv idx e
  have key : d.resultIdx? (ix1 e) idx = some (ix2 i c)
      ↔ (idx (ix2 e 0)).toInt = (i.val : ℤ) ∧ (idx (ix2 e 1)).toInt = (c.val : ℤ) := by
    rw [resultIdx?_eq_some_iff]
    constructor
    · intro h
      have a0 := h 0; have a1 := h 1
      rw [h0, w0] at a0; rw [h1, w1] at a1
      simp only [Nat.cast_zero, add_zero] at a0 a1
      exact ⟨a0, a1⟩
    · rintro ⟨e0, e1⟩ a
      match a with
      | ⟨0, _⟩ => show d.start (ix1 e) idx 0 + (d.window (ix1 e) 0 : ℤ) = _; rw [h0, w0, e0]; simp
      | ⟨1, _⟩ => show d.start (ix1 e) idx 1 + (d.window (ix1 e) 1 : ℤ) = _; rw [h1, w1, e1]; simp
  simp only [key]

/-- The same of the program's operation `Host.scatterAdd` at the ideal instance. -/
theorem host_scatterAdd_points_apply {φ : FTy} (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1)
    (x : FVec Ideal ⟨2, ![N, M]⟩ φ) (idx : IVec ⟨2, ![n, 2]⟩ w) (upd : FVec Ideal ⟨1, ![n]⟩ φ) (i : Fin N) (c : Fin M) :
    Host.scatterAdd (F := Ideal) d x idx upd (ix2 i c)
      = x (ix2 i c) + ∑ e : Fin n,
          if (idx (ix2 e 0)).toInt = (i.val : ℤ) ∧ (idx (ix2 e 1)).toInt = (c.val : ℤ) then upd (ix1 e) else 0 :=
  ideal_scatterAdd_points_apply d huw hiw hsd hiv x idx upd i c

end Points

end Cert.LibScatterAddAt

end
-- ==== Proof.LibMatmulLhsT.lean ====
/-
  A `tpu.matmul` into a zero accumulator that contracts the FIRST axis of BOTH operands (a product with the left operand
  transposed: jnp's `dot_general(l, r, (((0,), (0,)), ((), ())))`), read at an output index at the ideal instance: the
  plain sum of products over the contracted axis,
      out (p, q) = ∑ k, l (k, p) · r (k, q)
  for a K×M left operand, a K×N right operand and an M×N result. Stated for every M, K, N, every pair of operand formats
  and ANY dimension record of these shapes whose fields are these dimension numbers (contracting [0] and [0], free [1] and
  [1], no batch axes): a printed record meets the six equations by `rfl`.
-/
import Idealize.ShloMosaic.PureOps.Ideal.Laws
import Idealize.ShloMosaic.Lib.ValueIdx

noncomputable section

open scoped BigOperators

namespace Idealize.ShloMosaic.MatmulLhsT

open Idealize.ShloMosaic Idealize.ShloMosaic.ValueIdx

variable {M K N : Nat}

/-- For dimension numbers that contract axis 0 of a K×M left operand with axis 0 of a K×N right operand, the operand
    indices at output index (p, q) and contraction position k are (k, p) and (k, q). -/
theorem trl_idx (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (j : (⟨2, ![M, N]⟩ : Shape).Idx) (q : d.contr.Idx) :
    (d.lhsIdx j q 0).val = (q ⟨0, by rw [d.rank_contr, hlc]; exact Nat.one_pos⟩).val ∧ (d.lhsIdx j q 1).val = (j 0).val
      ∧ (d.rhsIdx j q 0).val = (q ⟨0, by rw [d.rank_contr, hlc]; exact Nat.one_pos⟩).val ∧ (d.rhsIdx j q 1).val = (j 1).val := by
  refine ⟨d.lhsIdx_val_of_single hlc j q, ?_, d.rhsIdx_val_of_single hrc j q, ?_⟩
  · obtain ⟨lc, rc, ln, rn, lb, rb, wf⟩ := d
    dsimp only at hlc hrc hln hrn hlb hrb
    subst hlc hrc hln hrn hlb hrb
    unfold DotDims.lhsIdx
    rw [dif_neg (by simp), dif_pos (by simp)]
    rfl
  · obtain ⟨lc, rc, ln, rn, lb, rb, wf⟩ := d
    dsimp only at hlc hrc hln hrn hlb hrb
    subst hlc hrc hln hrn hlb hrb
    unfold DotDims.rhsIdx
    rw [dif_neg (by simp), dif_pos (by simp)]
    rfl

/-- Into a zero accumulator, at the ideal values: `out (p, q) = ∑ k, l (k, p) · r (k, q)`. -/
theorem matmul_transposedLhs_apply {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision)
    (l : FVec Ideal ⟨2, ![K, M]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 k p) * r (ix2 k q) := by
  have hr : d.contr.rank = 1 := by rw [d.rank_contr, hlc]; rfl
  have hs : d.contr.size ⟨0, by omega⟩ = K := by
    have := d.size_contr 0 (by rw [hlc]; exact Nat.one_pos)
    rw [this]; simp only [hlc]; rfl
  rw [Ideal.matmul_constant_zero_apply, ← Equiv.sum_comp (contrEquiv1 d K hr hs).symm]
  refine Finset.sum_congr rfl fun k _ => ?_
  have hk := contrEquiv1_symm_val d K hr hs k
  obtain ⟨l0, l1, r0, r1⟩ := trl_idx d hlc hrc hln hrn hlb hrb (ix2 p q) ((contrEquiv1 d K hr hs).symm k)
  have el : d.lhsIdx (ix2 p q) ((contrEquiv1 d K hr hs).symm k) = ix2 k p :=
    funext fun a => Fin.ext (by
      match a with
      | ⟨0, _⟩ => exact l0.trans hk
      | ⟨1, _⟩ => exact l1)
  have er : d.rhsIdx (ix2 p q) ((contrEquiv1 d K hr hs).symm k) = ix2 k q :=
    funext fun a => Fin.ext (by
      match a with
      | ⟨0, _⟩ => exact r0.trans hk
      | ⟨1, _⟩ => exact r1)
  rw [el, er]

end Idealize.ShloMosaic.MatmulLhsT

end
-- ==== Proof.Alg2.lean ====
/-
  The second layer and the sum by graph, at the ideal values: the 25 per-block products of the second launch, added up,
  are the reference's second-layer rows added up by graph number.

  The second launch walks the 100000 nodes in 25 blocks of 4000 rows. On block t its body forms the feature block
      Hb[r, d] = max((((0 + Σ_k h0[4000t+r, k]·W2[0, k, d]) + Σ_k h1[..]·W2[1, k, d]) + Σ_k h2[..]·W2[2, k, d])
                     + Σ_k h3[..]·W2[3, k, d] + b2[d], 0),
  the one-hot matrix onehot[r, g] = 1 where row r's graph number is g, else 0, and stores the 128 × 128 product
  contracting the ROW axis of both, slab[g, d] = Σ_r onehot[r, g]·Hb[r, d]. On the extended reals 0·y = 0 and 1·y = y for
  every y, so slab[g, d] is the sum of Hb[r, d] over the rows r of the block whose graph number is g. The host then adds
  the 25 slabs. The reference computes H = the same second layer on all 100000 rows (its sum starts from the first
  product, and 0 + x = x) and adds row n of H into row batch[n] of a zero 128 × 128 array, a graph number that reads,
  signed, outside 0 … 127 landing nowhere; a 32-bit word equals the word of g < 128 exactly when it reads signed as g.
  So both sides at (g, d) are 0 + Σ_{n < 100000} [batch[n] = g] H[n, d], the kernel's grouped as Σ_{t < 25} Σ_{r < 4000}
  with n = 4000·t + r.
-/
import proofs.«429956_j56246891708529_3_alg».proof.Proof.Whole
import proofs.«429956_j56246891708529_3_alg».proof.Proof.KSpec
import proofs.«429956_j56246891708529_3_alg».proof.Proof.RSpec
import proofs.«429956_j56246891708529_3_alg».proof.Proof.LibScatterAddAt
import proofs.«429956_j56246891708529_3_alg».proof.Proof.LibMatmulAt
import proofs.«429956_j56246891708529_3_alg».proof.Proof.LibMatmulLhsT
import proofs.«429956_j56246891708529_3_alg».proof.Proof.LibDotAt
import proofs.«429956_j56246891708529_3_alg».proof.Proof.LibRowOps
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Logic.Equiv.Fin.Basic

noncomputable section

open scoped BigOperators

namespace Cert.Alg2

open Cert.KernelIdeal Cert.KernelIdeal.Gen Cert.KernelIdeal.Frm Idealize.ShloMosaic Idealize.ShloMosaic.ValueIdx
open Idealize.ShloMosaic.MatmulLhsT

/-! ## Twenty-five blocks of four thousand rows are the hundred thousand rows -/

/-- A sum over `a` blocks of `b` consecutive positions each is the sum over all `a * b` positions. -/
theorem sum_blocks_gen {A : Type*} [AddCommMonoid A] (a b : Nat) (f : Fin (a * b) → A)
    (pos : Fin a → Fin b → Fin (a * b)) (hpos : ∀ t r, (pos t r).val = b * t.val + r.val) :
    ∑ t : Fin a, ∑ r : Fin b, f (pos t r) = ∑ n : Fin (a * b), f n := by
  rw [← Equiv.sum_comp (finProdFinEquiv (m := a) (n := b)) f, Fintype.sum_prod_type]
  refine Finset.sum_congr rfl fun t _ => Finset.sum_congr rfl fun r _ => congrArg f (Fin.ext ?_)
  rw [hpos]
  show b * t.val + r.val = r.val + b * t.val
  exact Nat.add_comm _ _

/-! ## The one-hot entry -/

/-- For a graph number g below 128, a 32-bit word is the word of g exactly when it reads, signed, as g. -/
theorem eq_ofNat_iff_toInt (b : BitVec 32) (g : Fin 128) : b = BitVec.ofNat 32 g.val ↔ b.toInt = (g.val : ℤ) := by
  have hg : g.val < 128 := g.isLt
  constructor
  · rintro rfl
    rw [BitVec.toInt_eq_toNat_cond, BitVec.toNat_ofNat, Nat.mod_eq_of_lt (by omega)]
    split <;> omega
  · intro h
    calc b = BitVec.ofInt 32 b.toInt := BitVec.ofInt_toInt.symm
      _ = BitVec.ofInt 32 (g.val : ℤ) := by rw [h]
      _ = BitVec.ofNat 32 g.val := BitVec.ofInt_natCast 32 g.val

/-- The comparison bit, widened to a word and converted, is 1 where the word reads as g and 0 elsewhere. -/
theorem onehot_word (b : BitVec 32) (g : Fin 128) :
    FloatOps.sitofp (F := Ideal) .f32 ((IntOp.cmpi .eq b (BitVec.ofNat 32 g.val)).setWidth 32)
      = if b.toInt = (g.val : ℤ) then (1 : EReal) else 0 := by
  by_cases h : b = BitVec.ofNat 32 g.val
  · have hc : IntOp.cmpi .eq b (BitVec.ofNat 32 g.val) = 1#1 := by
      simp only [IntOp.cmpi, h, beq_self_eq_true]; rfl
    rw [hc, if_pos ((eq_ofNat_iff_toInt b g).mp h)]
    show (((BitVec.setWidth 32 1#1).toInt : ℝ) : EReal) = 1
    rw [show (BitVec.setWidth 32 1#1).toInt = 1 by decide]
    simp
  · have hc : IntOp.cmpi .eq b (BitVec.ofNat 32 g.val) = 0#1 := by
      simp only [IntOp.cmpi]
      rw [show (b == BitVec.ofNat 32 g.val) = false from beq_false_of_ne h]; rfl
    rw [hc, if_neg (fun e => h ((eq_ofNat_iff_toInt b g).mpr e))]
    show (((BitVec.setWidth 32 0#1).toInt : ℝ) : EReal) = 0
    rw [show (BitVec.setWidth 32 0#1).toInt = 0 by decide]
    simp

/-! ## The second launch's body, read at an element -/

/-- Node 4000·t + r: row r of block t. -/
def node (t : Fin 25) (r : Fin 4000) : Fin 100000 :=
  ⟨4000 * t.val + r.val, by have := t.isLt; have := r.isLt; omega⟩

theorem rows_apply {C : Nat} {e : EltTy} (X : (⟨2, ![100000, C]⟩ : Shape).Idx → Elt Ideal e) (t : Fin 25) (r : Fin 4000)
    (c : Fin C) : rows (F := Ideal) X t (ix2 r c) = X (ix2 (node t r) c) := rfl

theorem slab_apply {e : EltTy} (W : (⟨3, ![4, 128, 128]⟩ : Shape).Idx → Elt Ideal e) (k : Fin 4) (a b : Fin 128) :
    slab (F := Ideal) W k (ix3 (0 : Fin 1) a b) = W (ix3 k a b) := rfl

/-- One of the body's four products: a block of 4000 feature rows times one slab of the weight. -/
def blk (v : Vec Ideal S4000x128 .f32) (w : Vec Ideal S1x128x128 .f32) : FVec Ideal S4000x128 .f32 :=
  matmul dot_S4000x128_S128x128_S4000x128_1_0_0_1_n_n none
    (truncf .bf16 (shapeCast S4000x128 v shapeCasts_S4000x128_S4000x128) bitsLt_bf16_f32)
    (truncf .bf16 (shapeCast S128x128 w shapeCasts_S1x128x128_S128x128) bitsLt_bf16_f32)
    (constant S4000x128 .f32 0x00000000#32)

/-- At (r, d) the product is the sum over the 128 input features. -/
theorem blk_apply (v : Vec Ideal S4000x128 .f32) (w : Vec Ideal S1x128x128 .f32) (r : Fin 4000) (d : Fin 128) :
    blk v w (ix2 r d) = ∑ k : Fin 128, v (ix2 r k) * w (ix3 (0 : Fin 1) k d) := by
  unfold blk
  refine (MatmulAt.matmul_plain_apply (M := 4000) (K := 128) (N := 128) none _ _ r d).trans ?_
  refine Finset.sum_congr rfl fun k _ => ?_
  rw [truncf_apply, truncf_apply, shapeCast_self, shapeCast_1ab_ab_apply]

/-- The sum of the four products, from a zero start. -/
theorem k1_pay2_eq (v1 : Vec Ideal S4000x128 .f32) (v4 : Vec Ideal S1x128x128 .f32) (v9 : Vec Ideal S4000x128 .f32)
    (v12 : Vec Ideal S1x128x128 .f32) (v17 : Vec Ideal S4000x128 .f32) (v20 : Vec Ideal S1x128x128 .f32)
    (v25 : Vec Ideal S4000x128 .f32) (v28 : Vec Ideal S1x128x128 .f32) :
    k1_pay2 (F := Ideal) v1 v4 v9 v12 v17 v20 v25 v28
      = addf (addf (addf (addf (broadcast S4000x128 (Scalar.ofBits .f32 0x00000000#32)) (blk v1 v4)) (blk v9 v12)) (blk v17 v20))
          (blk v25 v28) := rfl

theorem k1_pay2_apply (v1 : Vec Ideal S4000x128 .f32) (v4 : Vec Ideal S1x128x128 .f32) (v9 : Vec Ideal S4000x128 .f32)
    (v12 : Vec Ideal S1x128x128 .f32) (v17 : Vec Ideal S4000x128 .f32) (v20 : Vec Ideal S1x128x128 .f32)
    (v25 : Vec Ideal S4000x128 .f32) (v28 : Vec Ideal S1x128x128 .f32) (r : Fin 4000) (d : Fin 128) :
    k1_pay2 (F := Ideal) v1 v4 v9 v12 v17 v20 v25 v28 (ix2 r d)
      = (((∑ k : Fin 128, v1 (ix2 r k) * v4 (ix3 (0 : Fin 1) k d)) + ∑ k : Fin 128, v9 (ix2 r k) * v12 (ix3 (0 : Fin 1) k d))
          + ∑ k : Fin 128, v17 (ix2 r k) * v20 (ix3 (0 : Fin 1) k d)) + ∑ k : Fin 128, v25 (ix2 r k) * v28 (ix3 (0 : Fin 1) k d) := by
  rw [k1_pay2_eq]
  show (((Ideal.ofBits .f32 0x00000000#32 + blk v1 v4 (ix2 r d)) + blk v9 v12 (ix2 r d)) + blk v17 v20 (ix2 r d))
      + blk v25 v28 (ix2 r d) = _
  rw [Ideal.ofBits_zero_f32, zero_add, blk_apply, blk_apply, blk_apply, blk_apply]

/-- The body's feature block after the bias and the maximum with zero: what the one-hot matrix multiplies. -/
def featK (v32 : FVec Ideal S4000x128 .f32) (v33 : Vec Ideal S1x128 .f32) : FVec Ideal S4000x128 .bf16 :=
  truncf .bf16 (maximumf (addf v32 (broadcastTo S4000x128 (shapeCast S1x128 v33 shapeCasts_S1x128_S1x128) broadcasts_S1x128_S4000x128))
    (broadcast S4000x128 (Scalar.ofBits .f32 0x00000000#32))) bitsLt_bf16_f32

/-- The body's one-hot matrix of the block's graph numbers: entry (r, g) is 1 where row r's graph number is g. -/
def onehotK (v40 : Vec Ideal S4000x1 .i32) : FVec Ideal S4000x128 .bf16 :=
  truncf .bf16 (sitofp .f32 (extui 32 (cmpi .eq
      (broadcastTo S4000x128 (shapeCast S4000x1 v40 shapeCasts_S4000x1_S4000x1) broadcasts_S4000x1_S4000x128)
      (broadcastTo S4000x128 (iota .tc S1x128 32 [1] iota_S1x128_d1_w32) broadcasts_S1x128_S4000x128)) natLt_1_32)) bitsLt_bf16_f32

/-- The body's stored value is the one-hot matrix, transposed, times the feature block, as a [1, 128, 128] slab. -/
theorem k1_pay1_eq (v32 : FVec Ideal S4000x128 .f32) (v33 : Vec Ideal S1x128 .f32) (v40 : Vec Ideal S4000x1 .i32) :
    k1_pay1 (F := Ideal) v32 v33 v40
      = shapeCast S1x128x128 (matmul dot_S4000x128_S4000x128_S128x128_0_0_1_1_n_n none (onehotK v40) (featK v32 v33)
          (constant S128x128 .f32 0x00000000#32)) shapeCasts_S128x128_S1x128x128 := rfl

theorem featK_apply (v32 : FVec Ideal S4000x128 .f32) (v33 : Vec Ideal S1x128 .f32) (r : Fin 4000) (d : Fin 128) :
    featK v32 v33 (ix2 r d) = max (v32 (ix2 r d) + v33 (ix2 (0 : Fin 1) d)) 0 := by
  unfold featK
  show max (v32 (ix2 r d) + broadcastTo S4000x128 (shapeCast S1x128 v33 shapeCasts_S1x128_S1x128) broadcasts_S1x128_S4000x128 (ix2 r d))
      (Ideal.ofBits .f32 0x00000000#32) = _
  rw [Ideal.ofBits_zero_f32, broadcastTo_1b_ab_apply, shapeCast_self]

theorem onehotK_apply (v40 : Vec Ideal S4000x1 .i32) (r : Fin 4000) (g : Fin 128) :
    onehotK v40 (ix2 r g) = if (v40 (ix2 r (0 : Fin 1))).toInt = (g.val : ℤ) then (1 : EReal) else 0 := by
  unfold onehotK
  show FloatOps.sitofp (F := Ideal) .f32 ((IntOp.cmpi .eq
      (broadcastTo S4000x128 (shapeCast S4000x1 v40 shapeCasts_S4000x1_S4000x1) broadcasts_S4000x1_S4000x128 (ix2 r g))
      (broadcastTo S4000x128 (iota .tc S1x128 32 [1] iota_S1x128_d1_w32) broadcasts_S1x128_S4000x128 (ix2 r g))).setWidth 32) = _
  rw [RowOps.broadcastTo_col_apply, broadcastTo_1b_ab_apply, shapeCast_self, iota_single_apply]
  exact onehot_word _ g

/-- THE SLAB AT (g, d): the feature rows of the block whose graph number is g, column d, added up. -/
theorem k1_pay1_apply (v32 : FVec Ideal S4000x128 .f32) (v33 : Vec Ideal S1x128 .f32) (v40 : Vec Ideal S4000x1 .i32) (g d : Fin 128) :
    k1_pay1 (F := Ideal) v32 v33 v40 (ix3 (0 : Fin 1) g d)
      = ∑ r : Fin 4000, if (v40 (ix2 r (0 : Fin 1))).toInt = (g.val : ℤ) then featK v32 v33 (ix2 r d) else 0 := by
  rw [k1_pay1_eq, shapeCast_ab_1ab_apply]
  refine (matmul_transposedLhs_apply (M := 128) (K := 4000) (N := 128) dot_S4000x128_S4000x128_S128x128_0_0_1_1_n_n
    rfl rfl rfl rfl rfl rfl none _ _ g d).trans ?_
  refine Finset.sum_congr rfl fun r _ => ?_
  rw [onehotK_apply]
  split
  · exact one_mul _
  · exact zero_mul _

/-! ## The reference's second layer and its sum by graph, read at an element -/

/-- One of the reference's four products at (n, d): the slice of the weight is its slab c. -/
theorem refprod_apply (h : FVec Ideal S100000x128 .f32) (W2 : FVec Ideal S4x128x128 .f32) (c : Nat) (hc : c < 4)
    (hs : S4x128x128.Slices ![c, 0, 0] S1x128x128) (hsc : S1x128x128.ShapeCasts S128x128) (n : Fin 100000) (d : Fin 128) :
    Host.dotGeneral (F := Ideal) Cert.ReferenceIdeal.dot_S100000x128_S128x128_S100000x128_1_0_0_1_n_n none h
        (shapeCast S128x128 (extractStridedSlice S1x128x128 ![c, 0, 0] W2 hs) hsc) (ix2 n d)
      = ∑ k : Fin 128, h (ix2 n k) * W2 (ix3 (⟨c, hc⟩ : Fin 4) k d) := by
  refine (DotAt.dotGeneral_plain_apply (M := 100000) (K := 128) (N := 128) none .single _ _ n d).trans ?_
  refine Finset.sum_congr rfl fun k _ => ?_
  rw [shapeCast_1ab_ab_apply]
  refine congrArg (h (ix2 n k) * ·) (extractStridedSlice_apply _ W2 hs _ _ fun a => ?_)
  match a with
  | ⟨0, _⟩ => exact (Nat.add_zero c).symm
  | ⟨1, _⟩ => exact (Nat.zero_add _).symm
  | ⟨2, _⟩ => exact (Nat.zero_add _).symm

/-- THE REFERENCE'S SECOND LAYER AT (n, d). -/
theorem lin2_apply (h0 h1 h2 h3 : FVec Ideal S100000x128 .f32) (W2 : FVec Ideal S4x128x128 .f32) (b2 : FVec Ideal S128 .f32)
    (n : Fin 100000) (d : Fin 128) :
    RSpec.lin2 (F := Ideal) h0 h1 h2 h3 W2 b2 (ix2 n d)
      = max (((((∑ k : Fin 128, h0 (ix2 n k) * W2 (ix3 (0 : Fin 4) k d)) + ∑ k : Fin 128, h1 (ix2 n k) * W2 (ix3 (1 : Fin 4) k d))
          + ∑ k : Fin 128, h2 (ix2 n k) * W2 (ix3 (2 : Fin 4) k d)) + ∑ k : Fin 128, h3 (ix2 n k) * W2 (ix3 (3 : Fin 4) k d))
          + b2 (ix1 d)) 0 := by
  unfold RSpec.lin2
  simp only [maximumf_apply, addf_apply]
  rw [refprod_apply h0 W2 0 (by decide), refprod_apply h1 W2 1 (by decide), refprod_apply h2 W2 2 (by decide),
    refprod_apply h3 W2 3 (by decide), RowOps.bcastInDim_rows_apply, RowOps.bcastInDim_row_apply, RowOps.bcastInDim_scalar_apply,
    constant_apply, Ideal.ofBits_zero_f32]
  rfl

/-- THE FEATURE BLOCK IS THE REFERENCE'S ROWS: row r of block t of the kernel's second layer is row 4000·t + r of the
    reference's (the kernel's accumulator starts from zero, and 0 + x = x). -/
theorem featK_eq_lin2 (h0 h1 h2 h3 : FVec Ideal S100000x128 .f32) (W2 : FVec Ideal S4x128x128 .f32) (b2 : FVec Ideal S128 .f32)
    (t : Fin 25) (r : Fin 4000) (d : Fin 128) :
    featK (k1_pay2 (F := Ideal) (rows h0 t) (slab W2 0) (rows h1 t) (slab W2 1) (rows h2 t) (slab W2 2) (rows h3 t) (slab W2 3))
        (KSpec.brow (F := Ideal) b2) (ix2 r d)
      = RSpec.lin2 (F := Ideal) h0 h1 h2 h3 W2 b2 (ix2 (node t r) d) := by
  rw [featK_apply, k1_pay2_apply, lin2_apply]
  have hb : KSpec.brow (F := Ideal) b2 (ix2 (0 : Fin 1) d) = b2 (ix1 d) := by
    unfold KSpec.brow; exact shapeCast_a_1a_apply b2 _ 0 d
  rw [hb]
  rfl

/-- THE REFERENCE'S SUM BY GRAPH AT (g, d): the rows whose graph number reads, signed, as g, column d, added up. -/
theorem pool_apply (H : FVec Ideal S100000x128 .f32) (batch : IVec S100000 32) (g d : Fin 128) :
    RSpec.pool (F := Ideal) H batch (ix2 g d)
      = 0 + ∑ n : Fin 100000, if (batch (ix1 n)).toInt = (g.val : ℤ) then H (ix2 n d) else 0 := by
  unfold RSpec.pool
  rw [LibScatterAddAt.host_scatterAdd_rows_apply (N := 128) (D := 128) (n := 100000) _ rfl rfl rfl rfl,
    RowOps.bcastInDim_scalar_apply, constant_apply, Ideal.ofBits_zero_f32]
  refine congrArg (0 + ·) (Finset.sum_congr rfl fun n _ => ?_)
  rw [RowOps.bcastInDim_col_apply]

/-! ## The kernel's 25 slabs added up -/

/-- The sum over the 25 blocks at (g, d). -/
theorem sumBlocks_apply (p : FVec Ideal S25x128x128 .f32) (g d : Fin 128) :
    KSpec.sumBlocks (F := Ideal) p (ix2 g d) = 0 + ∑ t : Fin 25, p (ix3 t g d) := by
  have hR : S25x128x128.Reduces [0] S128x128 := by decide
  unfold KSpec.sumBlocks Host.reduceAdd
  rw [Ideal.hostReduceAdd_def, Ideal.hostReduceAdd_single _ hR, constant_apply, Ideal.ofBits_zero_f32]
  refine congrArg (0 + ·) (Finset.sum_congr rfl fun t _ => congrArg p (funext fun a => Fin.ext ?_))
  match a with
  | ⟨0, _⟩ => rfl
  | ⟨1, _⟩ => rfl
  | ⟨2, _⟩ => rfl

/-- Slab t of the second launch's result at (g, d): the reference's rows of block t whose graph number is g. -/
theorem G1_apply (h0 h1 h2 h3 : FVec Ideal S100000x128 .f32) (W2 : FVec Ideal S4x128x128 .f32) (b2 : FVec Ideal S128 .f32)
    (batch : IVec S100000 32) (t : Fin 25) (g d : Fin 128) :
    G1 (F := Ideal) h0 h1 h2 h3 W2 (KSpec.brow (F := Ideal) b2) (KSpec.bcol (F := Ideal) batch) (ix3 t g d)
      = ∑ r : Fin 4000, if (batch (ix1 (node t r))).toInt = (g.val : ℤ)
          then RSpec.lin2 (F := Ideal) h0 h1 h2 h3 W2 b2 (ix2 (node t r) d) else 0 := by
  have e : G1 (F := Ideal) h0 h1 h2 h3 W2 (KSpec.brow (F := Ideal) b2) (KSpec.bcol (F := Ideal) batch) (ix3 t g d)
      = k1_pay1 (F := Ideal)
          (k1_pay2 (F := Ideal) (rows h0 t) (slab W2 0) (rows h1 t) (slab W2 1) (rows h2 t) (slab W2 2) (rows h3 t) (slab W2 3))
          (KSpec.brow (F := Ideal) b2) (rows (KSpec.bcol (F := Ideal) batch) t) (ix3 (0 : Fin 1) g d) := rfl
  rw [e, k1_pay1_apply]
  refine Finset.sum_congr rfl fun r _ => ?_
  have hb : rows (F := Ideal) (KSpec.bcol (F := Ideal) batch) t (ix2 r (0 : Fin 1)) = batch (ix1 (node t r)) := by
    rw [rows_apply]; unfold KSpec.bcol; exact RowOps.shapeCast_col_apply batch _ (node t r) 0
  rw [hb, featK_eq_lin2]

/-! ## The two sums are one -/

/-- A sum over the 25 blocks of 4000 rows is the sum over the 100000 rows. -/
theorem sum_blocks {A : Type*} [AddCommMonoid A] (f : Fin 100000 → A) :
    ∑ t : Fin 25, ∑ r : Fin 4000, f (node t r) = ∑ n : Fin 100000, f n :=
  sum_blocks_gen 25 4000 f node fun _ _ => rfl

/-- THE SECOND LAYER AND THE POOLING: the kernel's 25 one-hot products, added up, are the reference's rows added up by
    graph number. -/
theorem pool_eq (h0 h1 h2 h3 : KSpec.Cn Ideal Cert.KernelIdeal.S100000x128 .f32) (W2 : KSpec.Cn Ideal Cert.KernelIdeal.S4x128x128 .f32)
    (b2 : KSpec.Cn Ideal Cert.KernelIdeal.S128 .f32) (batch : KSpec.Cn Ideal Cert.KernelIdeal.S100000 .i32) :
    KSpec.sumBlocks (F := Ideal) (Cert.KernelIdeal.Frm.G1 (F := Ideal) h0 h1 h2 h3 W2 (KSpec.brow b2) (KSpec.bcol batch))
      = RSpec.pool (F := Ideal) (RSpec.lin2 (F := Ideal) h0 h1 h2 h3 W2 b2) batch := by
  funext i
  obtain ⟨g, d, rfl⟩ : ∃ g d, i = ix2 g d := ⟨i 0, i 1, eq_ix2 i⟩
  rw [sumBlocks_apply, pool_apply]
  refine congrArg (0 + ·) ?_
  refine (Finset.sum_congr rfl fun t _ => G1_apply h0 h1 h2 h3 W2 b2 batch t g d).trans ?_
  exact sum_blocks (fun n : Fin 100000 => if (batch (ix1 n)).toInt = (g.val : ℤ)
      then RSpec.lin2 (F := Ideal) h0 h1 h2 h3 W2 b2 (ix2 n d) else 0)

end Cert.Alg2

end
-- ==== Proof.Bridge.lean ====
/-
  The stretches the two programs share are the same functions: the edge list's rows, the normalisation, one hop of
  normalised neighbour sums, and the tail from the per-graph sums to the class probabilities are printed in both programs
  as the same operations over the same shapes and dimension numbers, so the kernel-side and the reference-side
  definitions agree, at any float instance.
-/
import proofs.«429956_j56246891708529_3_alg».proof.Proof.KSpec
import proofs.«429956_j56246891708529_3_alg».proof.Proof.RSpec

noncomputable section

namespace Cert.Bridge

open Idealize.ShloMosaic

variable {F : FTy → Type} [FloatOps F]

theorem row_eq (ei : KSpec.Cn F Cert.KernelIdeal.S2x1600000 .i32) : KSpec.row ei = RSpec.row (F := F) ei := rfl
theorem col_eq (ei : KSpec.Cn F Cert.KernelIdeal.S2x1600000 .i32) : KSpec.col ei = RSpec.col (F := F) ei := rfl
theorem wrapIdx_eq (v : KSpec.Cn F Cert.KernelIdeal.S1600000 .i32) : KSpec.wrapIdx v = RSpec.wrapIdx (F := F) v := rfl
theorem deg_eq (ei : KSpec.Cn F Cert.KernelIdeal.S2x1600000 .i32) : KSpec.deg ei = RSpec.deg (F := F) ei := rfl
theorem dinv_eq (ei : KSpec.Cn F Cert.KernelIdeal.S2x1600000 .i32) : KSpec.dinv ei = RSpec.dinv (F := F) ei := by
  unfold KSpec.dinv RSpec.dinv; rw [deg_eq] <;> rfl
theorem norm_eq (ei : KSpec.Cn F Cert.KernelIdeal.S2x1600000 .i32) : KSpec.norm ei = RSpec.norm (F := F) ei := by
  unfold KSpec.norm RSpec.norm; rw [dinv_eq, row_eq, col_eq, wrapIdx_eq, wrapIdx_eq] <;> rfl
theorem hop4_eq (ei : KSpec.Cn F Cert.KernelIdeal.S2x1600000 .i32) (h : KSpec.Cn F Cert.KernelIdeal.S100000x4 .f32) :
    KSpec.hop4 ei h = RSpec.hop4 (F := F) ei h := by
  unfold KSpec.hop4 RSpec.hop4; rw [norm_eq, row_eq, col_eq, wrapIdx_eq] <;> rfl
theorem hop128_eq (ei : KSpec.Cn F Cert.KernelIdeal.S2x1600000 .i32) (h : KSpec.Cn F Cert.KernelIdeal.S100000x128 .f32) :
    KSpec.hop128 ei h = RSpec.hop128 (F := F) ei h := by
  unfold KSpec.hop128 RSpec.hop128; rw [norm_eq, row_eq, col_eq, wrapIdx_eq] <;> rfl
theorem tail_eq (sums : KSpec.Cn F Cert.KernelIdeal.S128x128 .f32) (batch : KSpec.Cn F Cert.KernelIdeal.S100000 .i32)
    (wlin : KSpec.Cn F Cert.KernelIdeal.S128x2 .f32) (blin : KSpec.Cn F Cert.KernelIdeal.S2 .f32) :
    KSpec.tail sums batch wlin blin = RSpec.tail (F := F) sums batch wlin blin := rfl

end Cert.Bridge

end
-- ==== Proof.KValue.lean ====
/-
  The value of the kernel program's result at the ideal instance.

  At the return the result buffer holds the tail (mean by graph, linear layer, softmax) of the second launch's 25 partial
  sums added up. The second launch's array is the whole-array function G1 of its seven inputs; its first input is the
  first launch's array, which is G0 of the four hop features side by side; the other hop inputs are hops of that array.
  G0 of the concatenated features is the reference's first layer, and the partial sums of G1 added up are the reference's
  second layer added up by graph number; hops and tail are the same operations in both programs. So the result is the
  reference's function of the arguments.
-/
import proofs.«429956_j56246891708529_3_alg».proof.Proof.KI.Chain
import proofs.«429956_j56246891708529_3_alg».proof.Proof.KI.Arr0
import proofs.«429956_j56246891708529_3_alg».proof.Proof.KI.Arr1
import proofs.«429956_j56246891708529_3_alg».proof.Proof.Alg1
import proofs.«429956_j56246891708529_3_alg».proof.Proof.Alg2
import proofs.«429956_j56246891708529_3_alg».proof.Proof.Bridge

noncomputable section

namespace Cert.KernelIdeal.Frm

open Cert.KernelIdeal Cert.KernelIdeal.Gen
open Idealize.ShloMosaic Idealize.ShloMosaic.TcCoe Idealize.SL.Sem

/-- The kernel program's result, at the ideal instance, is the reference's function of the same arguments: the first
    launch's array is the reference's first layer of the three hops, the second launch's partial sums added up are the
    reference's second layer summed by graph, and the hops and the tail are the same operations in both programs. -/
theorem kernel_value (m : (ℓ : Loc nD τ sig) → Buf (Elt Ideal) ℓ) (c : Dev nD) :
    W7 (F := Ideal) m c (Proc.devRef .tc main_v142)
      = RSpec.result (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  have hA0 : (dat0 (F := Ideal) (V3 m) c).arrAt 3 cfg0.N
      = RSpec.lin1 (F := Ideal) (m ((c : Thread nD τ).loc main_arg0))
          (RSpec.hop4 (m ((c : Thread nD τ).loc main_arg7)) (m ((c : Thread nD τ).loc main_arg0)))
          (RSpec.hop4 (m ((c : Thread nD τ).loc main_arg7)) (RSpec.hop4 (m ((c : Thread nD τ).loc main_arg7)) (m ((c : Thread nD τ).loc main_arg0))))
          (RSpec.hop4 (m ((c : Thread nD τ).loc main_arg7)) (RSpec.hop4 (m ((c : Thread nD τ).loc main_arg7)) (RSpec.hop4 (m ((c : Thread nD τ).loc main_arg7)) (m ((c : Thread nD τ).loc main_arg0)))))
          (m ((c : Thread nD τ).loc main_arg1)) (m ((c : Thread nD τ).loc main_arg2)) := by
    rw [arr0_eq (V3 m) c, entry0_v72 m c, entry0_v73 m c, entry0_v74 m c]
    dsimp only [argX, argW1, argB1, argEI]
    rw [Cert.Alg1.layer1_eq]
    simp only [Cert.Bridge.hop4_eq]
  rw [result_v142 m c]
  dsimp only [A1]
  rw [arr1_eq (V5 m) c, entry1_v75 m c, entry1_v88 m c, entry1_v101 m c, entry1_v114 m c, entry1_arg3 m c,
    entry1_v116 m c, entry1_v115 m c]
  dsimp only [A0, argX, argW1, argB1, argW2, argB2, argWLIN, argBLIN, argEI, argBATCH]
  rw [Cert.Alg2.pool_eq, Cert.Bridge.tail_eq, hA0]
  simp only [Cert.Bridge.hop128_eq]
  rfl

end Cert.KernelIdeal.Frm

end
-- ==== Proof.RefRun.lean ====
/-
  The reference program's run, read: at any float instance, what the program's 216 host operations leave in its result
  buffer is the reference function RSpec.result of the launched arguments, and every argument array ends as launched.

  The operations are cut in seven pieces at the stage buffers (the edge list's rows and the degree normalisation; the
  edges' normalisation; each dense layer in two pieces, two hops each with the layer's first two terms, then the third
  hop with the last two terms, the bias and the maximum with zero; the sum by graph with the tail). The contents after
  the whole program are the pieces' folds in a row. For each piece, from ANY contents V: what it leaves in each stage
  buffer, as the stage's function of what V holds in the buffers the piece reads, and that a buffer outside the piece's
  write list is kept. Chaining the seven pieces from the launch contents gives the result; the argument arrays are in no
  write list.
-/
import proofs.«429956_j56246891708529_3_alg».proof.Proof.RefOps
import proofs.«429956_j56246891708529_3_alg».proof.Proof.RSpec

set_option maxRecDepth 8192

noncomputable section

namespace Cert.RefRun

open Cert.ReferenceIdeal Cert.ReferenceIdeal.Gen Cert.ReferenceIdeal.ValueP Idealize.ShloMosaic Idealize.ShloMosaic.TcCoe Idealize.SL.Sem Idealize.ShloMosaic.StableHlo
open Cert.RSpec

variable {F : FTy → Type} [FloatOps F]

/-! ## The operations cut in seven pieces -/

/-- The contents after two lines in a row: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The edge list's rows and the degree normalisation dinv. -/
abbrev piece0 : List (HloOp τ sig (Elt F)) :=
  [ unary main_arg7 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg7 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    unary main_arg7 main_v4 ((extractStridedSlice S1x1600000 ![0, 0] · slices_S2x1600000_S1x1600000_0_0) : (⟨S2x1600000, .i32⟩ : BufTy).Contents (Elt F) → (⟨S1x1600000, .i32⟩ : BufTy).Contents (Elt F)),
    reshape main_v4 main_v5 rfl shapeCasts_S1x1600000_S1600000,
    unary main_arg7 main_v6 ((extractStridedSlice S1x1600000 ![1, 0] · slices_S2x1600000_S1x1600000_1_0) : (⟨S2x1600000, .i32⟩ : BufTy).Contents (Elt F) → (⟨S1x1600000, .i32⟩ : BufTy).Contents (Elt F)),
    reshape main_v6 main_v7 rfl shapeCasts_S1x1600000_S1600000,
    nullary main_cst (constant S_ .f32 0x3F800000#32),
    unary main_cst main_v8 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1600000x1 ![0] bcast_S1600000_S1600000x1_0 : (⟨S1600000, .i32⟩ : BufTy).Contents (Elt F) → (⟨S1600000x1, .i32⟩ : BufTy).Contents (Elt F)),
    ternary main_v9 main_v10 main_v8 main_v11 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v16) (TRef.of (T := ⟨S100000, .f32⟩) main_call0_v1) (TRef.of (T := ⟨S100000, .f32⟩) main_v17) select ]

/-- The edges' normalisation. -/
abbrev piece1 : List (HloOp τ sig (Elt F)) :=
  [ nullary main_c (constantI S_ 32 0#32),
    unary main_c main_v18 (broadcastInDim S1600000 ![] bcast_S_S1600000 : (⟨S_, .i32⟩ : BufTy).Contents (Elt F) → (⟨S1600000, .i32⟩ : BufTy).Contents (Elt F)),
    binary main_v5 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v20 (broadcastInDim S1600000 ![] bcast_S_S1600000 : (⟨S_, .i32⟩ : BufTy).Contents (Elt F) → (⟨S1600000, .i32⟩ : BufTy).Contents (Elt F)),
    binary main_v5 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_v5 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_v17 main_v23 main_v24 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_5 (constantI S_ 32 0#32),
    unary main_c_5 main_v25 (broadcastInDim S1600000 ![] bcast_S_S1600000 : (⟨S_, .i32⟩ : BufTy).Contents (Elt F) → (⟨S1600000, .i32⟩ : BufTy).Contents (Elt F)),
    binary main_v7 main_v25 main_v26 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v27 (broadcastInDim S1600000 ![] bcast_S_S1600000 : (⟨S_, .i32⟩ : BufTy).Contents (Elt F) → (⟨S1600000, .i32⟩ : BufTy).Contents (Elt F)),
    binary main_v7 main_v27 main_v28 (addi : (⟨S1600000, .i32⟩ : BufTy).Contents (Elt F) → (⟨S1600000, .i32⟩ : BufTy).Contents (Elt F) → (⟨S1600000, .i32⟩ : BufTy).Contents (Elt F)),
    ternary main_v26 main_v28 main_v7 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v29 main_v30 (broadcastInDim S1600000x1 ![0] bcast_S1600000_S1600000x1_0 : (⟨S1600000, .i32⟩ : BufTy).Contents (Elt F) → (⟨S1600000x1, .i32⟩ : BufTy).Contents (Elt F)),
    binary main_v17 main_v30 main_v31 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v24 main_v31 main_v32 (mulf : (⟨S1600000, .f32⟩ : BufTy).Contents (Elt F) → (⟨S1600000, .f32⟩ : BufTy).Contents (Elt F) → (⟨S1600000, .f32⟩ : BufTy).Contents (Elt F)) ]

/-- Layer 1: the first two hops and the first two terms of the dense layer. -/
abbrev piece2 : List (HloOp τ sig (Elt F)) :=
  [ unary main_arg1 main_v33 ((extractStridedSlice S1x4x128 ![0, 0, 0] · slices_S4x4x128_S1x4x128_0_0_0) : (⟨S4x4x128, .f32⟩ : BufTy).Contents (Elt F) → (⟨S1x4x128, .f32⟩ : BufTy).Contents (Elt F)),
    reshape main_v33 main_v34 rfl shapeCasts_S1x4x128_S4x128,
    binary main_arg0 main_v34 main_v35 ((fun l r => Host.dotGeneral dot_S100000x4_S4x128_S100000x128_1_0_0_1_n_n none l r) : (⟨S100000x4, .f32⟩ : BufTy).Contents (Elt F) → (⟨S4x128, .f32⟩ : BufTy).Contents (Elt F) → (⟨S100000x128, .f32⟩ : BufTy).Contents (Elt F)),
    nullary main_c_7 (constantI S_ 32 0#32),
    unary main_c_7 main_v36 (broadcastInDim S1600000 ![] bcast_S_S1600000 : (⟨S_, .i32⟩ : BufTy).Contents (Elt F) → (⟨S1600000, .i32⟩ : BufTy).Contents (Elt F)),
    binary main_v1 main_v36 main_v37 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v38 (broadcastInDim S1600000 ![] bcast_S_S1600000 : (⟨S_, .i32⟩ : BufTy).Contents (Elt F) → (⟨S1600000, .i32⟩ : BufTy).Contents (Elt F)),
    binary main_v1 main_v38 main_v39 (addi : (⟨S1600000, .i32⟩ : BufTy).Contents (Elt F) → (⟨S1600000, .i32⟩ : BufTy).Contents (Elt F) → (⟨S1600000, .i32⟩ : BufTy).Contents (Elt F)),
    ternary main_v37 main_v39 main_v1 main_v40 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v40 main_v41 (broadcastInDim S1600000x1 ![0] bcast_S1600000_S1600000x1_0 : (⟨S1600000, .i32⟩ : BufTy).Contents (Elt F) → (⟨S1600000x1, .i32⟩ : BufTy).Contents (Elt F)),
    binary main_arg0 main_v41 main_v42 ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)),
    unary main_v32 main_v43 (broadcastInDim S1600000x1 ![0] bcast_S1600000_S1600000x1_0 : (⟨S1600000, .f32⟩ : BufTy).Contents (Elt F) → (⟨S1600000x1, .f32⟩ : BufTy).Contents (Elt F)),
    unary main_v43 main_v44 (broadcastInDim S1600000x4 ![0, 1] bcast_S1600000x1_S1600000x4_0_1 : (⟨S1600000x1, .f32⟩ : BufTy).Contents (Elt F) → (⟨S1600000x4, .f32⟩ : BufTy).Contents (Elt F)),
    binary main_v42 main_v44 main_v45 (mulf : (⟨S1600000x4, .f32⟩ : BufTy).Contents (Elt F) → (⟨S1600000x4, .f32⟩ : BufTy).Contents (Elt F) → (⟨S1600000x4, .f32⟩ : BufTy).Contents (Elt F)),
    nullary main_cst_9 (constant S_ .f32 0x00000000#32),
    unary main_cst_9 main_v46 (broadcastInDim S100000x4 ![] bcast_S_S100000x4 : (⟨S_, .f32⟩ : BufTy).Contents (Elt F) → (⟨S100000x4, .f32⟩ : BufTy).Contents (Elt F)),
    unary main_v3 main_v47 (broadcastInDim S1600000x1 ![0] bcast_S1600000_S1600000x1_0 : (⟨S1600000, .i32⟩ : BufTy).Contents (Elt F) → (⟨S1600000x1, .i32⟩ : BufTy).Contents (Elt F)),
    ternary main_v46 main_v47 main_v45 main_v48 ((fun x i u => Host.scatterAdd scatter_S100000x4_S1600000x1_S1600000x4_1_0_0_1 x i u) : (⟨S100000x4, .f32⟩ : BufTy).Contents (Elt F) → (⟨S1600000x1, .i32⟩ : BufTy).Contents (Elt F) → (⟨S1600000x4, .f32⟩ : BufTy).Contents (Elt F) → (⟨S100000x4, .f32⟩ : BufTy).Contents (Elt F)),
    unary main_arg1 main_v49 ((extractStridedSlice S1x4x128 ![1, 0, 0] · slices_S4x4x128_S1x4x128_1_0_0) : (⟨S4x4x128, .f32⟩ : BufTy).Contents (Elt F) → (⟨S1x4x128, .f32⟩ : BufTy).Contents (Elt F)),
    reshape main_v49 main_v50 rfl shapeCasts_S1x4x128_S4x128,
    binary main_v48 main_v50 main_v51 ((fun l r => Host.dotGeneral dot_S100000x4_S4x128_S100000x128_1_0_0_1_n_n none l r) : (⟨S100000x4, .f32⟩ : BufTy).Contents (Elt F) → (⟨S4x128, .f32⟩ : BufTy).Contents (Elt F) → (⟨S100000x128, .f32⟩ : BufTy).Contents (Elt F)),
    binary main_v35 main_v51 main_v52 (addf : (⟨S100000x128, .f32⟩ : BufTy).Contents (Elt F) → (⟨S100000x128, .f32⟩ : BufTy).Contents (Elt F) → (⟨S100000x128, .f32⟩ : BufTy).Contents (Elt F)),
    nullary main_c_10 (constantI S_ 32 0#32),
    unary main_c_10 main_v53 (broadcastInDim S1600000 ![] bcast_S_S1600000 : (⟨S_, .i32⟩ : BufTy).Contents (Elt F) → (⟨S1600000, .i32⟩ : BufTy).Contents (Elt F)),
    binary main_v1 main_v53 main_v54 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v55 (broadcastInDim S1600000 ![] bcast_S_S1600000 : (⟨S_, .i32⟩ : BufTy).Contents (Elt F) → (⟨S1600000, .i32⟩ : BufTy).Contents (Elt F)),
    binary main_v1 main_v55 main_v56 (addi : (⟨S1600000, .i32⟩ : BufTy).Contents (Elt F) → (⟨S1600000, .i32⟩ : BufTy).Contents (Elt F) → (⟨S1600000, .i32⟩ : BufTy).Contents (Elt F)),
    ternary main_v54 main_v56 main_v1 main_v57 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v57 main_v58 (broadcastInDim S1600000x1 ![0] bcast_S1600000_S1600000x1_0 : (⟨S1600000, .i32⟩ : BufTy).Contents (Elt F) → (⟨S1600000x1, .i32⟩ : BufTy).Contents (Elt F)),
    binary main_v48 main_v58 main_v59 ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)),
    unary main_v32 main_v60 (broadcastInDim S1600000x1 ![0] bcast_S1600000_S1600000x1_0 : (⟨S1600000, .f32⟩ : BufTy).Contents (Elt F) → (⟨S1600000x1, .f32⟩ : BufTy).Contents (Elt F)),
    unary main_v60 main_v61 (broadcastInDim S1600000x4 ![0, 1] bcast_S1600000x1_S1600000x4_0_1 : (⟨S1600000x1, .f32⟩ : BufTy).Contents (Elt F) → (⟨S1600000x4, .f32⟩ : BufTy).Contents (Elt F)),
    binary main_v59 main_v61 main_v62 (mulf : (⟨S1600000x4, .f32⟩ : BufTy).Contents (Elt F) → (⟨S1600000x4, .f32⟩ : BufTy).Contents (Elt F) → (⟨S1600000x4, .f32⟩ : BufTy).Contents (Elt F)),
    nullary main_cst_12 (constant S_ .f32 0x00000000#32),
    unary main_cst_12 main_v63 (broadcastInDim S100000x4 ![] bcast_S_S100000x4 : (⟨S_, .f32⟩ : BufTy).Contents (Elt F) → (⟨S100000x4, .f32⟩ : BufTy).Contents (Elt F)),
    unary main_v3 main_v64 (broadcastInDim S1600000x1 ![0] bcast_S1600000_S1600000x1_0 : (⟨S1600000, .i32⟩ : BufTy).Contents (Elt F) → (⟨S1600000x1, .i32⟩ : BufTy).Contents (Elt F)),
    ternary main_v63 main_v64 main_v62 main_v65 ((fun x i u => Host.scatterAdd scatter_S100000x4_S1600000x1_S1600000x4_1_0_0_1 x i u) : (⟨S100000x4, .f32⟩ : BufTy).Contents (Elt F) → (⟨S1600000x1, .i32⟩ : BufTy).Contents (Elt F) → (⟨S1600000x4, .f32⟩ : BufTy).Contents (Elt F) → (⟨S100000x4, .f32⟩ : BufTy).Contents (Elt F)) ]

/-- Layer 1: the third hop, the last two terms, the bias and the maximum with zero. -/
abbrev piece3 : List (HloOp τ sig (Elt F)) :=
  [ unary main_arg1 main_v66 ((extractStridedSlice S1x4x128 ![2, 0, 0] · slices_S4x4x128_S1x4x128_2_0_0) : (⟨S4x4x128, .f32⟩ : BufTy).Contents (Elt F) → (⟨S1x4x128, .f32⟩ : BufTy).Contents (Elt F)),
    reshape main_v66 main_v67 rfl shapeCasts_S1x4x128_S4x128,
    binary main_v65 main_v67 main_v68 ((fun l r => Host.dotGeneral dot_S100000x4_S4x128_S100000x128_1_0_0_1_n_n none l r) : (⟨S100000x4, .f32⟩ : BufTy).Contents (Elt F) → (⟨S4x128, .f32⟩ : BufTy).Contents (Elt F) → (⟨S100000x128, .f32⟩ : BufTy).Contents (Elt F)),
    binary main_v52 main_v68 main_v69 (addf : (⟨S100000x128, .f32⟩ : BufTy).Contents (Elt F) → (⟨S100000x128, .f32⟩ : BufTy).Contents (Elt F) → (⟨S100000x128, .f32⟩ : BufTy).Contents (Elt F)),
    nullary main_c_13 (constantI S_ 32 0#32),
    unary main_c_13 main_v70 (broadcastInDim S1600000 ![] bcast_S_S1600000 : (⟨S_, .i32⟩ : BufTy).Contents (Elt F) → (⟨S1600000, .i32⟩ : BufTy).Contents (Elt F)),
    binary main_v1 main_v70 main_v71 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v72 (broadcastInDim S1600000 ![] bcast_S_S1600000 : (⟨S_, .i32⟩ : BufTy).Contents (Elt F) → (⟨S1600000, .i32⟩ : BufTy).Contents (Elt F)),
    binary main_v1 main_v72 main_v73 (addi : (⟨S1600000, .i32⟩ : BufTy).Contents (Elt F) → (⟨S1600000, .i32⟩ : BufTy).Contents (Elt F) → (⟨S1600000, .i32⟩ : BufTy).Contents (Elt F)),
    ternary main_v71 main_v73 main_v1 main_v74 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v74 main_v75 (broadcastInDim S1600000x1 ![0] bcast_S1600000_S1600000x1_0 : (⟨S1600000, .i32⟩ : BufTy).Contents (Elt F) → (⟨S1600000x1, .i32⟩ : BufTy).Contents (Elt F)),
    binary main_v65 main_v75 main_v76 ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)),
    unary main_v32 main_v77 (broadcastInDim S1600000x1 ![0] bcast_S1600000_S1600000x1_0 : (⟨S1600000, .f32⟩ : BufTy).Contents (Elt F) → (⟨S1600000x1, .f32⟩ : BufTy).Contents (Elt F)),
    unary main_v77 main_v78 (broadcastInDim S1600000x4 ![0, 1] bcast_S1600000x1_S1600000x4_0_1 : (⟨S1600000x1, .f32⟩ : BufTy).Contents (Elt F) → (⟨S1600000x4, .f32⟩ : BufTy).Contents (Elt F)),
    binary main_v76 main_v78 main_v79 (mulf : (⟨S1600000x4, .f32⟩ : BufTy).Contents (Elt F) → (⟨S1600000x4, .f32⟩ : BufTy).Contents (Elt F) → (⟨S1600000x4, .f32⟩ : BufTy).Contents (Elt F)),
    nullary main_cst_15 (constant S_ .f32 0x00000000#32),
    unary main_cst_15 main_v80 (broadcastInDim S100000x4 ![] bcast_S_S100000x4 : (⟨S_, .f32⟩ : BufTy).Contents (Elt F) → (⟨S100000x4, .f32⟩ : BufTy).Contents (Elt F)),
    unary main_v3 main_v81 (broadcastInDim S1600000x1 ![0] bcast_S1600000_S1600000x1_0 : (⟨S1600000, .i32⟩ : BufTy).Contents (Elt F) → (⟨S1600000x1, .i32⟩ : BufTy).Contents (Elt F)),
    ternary main_v80 main_v81 main_v79 main_v82 ((fun x i u => Host.scatterAdd scatter_S100000x4_S1600000x1_S1600000x4_1_0_0_1 x i u) : (⟨S100000x4, .f32⟩ : BufTy).Contents (Elt F) → (⟨S1600000x1, .i32⟩ : BufTy).Contents (Elt F) → (⟨S1600000x4, .f32⟩ : BufTy).Contents (Elt F) → (⟨S100000x4, .f32⟩ : BufTy).Contents (Elt F)),
    unary main_arg1 main_v83 ((extractStridedSlice S1x4x128 ![3, 0, 0] · slices_S4x4x128_S1x4x128_3_0_0) : (⟨S4x4x128, .f32⟩ : BufTy).Contents (Elt F) → (⟨S1x4x128, .f32⟩ : BufTy).Contents (Elt F)),
    reshape main_v83 main_v84 rfl shapeCasts_S1x4x128_S4x128,
    binary main_v82 main_v84 main_v85 ((fun l r => Host.dotGeneral dot_S100000x4_S4x128_S100000x128_1_0_0_1_n_n none l r) : (⟨S100000x4, .f32⟩ : BufTy).Contents (Elt F) → (⟨S4x128, .f32⟩ : BufTy).Contents (Elt F) → (⟨S100000x128, .f32⟩ : BufTy).Contents (Elt F)),
    binary main_v69 main_v85 main_v86 (addf : (⟨S100000x128, .f32⟩ : BufTy).Contents (Elt F) → (⟨S100000x128, .f32⟩ : BufTy).Contents (Elt F) → (⟨S100000x128, .f32⟩ : BufTy).Contents (Elt F)),
    unary main_arg2 main_v87 (broadcastInDim S1x128 ![1] bcast_S128_S1x128_1 : (⟨S128, .f32⟩ : BufTy).Contents (Elt F) → (⟨S1x128, .f32⟩ : BufTy).Contents (Elt F)),
    unary main_v87 main_v88 (broadcastInDim S100000x128 ![0, 1] bcast_S1x128_S100000x128_0_1 : (⟨S1x128, .f32⟩ : BufTy).Contents (Elt F) → (⟨S100000x128, .f32⟩ : BufTy).Contents (Elt F)),
    binary main_v86 main_v88 main_v89 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v89) (TRef.of (T := ⟨S100000x128, .f32⟩) main_call1_v0) (TRef.of (T := ⟨S100000x128, .f32⟩) main_v90) maximumf ]

/-- Layer 2: the first two hops and the first two terms. -/
abbrev piece4 : List (HloOp τ sig (Elt F)) :=
  [ unary main_arg3 main_v91 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v91 main_v92 rfl shapeCasts_S1x128x128_S128x128,
    binary main_v90 main_v92 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_16 (constantI S_ 32 0#32),
    unary main_c_16 main_v94 (broadcastInDim S1600000 ![] bcast_S_S1600000 : (⟨S_, .i32⟩ : BufTy).Contents (Elt F) → (⟨S1600000, .i32⟩ : BufTy).Contents (Elt F)),
    binary main_v1 main_v94 main_v95 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v96 (broadcastInDim S1600000 ![] bcast_S_S1600000 : (⟨S_, .i32⟩ : BufTy).Contents (Elt F) → (⟨S1600000, .i32⟩ : BufTy).Contents (Elt F)),
    binary main_v1 main_v96 main_v97 (addi : (⟨S1600000, .i32⟩ : BufTy).Contents (Elt F) → (⟨S1600000, .i32⟩ : BufTy).Contents (Elt F) → (⟨S1600000, .i32⟩ : BufTy).Contents (Elt F)),
    ternary main_v95 main_v97 main_v1 main_v98 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v98 main_v99 (broadcastInDim S1600000x1 ![0] bcast_S1600000_S1600000x1_0 : (⟨S1600000, .i32⟩ : BufTy).Contents (Elt F) → (⟨S1600000x1, .i32⟩ : BufTy).Contents (Elt F)),
    binary main_v90 main_v99 main_v100 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v32 main_v101 (broadcastInDim S1600000x1 ![0] bcast_S1600000_S1600000x1_0 : (⟨S1600000, .f32⟩ : BufTy).Contents (Elt F) → (⟨S1600000x1, .f32⟩ : BufTy).Contents (Elt F)),
    unary main_v101 main_v102 (broadcastInDim S1600000x128 ![0, 1] bcast_S1600000x1_S1600000x128_0_1 : (⟨S1600000x1, .f32⟩ : BufTy).Contents (Elt F) → (⟨S1600000x128, .f32⟩ : BufTy).Contents (Elt F)),
    binary main_v100 main_v102 main_v103 (mulf : (⟨S1600000x128, .f32⟩ : BufTy).Contents (Elt F) → (⟨S1600000x128, .f32⟩ : BufTy).Contents (Elt F) → (⟨S1600000x128, .f32⟩ : BufTy).Contents (Elt F)),
    nullary main_cst_18 (constant S_ .f32 0x00000000#32),
    unary main_cst_18 main_v104 (broadcastInDim S100000x128 ![] bcast_S_S100000x128 : (⟨S_, .f32⟩ : BufTy).Contents (Elt F) → (⟨S100000x128, .f32⟩ : BufTy).Contents (Elt F)),
    unary main_v3 main_v105 (broadcastInDim S1600000x1 ![0] bcast_S1600000_S1600000x1_0 : (⟨S1600000, .i32⟩ : BufTy).Contents (Elt F) → (⟨S1600000x1, .i32⟩ : BufTy).Contents (Elt F)),
    ternary main_v104 main_v105 main_v103 main_v106 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg3 main_v107 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v107 main_v108 rfl shapeCasts_S1x128x128_S128x128,
    binary main_v106 main_v108 main_v109 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v93 main_v109 main_v110 (addf : (⟨S100000x128, .f32⟩ : BufTy).Contents (Elt F) → (⟨S100000x128, .f32⟩ : BufTy).Contents (Elt F) → (⟨S100000x128, .f32⟩ : BufTy).Contents (Elt F)),
    nullary main_c_19 (constantI S_ 32 0#32),
    unary main_c_19 main_v111 (broadcastInDim S1600000 ![] bcast_S_S1600000 : (⟨S_, .i32⟩ : BufTy).Contents (Elt F) → (⟨S1600000, .i32⟩ : BufTy).Contents (Elt F)),
    binary main_v1 main_v111 main_v112 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v113 (broadcastInDim S1600000 ![] bcast_S_S1600000 : (⟨S_, .i32⟩ : BufTy).Contents (Elt F) → (⟨S1600000, .i32⟩ : BufTy).Contents (Elt F)),
    binary main_v1 main_v113 main_v114 (addi : (⟨S1600000, .i32⟩ : BufTy).Contents (Elt F) → (⟨S1600000, .i32⟩ : BufTy).Contents (Elt F) → (⟨S1600000, .i32⟩ : BufTy).Contents (Elt F)),
    ternary main_v112 main_v114 main_v1 main_v115 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v115 main_v116 (broadcastInDim S1600000x1 ![0] bcast_S1600000_S1600000x1_0 : (⟨S1600000, .i32⟩ : BufTy).Contents (Elt F) → (⟨S1600000x1, .i32⟩ : BufTy).Contents (Elt F)),
    binary main_v106 main_v116 main_v117 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v32 main_v118 (broadcastInDim S1600000x1 ![0] bcast_S1600000_S1600000x1_0 : (⟨S1600000, .f32⟩ : BufTy).Contents (Elt F) → (⟨S1600000x1, .f32⟩ : BufTy).Contents (Elt F)),
    unary main_v118 main_v119 (broadcastInDim S1600000x128 ![0, 1] bcast_S1600000x1_S1600000x128_0_1 : (⟨S1600000x1, .f32⟩ : BufTy).Contents (Elt F) → (⟨S1600000x128, .f32⟩ : BufTy).Contents (Elt F)),
    binary main_v117 main_v119 main_v120 (mulf : (⟨S1600000x128, .f32⟩ : BufTy).Contents (Elt F) → (⟨S1600000x128, .f32⟩ : BufTy).Contents (Elt F) → (⟨S1600000x128, .f32⟩ : BufTy).Contents (Elt F)),
    nullary main_cst_21 (constant S_ .f32 0x00000000#32),
    unary main_cst_21 main_v121 (broadcastInDim S100000x128 ![] bcast_S_S100000x128 : (⟨S_, .f32⟩ : BufTy).Contents (Elt F) → (⟨S100000x128, .f32⟩ : BufTy).Contents (Elt F)),
    unary main_v3 main_v122 (broadcastInDim S1600000x1 ![0] bcast_S1600000_S1600000x1_0 : (⟨S1600000, .i32⟩ : BufTy).Contents (Elt F) → (⟨S1600000x1, .i32⟩ : BufTy).Contents (Elt F)),
    ternary main_v121 main_v122 main_v120 main_v123 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Layer 2: the third hop, the last two terms, the bias and the maximum with zero. -/
abbrev piece5 : List (HloOp τ sig (Elt F)) :=
  [ unary main_arg3 main_v124 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v124 main_v125 rfl shapeCasts_S1x128x128_S128x128,
    binary main_v123 main_v125 main_v126 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v110 main_v126 main_v127 (addf : (⟨S100000x128, .f32⟩ : BufTy).Contents (Elt F) → (⟨S100000x128, .f32⟩ : BufTy).Contents (Elt F) → (⟨S100000x128, .f32⟩ : BufTy).Contents (Elt F)),
    nullary main_c_22 (constantI S_ 32 0#32),
    unary main_c_22 main_v128 (broadcastInDim S1600000 ![] bcast_S_S1600000 : (⟨S_, .i32⟩ : BufTy).Contents (Elt F) → (⟨S1600000, .i32⟩ : BufTy).Contents (Elt F)),
    binary main_v1 main_v128 main_v129 (cmpi .slt : (⟨S1600000, .i32⟩ : BufTy).Contents (Elt F) → (⟨S1600000, .i32⟩ : BufTy).Contents (Elt F) → (⟨S1600000, .i1⟩ : BufTy).Contents (Elt F)),
    nullary main_c_23 (constantI S_ 32 100000#32),
    unary main_c_23 main_v130 (broadcastInDim S1600000 ![] bcast_S_S1600000 : (⟨S_, .i32⟩ : BufTy).Contents (Elt F) → (⟨S1600000, .i32⟩ : BufTy).Contents (Elt F)),
    binary main_v1 main_v130 main_v131 (addi : (⟨S1600000, .i32⟩ : BufTy).Contents (Elt F) → (⟨S1600000, .i32⟩ : BufTy).Contents (Elt F) → (⟨S1600000, .i32⟩ : BufTy).Contents (Elt F)),
    ternary main_v129 main_v131 main_v1 main_v132 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v132 main_v133 (broadcastInDim S1600000x1 ![0] bcast_S1600000_S1600000x1_0 : (⟨S1600000, .i32⟩ : BufTy).Contents (Elt F) → (⟨S1600000x1, .i32⟩ : BufTy).Contents (Elt F)),
    binary main_v123 main_v133 main_v134 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v32 main_v135 (broadcastInDim S1600000x1 ![0] bcast_S1600000_S1600000x1_0 : (⟨S1600000, .f32⟩ : BufTy).Contents (Elt F) → (⟨S1600000x1, .f32⟩ : BufTy).Contents (Elt F)),
    unary main_v135 main_v136 (broadcastInDim S1600000x128 ![0, 1] bcast_S1600000x1_S1600000x128_0_1 : (⟨S1600000x1, .f32⟩ : BufTy).Contents (Elt F) → (⟨S1600000x128, .f32⟩ : BufTy).Contents (Elt F)),
    binary main_v134 main_v136 main_v137 (mulf : (⟨S1600000x128, .f32⟩ : BufTy).Contents (Elt F) → (⟨S1600000x128, .f32⟩ : BufTy).Contents (Elt F) → (⟨S1600000x128, .f32⟩ : BufTy).Contents (Elt F)),
    nullary main_cst_24 (constant S_ .f32 0x00000000#32),
    unary main_cst_24 main_v138 (broadcastInDim S100000x128 ![] bcast_S_S100000x128 : (⟨S_, .f32⟩ : BufTy).Contents (Elt F) → (⟨S100000x128, .f32⟩ : BufTy).Contents (Elt F)),
    unary main_v3 main_v139 (broadcastInDim S1600000x1 ![0] bcast_S1600000_S1600000x1_0 : (⟨S1600000, .i32⟩ : BufTy).Contents (Elt F) → (⟨S1600000x1, .i32⟩ : BufTy).Contents (Elt F)),
    ternary main_v138 main_v139 main_v137 main_v140 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg3 main_v141 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v141 main_v142 rfl shapeCasts_S1x128x128_S128x128,
    binary main_v140 main_v142 main_v143 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v127 main_v143 main_v144 (addf : (⟨S100000x128, .f32⟩ : BufTy).Contents (Elt F) → (⟨S100000x128, .f32⟩ : BufTy).Contents (Elt F) → (⟨S100000x128, .f32⟩ : BufTy).Contents (Elt F)),
    unary main_arg4 main_v145 (broadcastInDim S1x128 ![1] bcast_S128_S1x128_1 : (⟨S128, .f32⟩ : BufTy).Contents (Elt F) → (⟨S1x128, .f32⟩ : BufTy).Contents (Elt F)),
    unary main_v145 main_v146 (broadcastInDim S100000x128 ![0, 1] bcast_S1x128_S100000x128_0_1 : (⟨S1x128, .f32⟩ : BufTy).Contents (Elt F) → (⟨S100000x128, .f32⟩ : BufTy).Contents (Elt F)),
    binary main_v144 main_v146 main_v147 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v147) (TRef.of (T := ⟨S100000x128, .f32⟩) main_call2_v0) (TRef.of (T := ⟨S100000x128, .f32⟩) main_v148) maximumf ]

/-- The sum by graph and the tail. -/
abbrev piece6 : List (HloOp τ sig (Elt F)) :=
  [ nullary main_cst_25 (constant S_ .f32 0x00000000#32),
    unary main_cst_25 main_v149 (broadcastInDim S128x128 ![] bcast_S_S128x128 : (⟨S_, .f32⟩ : BufTy).Contents (Elt F) → (⟨S128x128, .f32⟩ : BufTy).Contents (Elt F)),
    unary main_arg8 main_v150 (broadcastInDim S100000x1 ![0] bcast_S100000_S100000x1_0 : (⟨S100000, .i32⟩ : BufTy).Contents (Elt F) → (⟨S100000x1, .i32⟩ : BufTy).Contents (Elt F)),
    ternary main_v149 main_v150 main_v148 main_v151 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    nullary main_cst_26 (constant S_ .f32 0x3F800000#32),
    unary main_cst_26 main_v152 (broadcastInDim S100000 ![] bcast_S_S100000 : (⟨S_, .f32⟩ : BufTy).Contents (Elt F) → (⟨S100000, .f32⟩ : BufTy).Contents (Elt F)),
    nullary main_cst_27 (constant S_ .f32 0x00000000#32),
    unary main_cst_27 main_v153 (broadcastInDim S128 ![] bcast_S_S128 : (⟨S_, .f32⟩ : BufTy).Contents (Elt F) → (⟨S128, .f32⟩ : BufTy).Contents (Elt F)),
    unary main_arg8 main_v154 (broadcastInDim S100000x1 ![0] bcast_S100000_S100000x1_0 : (⟨S100000, .i32⟩ : BufTy).Contents (Elt F) → (⟨S100000x1, .i32⟩ : BufTy).Contents (Elt F)),
    ternary main_v153 main_v154 main_v152 main_v155 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    nullary main_cst_28 (constant S_ .f32 0x3F800000#32),
    unary main_cst_28 main_v156 (broadcastInDim S128 ![] bcast_S_S128 : (⟨S_, .f32⟩ : BufTy).Contents (Elt F) → (⟨S128, .f32⟩ : BufTy).Contents (Elt F)),
    binary main_v155 main_v156 main_v157 (maximumf : (⟨S128, .f32⟩ : BufTy).Contents (Elt F) → (⟨S128, .f32⟩ : BufTy).Contents (Elt F) → (⟨S128, .f32⟩ : BufTy).Contents (Elt F)),
    unary main_v157 main_v158 (broadcastInDim S128x1 ![0] bcast_S128_S128x1_0 : (⟨S128, .f32⟩ : BufTy).Contents (Elt F) → (⟨S128x1, .f32⟩ : BufTy).Contents (Elt F)),
    unary main_v158 main_v159 (broadcastInDim S128x128 ![0, 1] bcast_S128x1_S128x128_0_1 : (⟨S128x1, .f32⟩ : BufTy).Contents (Elt F) → (⟨S128x128, .f32⟩ : BufTy).Contents (Elt F)),
    binary main_v151 main_v159 main_v160 (Host.divf : (⟨S128x128, .f32⟩ : BufTy).Contents (Elt F) → (⟨S128x128, .f32⟩ : BufTy).Contents (Elt F) → (⟨S128x128, .f32⟩ : BufTy).Contents (Elt F)),
    binary main_v160 main_arg5 main_v161 ((fun l r => Host.dotGeneral dot_S128x128_S128x2_S128x2_1_0_0_1_n_n none l r) : (⟨S128x128, .f32⟩ : BufTy).Contents (Elt F) → (⟨S128x2, .f32⟩ : BufTy).Contents (Elt F) → (⟨S128x2, .f32⟩ : BufTy).Contents (Elt F)),
    unary main_arg6 main_v162 (broadcastInDim S1x2 ![1] bcast_S2_S1x2_1 : (⟨S2, .f32⟩ : BufTy).Contents (Elt F) → (⟨S1x2, .f32⟩ : BufTy).Contents (Elt F)),
    unary main_v162 main_v163 (broadcastInDim S128x2 ![0, 1] bcast_S1x2_S128x2_0_1 : (⟨S1x2, .f32⟩ : BufTy).Contents (Elt F) → (⟨S128x2, .f32⟩ : BufTy).Contents (Elt F)),
    binary main_v161 main_v163 main_v164 (addf : (⟨S128x2, .f32⟩ : BufTy).Contents (Elt F) → (⟨S128x2, .f32⟩ : BufTy).Contents (Elt F) → (⟨S128x2, .f32⟩ : BufTy).Contents (Elt F)),
    nullary main_cst_29 (constant S_ .f32 0xFF800000#32),
    binary main_v164 main_cst_29 main_v165 ((fun x v => Host.reduce FloatOps.maximumf x v reducesTo_S128x2_S128_d1 h_S_) : (⟨S128x2, .f32⟩ : BufTy).Contents (Elt F) → (⟨S_, .f32⟩ : BufTy).Contents (Elt F) → (⟨S128, .f32⟩ : BufTy).Contents (Elt F)),
    nullary main_cst_30 (constant S_ .f32 0xFF800000#32),
    unary main_cst_30 main_v166 (broadcastInDim S128 ![] bcast_S_S128 : (⟨S_, .f32⟩ : BufTy).Contents (Elt F) → (⟨S128, .f32⟩ : BufTy).Contents (Elt F)),
    binary main_v166 main_v165 main_v167 (maximumf : (⟨S128, .f32⟩ : BufTy).Contents (Elt F) → (⟨S128, .f32⟩ : BufTy).Contents (Elt F) → (⟨S128, .f32⟩ : BufTy).Contents (Elt F)),
    unary main_v167 main_v168 (broadcastInDim S128x1 ![0] bcast_S128_S128x1_0 : (⟨S128, .f32⟩ : BufTy).Contents (Elt F) → (⟨S128x1, .f32⟩ : BufTy).Contents (Elt F)),
    unary main_v168 main_v169 (broadcastInDim S128x2 ![0, 1] bcast_S128x1_S128x2_0_1 : (⟨S128x1, .f32⟩ : BufTy).Contents (Elt F) → (⟨S128x2, .f32⟩ : BufTy).Contents (Elt F)),
    binary main_v164 main_v169 main_v170 (subf : (⟨S128x2, .f32⟩ : BufTy).Contents (Elt F) → (⟨S128x2, .f32⟩ : BufTy).Contents (Elt F) → (⟨S128x2, .f32⟩ : BufTy).Contents (Elt F)),
    unary main_v170 main_v171 (Host.exp : (⟨S128x2, .f32⟩ : BufTy).Contents (Elt F) → (⟨S128x2, .f32⟩ : BufTy).Contents (Elt F)),
    nullary main_cst_31 (constant S_ .f32 0x00000000#32),
    binary main_v171 main_cst_31 main_v172 ((fun x v => Host.reduceAdd x v reducesTo_S128x2_S128_d1 h_S_) : (⟨S128x2, .f32⟩ : BufTy).Contents (Elt F) → (⟨S_, .f32⟩ : BufTy).Contents (Elt F) → (⟨S128, .f32⟩ : BufTy).Contents (Elt F)),
    unary main_v172 main_v173 (broadcastInDim S128x1 ![0] bcast_S128_S128x1_0 : (⟨S128, .f32⟩ : BufTy).Contents (Elt F) → (⟨S128x1, .f32⟩ : BufTy).Contents (Elt F)),
    unary main_v173 main_v174 (broadcastInDim S128x2 ![0, 1] bcast_S128x1_S128x2_0_1 : (⟨S128x1, .f32⟩ : BufTy).Contents (Elt F) → (⟨S128x2, .f32⟩ : BufTy).Contents (Elt F)),
    binary main_v171 main_v174 main_v175 (Host.divf : (⟨S128x2, .f32⟩ : BufTy).Contents (Elt F) → (⟨S128x2, .f32⟩ : BufTy).Contents (Elt F) → (⟨S128x2, .f32⟩ : BufTy).Contents (Elt F)) ]

/-- The program's operations are the seven pieces in a row. -/
theorem ops_eq : (ops : List (HloOp τ sig (Elt F))) = piece0 ++ piece1 ++ piece2 ++ piece3 ++ piece4 ++ piece5 ++ piece6 := rfl

/-- The contents after the whole program: piece after piece. -/
theorem after_ops (V : Valuation τ sig (Elt F)) :
    after ops V = after piece6 (after piece5 (after piece4 (after piece3 (after piece2 (after piece1 (after piece0 V)))))) := by
  rw [ops_eq]; simp only [after_append]

/-! ## What each piece writes, and that it keeps every other buffer -/

abbrev wr0 : List (Ref sig .tc) := [main_v0, main_v1, main_v2, main_v3, main_v4, main_v5, main_v6, main_v7, main_cst, main_v8, main_cst_0, main_v9, main_v10, main_v11, main_cst_1, main_v12, main_v13, main_cst_2, main_v14, main_v15, main_v16, main_cst_3, main_call0_v0, main_call0_v1, main_v17]
abbrev wr1 : List (Ref sig .tc) := [main_c, main_v18, main_v19, main_c_4, main_v20, main_v21, main_v22, main_v23, main_v24, main_c_5, main_v25, main_v26, main_c_6, main_v27, main_v28, main_v29, main_v30, main_v31, main_v32]
abbrev wr2 : List (Ref sig .tc) := [main_v33, main_v34, main_v35, main_c_7, main_v36, main_v37, main_c_8, main_v38, main_v39, main_v40, main_v41, main_v42, main_v43, main_v44, main_v45, main_cst_9, main_v46, main_v47, main_v48, main_v49, main_v50, main_v51, main_v52, main_c_10, main_v53, main_v54, main_c_11, main_v55, main_v56, main_v57, main_v58, main_v59, main_v60, main_v61, main_v62, main_cst_12, main_v63, main_v64, main_v65]
abbrev wr3 : List (Ref sig .tc) := [main_v66, main_v67, main_v68, main_v69, main_c_13, main_v70, main_v71, main_c_14, main_v72, main_v73, main_v74, main_v75, main_v76, main_v77, main_v78, main_v79, main_cst_15, main_v80, main_v81, main_v82, main_v83, main_v84, main_v85, main_v86, main_v87, main_v88, main_v89, main_call1_cst, main_call1_v0, main_v90]
abbrev wr4 : List (Ref sig .tc) := [main_v91, main_v92, main_v93, main_c_16, main_v94, main_v95, main_c_17, main_v96, main_v97, main_v98, main_v99, main_v100, main_v101, main_v102, main_v103, main_cst_18, main_v104, main_v105, main_v106, main_v107, main_v108, main_v109, main_v110, main_c_19, main_v111, main_v112, main_c_20, main_v113, main_v114, main_v115, main_v116, main_v117, main_v118, main_v119, main_v120, main_cst_21, main_v121, main_v122, main_v123]
abbrev wr5 : List (Ref sig .tc) := [main_v124, main_v125, main_v126, main_v127, main_c_22, main_v128, main_v129, main_c_23, main_v130, main_v131, main_v132, main_v133, main_v134, main_v135, main_v136, main_v137, main_cst_24, main_v138, main_v139, main_v140, main_v141, main_v142, main_v143, main_v144, main_v145, main_v146, main_v147, main_call2_cst, main_call2_v0, main_v148]
abbrev wr6 : List (Ref sig .tc) := [main_cst_25, main_v149, main_v150, main_v151, main_cst_26, main_v152, main_cst_27, main_v153, main_v154, main_v155, main_cst_28, main_v156, main_v157, main_v158, main_v159, main_v160, main_v161, main_v162, main_v163, main_v164, main_cst_29, main_v165, main_cst_30, main_v166, main_v167, main_v168, main_v169, main_v170, main_v171, main_cst_31, main_v172, main_v173, main_v174, main_v175]

theorem piece0_writes : (piece0 : List (HloOp τ sig (Elt F))).Forall fun op => op.writes ⊆ (wr0.map (Proc.devRef (τ := τ) .tc)).toFinset := by
  simp only [List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer the piece does not write keeps its contents. -/
theorem piece0_keep (V : Valuation τ sig (Elt F)) {r : Ref sig .tc} (hr : r ∉ wr0) : after piece0 V (Proc.devRef .tc r) = V (Proc.devRef .tc r) :=
  after_of_writes_sub piece0 V piece0_writes hr
theorem piece1_writes : (piece1 : List (HloOp τ sig (Elt F))).Forall fun op => op.writes ⊆ (wr1.map (Proc.devRef (τ := τ) .tc)).toFinset := by
  simp only [List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer the piece does not write keeps its contents. -/
theorem piece1_keep (V : Valuation τ sig (Elt F)) {r : Ref sig .tc} (hr : r ∉ wr1) : after piece1 V (Proc.devRef .tc r) = V (Proc.devRef .tc r) :=
  after_of_writes_sub piece1 V piece1_writes hr
theorem piece2_writes : (piece2 : List (HloOp τ sig (Elt F))).Forall fun op => op.writes ⊆ (wr2.map (Proc.devRef (τ := τ) .tc)).toFinset := by
  simp only [List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer the piece does not write keeps its contents. -/
theorem piece2_keep (V : Valuation τ sig (Elt F)) {r : Ref sig .tc} (hr : r ∉ wr2) : after piece2 V (Proc.devRef .tc r) = V (Proc.devRef .tc r) :=
  after_of_writes_sub piece2 V piece2_writes hr
theorem piece3_writes : (piece3 : List (HloOp τ sig (Elt F))).Forall fun op => op.writes ⊆ (wr3.map (Proc.devRef (τ := τ) .tc)).toFinset := by
  simp only [List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer the piece does not write keeps its contents. -/
theorem piece3_keep (V : Valuation τ sig (Elt F)) {r : Ref sig .tc} (hr : r ∉ wr3) : after piece3 V (Proc.devRef .tc r) = V (Proc.devRef .tc r) :=
  after_of_writes_sub piece3 V piece3_writes hr
theorem piece4_writes : (piece4 : List (HloOp τ sig (Elt F))).Forall fun op => op.writes ⊆ (wr4.map (Proc.devRef (τ := τ) .tc)).toFinset := by
  simp only [List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer the piece does not write keeps its contents. -/
theorem piece4_keep (V : Valuation τ sig (Elt F)) {r : Ref sig .tc} (hr : r ∉ wr4) : after piece4 V (Proc.devRef .tc r) = V (Proc.devRef .tc r) :=
  after_of_writes_sub piece4 V piece4_writes hr
theorem piece5_writes : (piece5 : List (HloOp τ sig (Elt F))).Forall fun op => op.writes ⊆ (wr5.map (Proc.devRef (τ := τ) .tc)).toFinset := by
  simp only [List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer the piece does not write keeps its contents. -/
theorem piece5_keep (V : Valuation τ sig (Elt F)) {r : Ref sig .tc} (hr : r ∉ wr5) : after piece5 V (Proc.devRef .tc r) = V (Proc.devRef .tc r) :=
  after_of_writes_sub piece5 V piece5_writes hr
theorem piece6_writes : (piece6 : List (HloOp τ sig (Elt F))).Forall fun op => op.writes ⊆ (wr6.map (Proc.devRef (τ := τ) .tc)).toFinset := by
  simp only [List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer the piece does not write keeps its contents. -/
theorem piece6_keep (V : Valuation τ sig (Elt F)) {r : Ref sig .tc} (hr : r ∉ wr6) : after piece6 V (Proc.devRef .tc r) = V (Proc.devRef .tc r) :=
  after_of_writes_sub piece6 V piece6_writes hr

/-! ## What each piece leaves in its stage buffers -/

/-- The first two terms of the first dense layer. -/
def lin1ab (x a : Cn F S100000x4 .f32) (W1 : Cn F S4x4x128 .f32) : Cn F S100000x128 .f32 :=
  addf
    (Host.dotGeneral dot_S100000x4_S4x128_S100000x128_1_0_0_1_n_n none x
        (shapeCast S4x128 (extractStridedSlice S1x4x128 ![0, 0, 0] W1 slices_S4x4x128_S1x4x128_0_0_0) shapeCasts_S1x4x128_S4x128))
    (Host.dotGeneral dot_S100000x4_S4x128_S100000x128_1_0_0_1_n_n none a
        (shapeCast S4x128 (extractStridedSlice S1x4x128 ![1, 0, 0] W1 slices_S4x4x128_S1x4x128_1_0_0) shapeCasts_S1x4x128_S4x128))
/-- The first two terms of the second dense layer. -/
def lin2ab (h0 h1 : Cn F S100000x128 .f32) (W2 : Cn F S4x128x128 .f32) : Cn F S100000x128 .f32 :=
  addf
    (Host.dotGeneral dot_S100000x128_S128x128_S100000x128_1_0_0_1_n_n none h0
        (shapeCast S128x128 (extractStridedSlice S1x128x128 ![0, 0, 0] W2 slices_S4x128x128_S1x128x128_0_0_0) shapeCasts_S1x128x128_S128x128))
    (Host.dotGeneral dot_S100000x128_S128x128_S100000x128_1_0_0_1_n_n none h1
        (shapeCast S128x128 (extractStridedSlice S1x128x128 ![1, 0, 0] W2 slices_S4x128x128_S1x128x128_1_0_0) shapeCasts_S1x128x128_S128x128))

theorem piece0_v1 (V : Valuation τ sig (Elt F)) : after piece0 V (Proc.devRef .tc main_v1) = row (F := F) (V (Proc.devRef .tc main_arg7)) := by
  after_results_simp; rfl
theorem piece0_v3 (V : Valuation τ sig (Elt F)) : after piece0 V (Proc.devRef .tc main_v3) = col (F := F) (V (Proc.devRef .tc main_arg7)) := by
  after_results_simp; rfl
theorem piece0_v5 (V : Valuation τ sig (Elt F)) : after piece0 V (Proc.devRef .tc main_v5) = row (F := F) (V (Proc.devRef .tc main_arg7)) := by
  after_results_simp; rfl
theorem piece0_v7 (V : Valuation τ sig (Elt F)) : after piece0 V (Proc.devRef .tc main_v7) = col (F := F) (V (Proc.devRef .tc main_arg7)) := by
  after_results_simp; rfl
theorem piece0_v17 (V : Valuation τ sig (Elt F)) : after piece0 V (Proc.devRef .tc main_v17) = dinv (F := F) (V (Proc.devRef .tc main_arg7)) := by
  after_results_simp; rfl

theorem piece1_v32 (V : Valuation τ sig (Elt F)) (ei : Cn F S2x1600000 .i32)
    (h5 : V (Proc.devRef .tc main_v5) = row ei) (h7 : V (Proc.devRef .tc main_v7) = col ei) (h17 : V (Proc.devRef .tc main_v17) = dinv ei) :
    after piece1 V (Proc.devRef .tc main_v32) = norm ei := by
  after_results_simp; rw [h5, h7, h17]; rfl

theorem piece2_v52 (V : Valuation τ sig (Elt F)) (ei : Cn F S2x1600000 .i32) (x : Cn F S100000x4 .f32) (W1 : Cn F S4x4x128 .f32)
    (h1 : V (Proc.devRef .tc main_v1) = row ei) (h3 : V (Proc.devRef .tc main_v3) = col ei) (h32 : V (Proc.devRef .tc main_v32) = norm ei)
    (hx : V (Proc.devRef .tc main_arg0) = x) (hW : V (Proc.devRef .tc main_arg1) = W1) :
    after piece2 V (Proc.devRef .tc main_v52) = lin1ab x (hop4 ei x) W1 := by
  after_results_simp; rw [h1, h3, h32, hx, hW]; rfl
theorem piece2_v65 (V : Valuation τ sig (Elt F)) (ei : Cn F S2x1600000 .i32) (x : Cn F S100000x4 .f32)
    (h1 : V (Proc.devRef .tc main_v1) = row ei) (h3 : V (Proc.devRef .tc main_v3) = col ei) (h32 : V (Proc.devRef .tc main_v32) = norm ei)
    (hx : V (Proc.devRef .tc main_arg0) = x) :
    after piece2 V (Proc.devRef .tc main_v65) = hop4 ei (hop4 ei x) := by
  after_results_simp; rw [h1, h3, h32, hx]; rfl

theorem piece3_v90 (V : Valuation τ sig (Elt F)) (ei : Cn F S2x1600000 .i32) (x : Cn F S100000x4 .f32) (W1 : Cn F S4x4x128 .f32) (b1 : Cn F S128 .f32)
    (h1 : V (Proc.devRef .tc main_v1) = row ei) (h3 : V (Proc.devRef .tc main_v3) = col ei) (h32 : V (Proc.devRef .tc main_v32) = norm ei)
    (h52 : V (Proc.devRef .tc main_v52) = lin1ab x (hop4 ei x) W1) (h65 : V (Proc.devRef .tc main_v65) = hop4 ei (hop4 ei x))
    (hW : V (Proc.devRef .tc main_arg1) = W1) (hb : V (Proc.devRef .tc main_arg2) = b1) :
    after piece3 V (Proc.devRef .tc main_v90) = lin1 x (hop4 ei x) (hop4 ei (hop4 ei x)) (hop4 ei (hop4 ei (hop4 ei x))) W1 b1 := by
  after_results_simp; rw [h1, h3, h32, h52, h65, hW, hb]; rfl

theorem piece4_v110 (V : Valuation τ sig (Elt F)) (ei : Cn F S2x1600000 .i32) (h : Cn F S100000x128 .f32) (W2 : Cn F S4x128x128 .f32)
    (h1 : V (Proc.devRef .tc main_v1) = row ei) (h3 : V (Proc.devRef .tc main_v3) = col ei) (h32 : V (Proc.devRef .tc main_v32) = norm ei)
    (hh : V (Proc.devRef .tc main_v90) = h) (hW : V (Proc.devRef .tc main_arg3) = W2) :
    after piece4 V (Proc.devRef .tc main_v110) = lin2ab h (hop128 ei h) W2 := by
  after_results_simp; rw [h1, h3, h32, hh, hW]; rfl
theorem piece4_v123 (V : Valuation τ sig (Elt F)) (ei : Cn F S2x1600000 .i32) (h : Cn F S100000x128 .f32)
    (h1 : V (Proc.devRef .tc main_v1) = row ei) (h3 : V (Proc.devRef .tc main_v3) = col ei) (h32 : V (Proc.devRef .tc main_v32) = norm ei)
    (hh : V (Proc.devRef .tc main_v90) = h) :
    after piece4 V (Proc.devRef .tc main_v123) = hop128 ei (hop128 ei h) := by
  after_results_simp; rw [h1, h3, h32, hh]; rfl

theorem piece5_v148 (V : Valuation τ sig (Elt F)) (ei : Cn F S2x1600000 .i32) (h : Cn F S100000x128 .f32) (W2 : Cn F S4x128x128 .f32) (b2 : Cn F S128 .f32)
    (h1 : V (Proc.devRef .tc main_v1) = row ei) (h3 : V (Proc.devRef .tc main_v3) = col ei) (h32 : V (Proc.devRef .tc main_v32) = norm ei)
    (h110 : V (Proc.devRef .tc main_v110) = lin2ab h (hop128 ei h) W2) (h123 : V (Proc.devRef .tc main_v123) = hop128 ei (hop128 ei h))
    (hW : V (Proc.devRef .tc main_arg3) = W2) (hb : V (Proc.devRef .tc main_arg4) = b2) :
    after piece5 V (Proc.devRef .tc main_v148) = lin2 h (hop128 ei h) (hop128 ei (hop128 ei h)) (hop128 ei (hop128 ei (hop128 ei h))) W2 b2 := by
  after_results_simp; rw [h1, h3, h32, h110, h123, hW, hb]; rfl

theorem piece6_v175 (V : Valuation τ sig (Elt F)) (s : Cn F S100000x128 .f32) (batch : Cn F S100000 .i32) (wlin : Cn F S128x2 .f32) (blin : Cn F S2 .f32)
    (hs : V (Proc.devRef .tc main_v148) = s) (hbatch : V (Proc.devRef .tc main_arg8) = batch) (hw : V (Proc.devRef .tc main_arg5) = wlin) (hb : V (Proc.devRef .tc main_arg6) = blin) :
    after piece6 V (Proc.devRef .tc main_v175) = tail (pool s batch) batch wlin blin := by
  after_results_simp; rw [hs, hbatch, hw, hb]; rfl

/-! ## The run, piece after piece -/

section Run

variable (m : (ℓ : Loc nD τ sig) → Buf (Elt F) ℓ) (c : Dev nD)

/-- The contents at the launch, and after each piece. -/
def R0 : Valuation τ sig (Elt F) := launchContents m c
def R1 : Valuation τ sig (Elt F) := after piece0 (R0 m c)
def R2 : Valuation τ sig (Elt F) := after piece1 (R1 m c)
def R3 : Valuation τ sig (Elt F) := after piece2 (R2 m c)
def R4 : Valuation τ sig (Elt F) := after piece3 (R3 m c)
def R5 : Valuation τ sig (Elt F) := after piece4 (R4 m c)
def R6 : Valuation τ sig (Elt F) := after piece5 (R5 m c)
def R7 : Valuation τ sig (Elt F) := after piece6 (R6 m c)

theorem after_ops_R7 : after ops (launchContents m c) = R7 m c := after_ops _

/-- A buffer none of the first pieces writes is as launched. -/
theorem R1_keep {r : Ref sig .tc} (h0 : r ∉ wr0) : R1 m c (Proc.devRef .tc r) = R0 m c (Proc.devRef .tc r) := piece0_keep _ h0
theorem R2_keep {r : Ref sig .tc} (h0 : r ∉ wr0) (h1 : r ∉ wr1) : R2 m c (Proc.devRef .tc r) = R0 m c (Proc.devRef .tc r) :=
  (piece1_keep _ h1).trans (R1_keep m c h0)
theorem R3_keep {r : Ref sig .tc} (h0 : r ∉ wr0) (h1 : r ∉ wr1) (h2 : r ∉ wr2) : R3 m c (Proc.devRef .tc r) = R0 m c (Proc.devRef .tc r) :=
  (piece2_keep _ h2).trans (R2_keep m c h0 h1)
theorem R4_keep {r : Ref sig .tc} (h0 : r ∉ wr0) (h1 : r ∉ wr1) (h2 : r ∉ wr2) (h3 : r ∉ wr3) : R4 m c (Proc.devRef .tc r) = R0 m c (Proc.devRef .tc r) :=
  (piece3_keep _ h3).trans (R3_keep m c h0 h1 h2)
theorem R5_keep {r : Ref sig .tc} (h0 : r ∉ wr0) (h1 : r ∉ wr1) (h2 : r ∉ wr2) (h3 : r ∉ wr3) (h4 : r ∉ wr4) :
    R5 m c (Proc.devRef .tc r) = R0 m c (Proc.devRef .tc r) :=
  (piece4_keep _ h4).trans (R4_keep m c h0 h1 h2 h3)
theorem R6_keep {r : Ref sig .tc} (h0 : r ∉ wr0) (h1 : r ∉ wr1) (h2 : r ∉ wr2) (h3 : r ∉ wr3) (h4 : r ∉ wr4) (h5 : r ∉ wr5) :
    R6 m c (Proc.devRef .tc r) = R0 m c (Proc.devRef .tc r) :=
  (piece5_keep _ h5).trans (R5_keep m c h0 h1 h2 h3 h4)
theorem R7_keep {r : Ref sig .tc} (h0 : r ∉ wr0) (h1 : r ∉ wr1) (h2 : r ∉ wr2) (h3 : r ∉ wr3) (h4 : r ∉ wr4) (h5 : r ∉ wr5) (h6 : r ∉ wr6) :
    R7 m c (Proc.devRef .tc r) = R0 m c (Proc.devRef .tc r) :=
  (piece6_keep _ h6).trans (R6_keep m c h0 h1 h2 h3 h4 h5)

/-! The edge list's rows, from the first piece on. -/
theorem R1_v1 : R1 m c (Proc.devRef .tc main_v1) = row (m ((c.tc : Thread nD τ).loc main_arg7)) := piece0_v1 _
theorem R1_v3 : R1 m c (Proc.devRef .tc main_v3) = col (m ((c.tc : Thread nD τ).loc main_arg7)) := piece0_v3 _
theorem R1_v5 : R1 m c (Proc.devRef .tc main_v5) = row (m ((c.tc : Thread nD τ).loc main_arg7)) := piece0_v5 _
theorem R1_v7 : R1 m c (Proc.devRef .tc main_v7) = col (m ((c.tc : Thread nD τ).loc main_arg7)) := piece0_v7 _
theorem R1_v17 : R1 m c (Proc.devRef .tc main_v17) = dinv (m ((c.tc : Thread nD τ).loc main_arg7)) := piece0_v17 _
theorem R2_v1 : R2 m c (Proc.devRef .tc main_v1) = row (m ((c.tc : Thread nD τ).loc main_arg7)) := (piece1_keep _ (by decide)).trans (R1_v1 m c)
theorem R2_v3 : R2 m c (Proc.devRef .tc main_v3) = col (m ((c.tc : Thread nD τ).loc main_arg7)) := (piece1_keep _ (by decide)).trans (R1_v3 m c)
theorem R3_v1 : R3 m c (Proc.devRef .tc main_v1) = row (m ((c.tc : Thread nD τ).loc main_arg7)) := (piece2_keep _ (by decide)).trans (R2_v1 m c)
theorem R3_v3 : R3 m c (Proc.devRef .tc main_v3) = col (m ((c.tc : Thread nD τ).loc main_arg7)) := (piece2_keep _ (by decide)).trans (R2_v3 m c)
theorem R4_v1 : R4 m c (Proc.devRef .tc main_v1) = row (m ((c.tc : Thread nD τ).loc main_arg7)) := (piece3_keep _ (by decide)).trans (R3_v1 m c)
theorem R4_v3 : R4 m c (Proc.devRef .tc main_v3) = col (m ((c.tc : Thread nD τ).loc main_arg7)) := (piece3_keep _ (by decide)).trans (R3_v3 m c)
theorem R5_v1 : R5 m c (Proc.devRef .tc main_v1) = row (m ((c.tc : Thread nD τ).loc main_arg7)) := (piece4_keep _ (by decide)).trans (R4_v1 m c)
theorem R5_v3 : R5 m c (Proc.devRef .tc main_v3) = col (m ((c.tc : Thread nD τ).loc main_arg7)) := (piece4_keep _ (by decide)).trans (R4_v3 m c)

/-! The edges' normalisation, from the second piece on. -/
theorem R2_v32 : R2 m c (Proc.devRef .tc main_v32) = norm (m ((c.tc : Thread nD τ).loc main_arg7)) := piece1_v32 _ _ (R1_v5 m c) (R1_v7 m c) (R1_v17 m c)
theorem R3_v32 : R3 m c (Proc.devRef .tc main_v32) = norm (m ((c.tc : Thread nD τ).loc main_arg7)) := (piece2_keep _ (by decide)).trans (R2_v32 m c)
theorem R4_v32 : R4 m c (Proc.devRef .tc main_v32) = norm (m ((c.tc : Thread nD τ).loc main_arg7)) := (piece3_keep _ (by decide)).trans (R3_v32 m c)
theorem R5_v32 : R5 m c (Proc.devRef .tc main_v32) = norm (m ((c.tc : Thread nD τ).loc main_arg7)) := (piece4_keep _ (by decide)).trans (R4_v32 m c)

/-! The first layer. -/
theorem R3_v52 : R3 m c (Proc.devRef .tc main_v52) = lin1ab (m ((c.tc : Thread nD τ).loc main_arg0)) (hop4 (m ((c.tc : Thread nD τ).loc main_arg7)) (m ((c.tc : Thread nD τ).loc main_arg0))) (m ((c.tc : Thread nD τ).loc main_arg1)) :=
  piece2_v52 _ _ _ _ (R2_v1 m c) (R2_v3 m c) (R2_v32 m c) (R2_keep m c (by decide) (by decide)) (R2_keep m c (by decide) (by decide))
theorem R3_v65 : R3 m c (Proc.devRef .tc main_v65) = hop4 (m ((c.tc : Thread nD τ).loc main_arg7)) (hop4 (m ((c.tc : Thread nD τ).loc main_arg7)) (m ((c.tc : Thread nD τ).loc main_arg0))) :=
  piece2_v65 _ _ _ (R2_v1 m c) (R2_v3 m c) (R2_v32 m c) (R2_keep m c (by decide) (by decide))
theorem R4_v90 : R4 m c (Proc.devRef .tc main_v90) = lin1 (m ((c.tc : Thread nD τ).loc main_arg0)) (hop4 (m ((c.tc : Thread nD τ).loc main_arg7)) (m ((c.tc : Thread nD τ).loc main_arg0))) (hop4 (m ((c.tc : Thread nD τ).loc main_arg7)) (hop4 (m ((c.tc : Thread nD τ).loc main_arg7)) (m ((c.tc : Thread nD τ).loc main_arg0)))) (hop4 (m ((c.tc : Thread nD τ).loc main_arg7)) (hop4 (m ((c.tc : Thread nD τ).loc main_arg7)) (hop4 (m ((c.tc : Thread nD τ).loc main_arg7)) (m ((c.tc : Thread nD τ).loc main_arg0))))) (m ((c.tc : Thread nD τ).loc main_arg1)) (m ((c.tc : Thread nD τ).loc main_arg2)) :=
  piece3_v90 _ _ _ _ _ (R3_v1 m c) (R3_v3 m c) (R3_v32 m c) (R3_v52 m c) (R3_v65 m c) (R3_keep m c (by decide) (by decide) (by decide)) (R3_keep m c (by decide) (by decide) (by decide))

/-! The second layer, on the first layer's result h. -/
theorem R5_v110 : R5 m c (Proc.devRef .tc main_v110) = lin2ab (lin1 (m ((c.tc : Thread nD τ).loc main_arg0)) (hop4 (m ((c.tc : Thread nD τ).loc main_arg7)) (m ((c.tc : Thread nD τ).loc main_arg0))) (hop4 (m ((c.tc : Thread nD τ).loc main_arg7)) (hop4 (m ((c.tc : Thread nD τ).loc main_arg7)) (m ((c.tc : Thread nD τ).loc main_arg0)))) (hop4 (m ((c.tc : Thread nD τ).loc main_arg7)) (hop4 (m ((c.tc : Thread nD τ).loc main_arg7)) (hop4 (m ((c.tc : Thread nD τ).loc main_arg7)) (m ((c.tc : Thread nD τ).loc main_arg0))))) (m ((c.tc : Thread nD τ).loc main_arg1)) (m ((c.tc : Thread nD τ).loc main_arg2))) (hop128 (m ((c.tc : Thread nD τ).loc main_arg7)) (lin1 (m ((c.tc : Thread nD τ).loc main_arg0)) (hop4 (m ((c.tc : Thread nD τ).loc main_arg7)) (m ((c.tc : Thread nD τ).loc main_arg0))) (hop4 (m ((c.tc : Thread nD τ).loc main_arg7)) (hop4 (m ((c.tc : Thread nD τ).loc main_arg7)) (m ((c.tc : Thread nD τ).loc main_arg0)))) (hop4 (m ((c.tc : Thread nD τ).loc main_arg7)) (hop4 (m ((c.tc : Thread nD τ).loc main_arg7)) (hop4 (m ((c.tc : Thread nD τ).loc main_arg7)) (m ((c.tc : Thread nD τ).loc main_arg0))))) (m ((c.tc : Thread nD τ).loc main_arg1)) (m ((c.tc : Thread nD τ).loc main_arg2)))) (m ((c.tc : Thread nD τ).loc main_arg3)) :=
  piece4_v110 _ _ _ _ (R4_v1 m c) (R4_v3 m c) (R4_v32 m c) (R4_v90 m c) (R4_keep m c (by decide) (by decide) (by decide) (by decide))
theorem R5_v123 : R5 m c (Proc.devRef .tc main_v123) = hop128 (m ((c.tc : Thread nD τ).loc main_arg7)) (hop128 (m ((c.tc : Thread nD τ).loc main_arg7)) (lin1 (m ((c.tc : Thread nD τ).loc main_arg0)) (hop4 (m ((c.tc : Thread nD τ).loc main_arg7)) (m ((c.tc : Thread nD τ).loc main_arg0))) (hop4 (m ((c.tc : Thread nD τ).loc main_arg7)) (hop4 (m ((c.tc : Thread nD τ).loc main_arg7)) (m ((c.tc : Thread nD τ).loc main_arg0)))) (hop4 (m ((c.tc : Thread nD τ).loc main_arg7)) (hop4 (m ((c.tc : Thread nD τ).loc main_arg7)) (hop4 (m ((c.tc : Thread nD τ).loc main_arg7)) (m ((c.tc : Thread nD τ).loc main_arg0))))) (m ((c.tc : Thread nD τ).loc main_arg1)) (m ((c.tc : Thread nD τ).loc main_arg2)))) :=
  piece4_v123 _ _ _ (R4_v1 m c) (R4_v3 m c) (R4_v32 m c) (R4_v90 m c)
theorem R6_v148 : R6 m c (Proc.devRef .tc main_v148)
    = lin2 (lin1 (m ((c.tc : Thread nD τ).loc main_arg0)) (hop4 (m ((c.tc : Thread nD τ).loc main_arg7)) (m ((c.tc : Thread nD τ).loc main_arg0))) (hop4 (m ((c.tc : Thread nD τ).loc main_arg7)) (hop4 (m ((c.tc : Thread nD τ).loc main_arg7)) (m ((c.tc : Thread nD τ).loc main_arg0)))) (hop4 (m ((c.tc : Thread nD τ).loc main_arg7)) (hop4 (m ((c.tc : Thread nD τ).loc main_arg7)) (hop4 (m ((c.tc : Thread nD τ).loc main_arg7)) (m ((c.tc : Thread nD τ).loc main_arg0))))) (m ((c.tc : Thread nD τ).loc main_arg1)) (m ((c.tc : Thread nD τ).loc main_arg2))) (hop128 (m ((c.tc : Thread nD τ).loc main_arg7)) (lin1 (m ((c.tc : Thread nD τ).loc main_arg0)) (hop4 (m ((c.tc : Thread nD τ).loc main_arg7)) (m ((c.tc : Thread nD τ).loc main_arg0))) (hop4 (m ((c.tc : Thread nD τ).loc main_arg7)) (hop4 (m ((c.tc : Thread nD τ).loc main_arg7)) (m ((c.tc : Thread nD τ).loc main_arg0)))) (hop4 (m ((c.tc : Thread nD τ).loc main_arg7)) (hop4 (m ((c.tc : Thread nD τ).loc main_arg7)) (hop4 (m ((c.tc : Thread nD τ).loc main_arg7)) (m ((c.tc : Thread nD τ).loc main_arg0))))) (m ((c.tc : Thread nD τ).loc main_arg1)) (m ((c.tc : Thread nD τ).loc main_arg2)))) (hop128 (m ((c.tc : Thread nD τ).loc main_arg7)) (hop128 (m ((c.tc : Thread nD τ).loc main_arg7)) (lin1 (m ((c.tc : Thread nD τ).loc main_arg0)) (hop4 (m ((c.tc : Thread nD τ).loc main_arg7)) (m ((c.tc : Thread nD τ).loc main_arg0))) (hop4 (m ((c.tc : Thread nD τ).loc main_arg7)) (hop4 (m ((c.tc : Thread nD τ).loc main_arg7)) (m ((c.tc : Thread nD τ).loc main_arg0)))) (hop4 (m ((c.tc : Thread nD τ).loc main_arg7)) (hop4 (m ((c.tc : Thread nD τ).loc main_arg7)) (hop4 (m ((c.tc : Thread nD τ).loc main_arg7)) (m ((c.tc : Thread nD τ).loc main_arg0))))) (m ((c.tc : Thread nD τ).loc main_arg1)) (m ((c.tc : Thread nD τ).loc main_arg2)))))
        (hop128 (m ((c.tc : Thread nD τ).loc main_arg7)) (hop128 (m ((c.tc : Thread nD τ).loc main_arg7)) (hop128 (m ((c.tc : Thread nD τ).loc main_arg7)) (lin1 (m ((c.tc : Thread nD τ).loc main_arg0)) (hop4 (m ((c.tc : Thread nD τ).loc main_arg7)) (m ((c.tc : Thread nD τ).loc main_arg0))) (hop4 (m ((c.tc : Thread nD τ).loc main_arg7)) (hop4 (m ((c.tc : Thread nD τ).loc main_arg7)) (m ((c.tc : Thread nD τ).loc main_arg0)))) (hop4 (m ((c.tc : Thread nD τ).loc main_arg7)) (hop4 (m ((c.tc : Thread nD τ).loc main_arg7)) (hop4 (m ((c.tc : Thread nD τ).loc main_arg7)) (m ((c.tc : Thread nD τ).loc main_arg0))))) (m ((c.tc : Thread nD τ).loc main_arg1)) (m ((c.tc : Thread nD τ).loc main_arg2)))))) (m ((c.tc : Thread nD τ).loc main_arg3)) (m ((c.tc : Thread nD τ).loc main_arg4)) :=
  piece5_v148 _ _ _ _ _ (R5_v1 m c) (R5_v3 m c) (R5_v32 m c) (R5_v110 m c) (R5_v123 m c) (R5_keep m c (by decide) (by decide) (by decide) (by decide) (by decide)) (R5_keep m c (by decide) (by decide) (by decide) (by decide) (by decide))

/-- The program's result. -/
theorem after_v175 : after ops (launchContents m c) (Proc.devRef .tc main_v175)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (congrFun (after_ops_R7 m c) _).trans
    (piece6_v175 _ _ _ _ _ (R6_v148 m c) (R6_keep m c (by decide) (by decide) (by decide) (by decide) (by decide) (by decide)) (R6_keep m c (by decide) (by decide) (by decide) (by decide) (by decide) (by decide)) (R6_keep m c (by decide) (by decide) (by decide) (by decide) (by decide) (by decide)))

/-! No piece writes an argument array. -/
theorem after_arg0 : after ops (launchContents m c) (Proc.devRef .tc main_arg0) = m ((c.tc : Thread nD τ).loc main_arg0) :=
  (congrFun (after_ops_R7 m c) _).trans (R7_keep m c (by decide) (by decide) (by decide) (by decide) (by decide) (by decide) (by decide))
theorem after_arg1 : after ops (launchContents m c) (Proc.devRef .tc main_arg1) = m ((c.tc : Thread nD τ).loc main_arg1) :=
  (congrFun (after_ops_R7 m c) _).trans (R7_keep m c (by decide) (by decide) (by decide) (by decide) (by decide) (by decide) (by decide))
theorem after_arg2 : after ops (launchContents m c) (Proc.devRef .tc main_arg2) = m ((c.tc : Thread nD τ).loc main_arg2) :=
  (congrFun (after_ops_R7 m c) _).trans (R7_keep m c (by decide) (by decide) (by decide) (by decide) (by decide) (by decide) (by decide))
theorem after_arg3 : after ops (launchContents m c) (Proc.devRef .tc main_arg3) = m ((c.tc : Thread nD τ).loc main_arg3) :=
  (congrFun (after_ops_R7 m c) _).trans (R7_keep m c (by decide) (by decide) (by decide) (by decide) (by decide) (by decide) (by decide))
theorem after_arg4 : after ops (launchContents m c) (Proc.devRef .tc main_arg4) = m ((c.tc : Thread nD τ).loc main_arg4) :=
  (congrFun (after_ops_R7 m c) _).trans (R7_keep m c (by decide) (by decide) (by decide) (by decide) (by decide) (by decide) (by decide))
theorem after_arg5 : after ops (launchContents m c) (Proc.devRef .tc main_arg5) = m ((c.tc : Thread nD τ).loc main_arg5) :=
  (congrFun (after_ops_R7 m c) _).trans (R7_keep m c (by decide) (by decide) (by decide) (by decide) (by decide) (by decide) (by decide))
theorem after_arg6 : after ops (launchContents m c) (Proc.devRef .tc main_arg6) = m ((c.tc : Thread nD τ).loc main_arg6) :=
  (congrFun (after_ops_R7 m c) _).trans (R7_keep m c (by decide) (by decide) (by decide) (by decide) (by decide) (by decide) (by decide))
theorem after_arg7 : after ops (launchContents m c) (Proc.devRef .tc main_arg7) = m ((c.tc : Thread nD τ).loc main_arg7) :=
  (congrFun (after_ops_R7 m c) _).trans (R7_keep m c (by decide) (by decide) (by decide) (by decide) (by decide) (by decide) (by decide))
theorem after_arg8 : after ops (launchContents m c) (Proc.devRef .tc main_arg8) = m ((c.tc : Thread nD τ).loc main_arg8) :=
  (congrFun (after_ops_R7 m c) _).trans (R7_keep m c (by decide) (by decide) (by decide) (by decide) (by decide) (by decide) (by decide))

end Run

/-- On every device, at any float instance, from any memory with zero counters: every weakly fair execution of the
    reference program terminates with its result buffer at the reference function of the launched arguments, and
    every argument array as launched. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v175)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨(h c main_v175).trans (after_v175 m c),
     (h c main_arg0).trans (after_arg0 m c),
     (h c main_arg1).trans (after_arg1 m c),
     (h c main_arg2).trans (after_arg2 m c),
     (h c main_arg3).trans (after_arg3 m c),
     (h c main_arg4).trans (after_arg4 m c),
     (h c main_arg5).trans (after_arg5 m c),
     (h c main_arg6).trans (after_arg6 m c),
     (h c main_arg7).trans (after_arg7 m c),
     (h c main_arg8).trans (after_arg8 m c)⟩) (run_fold m ρ)

end Cert.RefRun

end
-- ==== Proof.lean ====
/-
  The certificate: the word-level kernel program and its idealization each run to the end without a fault and leave their
  arguments unchanged; so does the reference; the idealization rewrote nothing; and at the ideal instance, from memories
  agreeing on the arguments, the kernel program and the reference end with equal results.

  The kernel program computes, with host operations, the symmetric edge normalisation and three hops of normalised
  neighbour sums of the node features; a first launch applies the dense layer to the four hop features side by side
  (one 16-wide product where the reference adds four 4-wide ones); three more hops; a second launch applies the second
  dense layer block by block and multiplies each block by its one-hot graph membership, the 25 partial sums added up on
  the host (where the reference adds the rows up by graph number); then the mean, the linear layer and the softmax.
  On the extended reals sums regroup freely and 0·y = 0, 1·y = y for every y, so no finiteness of the inputs is used.
-/
import proofs.«429956_j56246891708529_3_alg».proof.Defs
import proofs.«429956_j56246891708529_3_alg».proof.Proof.Gen.Kernel
import proofs.«429956_j56246891708529_3_alg».proof.Proof.Gen.KernelIdeal
import proofs.«429956_j56246891708529_3_alg».proof.Proof.Gen.ReferenceIdeal
import proofs.«429956_j56246891708529_3_alg».proof.Proof.Gen.Pre_finite_inputs
import proofs.«429956_j56246891708529_3_alg».proof.Proof.KB.Run
import proofs.«429956_j56246891708529_3_alg».proof.Proof.KI.Run
import proofs.«429956_j56246891708529_3_alg».proof.Proof.KValue
import proofs.«429956_j56246891708529_3_alg».proof.Proof.RefRun

noncomputable section

namespace Cert.Proof

open Idealize.ShloMosaic Idealize.ShloMosaic.TcCoe Idealize.SL.Sem

/-- The word-level program runs to the end, faults nowhere and leaves its arguments as launched. -/
theorem frame_k : Cert.frame_Kernel := fun m ρ _ => Cert.Kernel.Frm.frame m ρ
/-- So does its idealization. -/
theorem frame_ki : Cert.frame_KernelIdeal := fun m ρ _ => Cert.KernelIdeal.Frm.frame m ρ
/-- The reference is a straight line of host operations: its run, with the result dropped. -/
theorem frame_ri : Cert.frame_ReferenceIdeal := fun m ρ _ =>
  (θ_run Cert.ReferenceIdeal.defs _ _).mono (fun _ h c => (h c).2) (Cert.RefRun.ref_run (F := Ideal) m ρ)

/-- From memories that agree on the arguments both programs end with the reference's function of the arguments in their
    result buffer: the kernel program by its run and the value of its last boundary, the reference by its run. -/
theorem algebraic : Cert.algebraic_KernelIdeal_ReferenceIdeal := by
  intro m ρ m' ρ' _ hagree
  refine ⟨fun c => RSpec.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Frm.run_all (F := Ideal) m ρ)
    exact ⟨(h c _ (Cert.KernelIdeal.Frm.mem_uc Cert.KernelIdeal.main_v142 (by decide))).trans (Cert.KernelIdeal.Frm.kernel_value m c),
      (h c _ (Cert.KernelIdeal.Frm.mem_uc Cert.KernelIdeal.main_arg0 (by decide))).trans (Cert.KernelIdeal.Frm.W7_main_arg0 m c),
      (h c _ (Cert.KernelIdeal.Frm.mem_uc Cert.KernelIdeal.main_arg1 (by decide))).trans (Cert.KernelIdeal.Frm.W7_main_arg1 m c),
      (h c _ (Cert.KernelIdeal.Frm.mem_uc Cert.KernelIdeal.main_arg2 (by decide))).trans (Cert.KernelIdeal.Frm.W7_main_arg2 m c),
      (h c _ (Cert.KernelIdeal.Frm.mem_uc Cert.KernelIdeal.main_arg3 (by decide))).trans (Cert.KernelIdeal.Frm.W7_main_arg3 m c),
      (h c _ (Cert.KernelIdeal.Frm.mem_uc Cert.KernelIdeal.main_arg4 (by decide))).trans (Cert.KernelIdeal.Frm.W7_main_arg4 m c),
      (h c _ (Cert.KernelIdeal.Frm.mem_uc Cert.KernelIdeal.main_arg5 (by decide))).trans (Cert.KernelIdeal.Frm.W7_main_arg5 m c),
      (h c _ (Cert.KernelIdeal.Frm.mem_uc Cert.KernelIdeal.main_arg6 (by decide))).trans (Cert.KernelIdeal.Frm.W7_main_arg6 m c),
      (h c _ (Cert.KernelIdeal.Frm.mem_uc Cert.KernelIdeal.main_arg7 (by decide))).trans (Cert.KernelIdeal.Frm.W7_main_arg7 m c),
      (h c _ (Cert.KernelIdeal.Frm.mem_uc Cert.KernelIdeal.main_arg8 (by decide))).trans (Cert.KernelIdeal.Frm.W7_main_arg8 m c)⟩
  · refine (θ_run Cert.ReferenceIdeal.defs _ _).mono (fun r h c => ⟨?_, (h c).2⟩) (Cert.RefRun.ref_run (F := Ideal) m' ρ')
    rw [(h c).1, (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

/-- Everything the certificate claims. The idealization rewrote no operation, so the kernel program read at the ideal
    instance is its own idealization and that conjunct is trivial. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
